-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg3 : IVec S4096 32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_c_6 : IVec S_ 32 := constantI S_ 32 0#32
  let main_v19 : IVec S4096 32 := broadcastInDim S4096 ![] bcast_S_S4096 main_c_6
  let main_v20 : IVec S4096 1 := cmpi .sge main_arg3 main_v19
  let main_c_7 : IVec S_ 1 := constantI S_ 1 1#1
  let main_v21 : IVec S_ 1 := (fun x v => Host.reduce IntOp.andi x v reducesTo_S4096_S_d0 h_S_) main_v20 main_c_7
  let main_v22 : IVec S_ 1 := andi main_v18 main_v21
  let main_c_8 : IVec S_ 32 := constantI S_ 32 2048#32
  let main_v23 : IVec S4096 32 := broadcastInDim S4096 ![] bcast_S_S4096 main_c_8
  let main_v24 : IVec S4096 1 := cmpi .slt main_arg3 main_v23
  let main_c_9 : IVec S_ 1 := constantI S_ 1 1#1
  let main_v25 : IVec S_ 1 := (fun x v => Host.reduce IntOp.andi x v reducesTo_S4096_S_d0 h_S_) main_v24 main_c_9
  let main_v26 : IVec S_ 1 := andi main_v22 main_v25
  main_v26

def fn {F : FTy → Type} [FloatOps F] (main_arg0 : FVec F S4096x4096 .f32) (main_arg1 : FVec F S4096x4096 .f32) (main_arg2 : FVec F S4096 .f32) (main_arg3 : IVec S4096 32) (main_arg4 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg3 main_v13 main_v16
-- ==== Kernel.lean ====
abbrev S4096x4096 : Shape := ⟨2, ![4096, 4096]⟩
abbrev S4096 : Shape := ⟨1, ![4096]⟩
abbrev S4096x1 : Shape := ⟨2, ![4096, 1]⟩
abbrev S1x2048 : Shape := ⟨2, ![1, 2048]⟩
abbrev S4096x2048 : Shape := ⟨2, ![4096, 2048]⟩
abbrev S1x4096 : Shape := ⟨2, ![1, 4096]⟩
abbrev S512x2048 : Shape := ⟨2, ![512, 2048]⟩
abbrev S2048x2048 : Shape := ⟨2, ![2048, 2048]⟩

abbrev nBuf : Space → Nat
  | .hbm => 16
  | .vmem => 23
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096, .i32⟩
  | .hbm, ⟨4, _⟩ => ⟨S4096, .f32⟩
  | .hbm, ⟨5, _⟩ => ⟨S4096x1, .i32⟩
  | .hbm, ⟨6, _⟩ => ⟨S1x2048, .i32⟩
  | .hbm, ⟨7, _⟩ => ⟨S4096x2048, .i32⟩
  | .hbm, ⟨8, _⟩ => ⟨S4096x2048, .i32⟩
  | .hbm, ⟨9, _⟩ => ⟨S4096x2048, .i1⟩
  | .hbm, ⟨10, _⟩ => ⟨S4096x2048, .bf16⟩
  | .hbm, ⟨11, _⟩ => ⟨S1x4096, .f32⟩
  | .hbm, ⟨12, _⟩ => ⟨S4096x2048, .bf16⟩
  | .hbm, ⟨13, _⟩ => ⟨S4096x2048, .bf16⟩
  | .hbm, ⟨14, _⟩ => ⟨S1x4096, .f32⟩
  | .hbm, ⟨15, _⟩ => ⟨S4096x4096, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S4096x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1x2048, .f32⟩
  | .local _ .vmem, ⟨12, _⟩ => ⟨S4096x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | .local _ .vmem, ⟨18, _⟩ => ⟨S4096x2048, .bf16⟩
  | .local _ .vmem, ⟨19, _⟩ => ⟨S1x2048, .f32⟩
  | .local _ .vmem, ⟨20, _⟩ => ⟨S1x2048, .f32⟩
  | .local _ .vmem, ⟨21, _⟩ => ⟨S512x2048, .f32⟩
  | .local _ .vmem, ⟨22, _⟩ => ⟨S512x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c2048_i32 : BitVec 32 := 2048#32
  let v9 : BitVec 32 := Scalar.muli arg1 c2048_i32
  v9
def k0_off1 (i : grid0.Coords) : Fin 2 → Nat :=
  let arg1 : BitVec 32 := BitVec.ofNat 32 (i 1).val
  let c2048_i32 : BitVec 32 := 2048#32
  let v9 : BitVec 32 := Scalar.muli arg1 c2048_i32
  let v10 : BitVec 32 := v9
  let v11 : Index := Scalar.indexCast v10
  let c0_4 : Index := 0#32
  ![v11.toNat, 0]
def k0_cond2 (i : grid0.Coords) : BitVec 1 :=
  let arg1 : BitVec 32 := BitVec.ofNat 32 (i 1).val
  let c1_i32 : BitVec 32 := 1#32
  let v20 : BitVec 1 := Scalar.cmpi .eq arg1 c1_i32
  let v21 : BitVec 32 := Scalar.extui v20
  let c0_i32_9 : BitVec 32 := 0#32
  let v22 : BitVec 1 := Scalar.cmpi .ne v21 c0_i32_9
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 2], ![false, false]⟩

def k1_mult1 (i : grid1.Coords) : BitVec 32 :=
  let arg1 : BitVec 32 := BitVec.ofNat 32 (i 1).val
  let c2048_i32 : BitVec 32 := 2048#32
  let v9 : BitVec 32 := Scalar.muli arg1 c2048_i32
  v9
def k1_off1 (i : grid1.Coords) : Fin 2 → Nat :=
  let arg1 : BitVec 32 := BitVec.ofNat 32 (i 1).val
  let c2048_i32 : BitVec 32 := 2048#32
  let v9 : BitVec 32 := Scalar.muli arg1 c2048_i32
  let v10 : BitVec 32 := v9
  let v11 : Index := Scalar.indexCast v10
  let c0_4 : Index := 0#32
  ![v11.toNat, 0]
def k1_cond2 (i : grid1.Coords) : BitVec 1 :=
  let arg1 : BitVec 32 := BitVec.ofNat 32 (i 1).val
  let c1_i32 : BitVec 32 := 1#32
  let v20 : BitVec 1 := Scalar.cmpi .eq arg1 c1_i32
  let v21 : BitVec 32 := Scalar.extui v20
  let c0_i32_9 : BitVec 32 := 0#32
  let v22 : BitVec 1 := Scalar.cmpi .ne v21 c0_i32_9
  v22

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S4096x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 2], ![false, false]⟩

def k2_mult1 (i : grid2.Coords) : BitVec 32 :=
  let arg1 : BitVec 32 := BitVec.ofNat 32 (i 1).val
  let c2048_i32 : BitVec 32 := 2048#32
  let v0 : BitVec 32 := Scalar.muli arg1 c2048_i32
  v0
def k2_off1 (i : grid2.Coords) : Fin 2 → Nat :=
  let arg1 : BitVec 32 := BitVec.ofNat 32 (i 1).val
  let c2048_i32 : BitVec 32 := 2048#32
  let v0 : BitVec 32 := Scalar.muli arg1 c2048_i32
  let v1 : BitVec 32 := v0
  let v2 : Index := Scalar.indexCast v1
  let c0 : Index := 0#32
  ![v2.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S4096x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  bcast_S4096_S4096x1_0 : S4096.BroadcastsInDim S4096x1 (![0] : Fin 1 → Fin S4096x1.rank)
  bcast_S4096x1_S4096x2048_0_1 : S4096x1.BroadcastsInDim S4096x2048 (![0, 1] : Fin 2 → Fin S4096x2048.rank)
  bcast_S1x2048_S4096x2048_0_1 : S1x2048.BroadcastsInDim S4096x2048 (![0, 1] : Fin 2 → Fin S4096x2048.rank)
  shapeCasts_S4096_S1x4096 : S4096.ShapeCasts S1x4096
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  bitsLt_bf16_f32 : FTy.bits .bf16 < FTy.bits .f32
  h_S2048x2048 : 0 < S2048x2048.numel
  shapeCasts_S2048x2048_S2048x2048 : S2048x2048.ShapeCasts S2048x2048
  packedbf16_S512x2048_S512x2048_0_0 : (Rect.unit (s := S512x2048) ![0, 0] S512x2048.size inb_S512x2048_S512x2048_0_0).PackedRows (EltTy.packing .bf16)
  dot_S512x2048_S2048x2048_S512x2048_1_0_0_1_n_n_wf : DotDims.WF S512x2048 S2048x2048 S512x2048 [1] [0] [0] [1] [] []
  dot_S512x2048_S2048x2048_S512x2048_1_1_0_0_n_n_wf : DotDims.WF S512x2048 S2048x2048 S512x2048 [1] [1] [0] [0] [] []
  hrank0 : 0 < grid0.rank
  k0_mult1_dvd : ∀ i : grid0.Coords, 2048 ∣ (k0_mult1 i).toNat
  k0_off1_inb : ∀ i : grid0.Coords, ∀ a, (k0_off1 i) a + S2048x2048.size a ≤ S4096x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x4096.size a
  hwx0_0 : ∀ i : grid0.Coords, EltTy.bits .f32 = 32 ∨ (Rect.block (s := S4096x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x4096.size a
  hwx0_1 : ∀ i : grid0.Coords, EltTy.bits .f32 = 32 ∨ (Rect.block (s := S1x4096) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x2048.size a ≤ S4096x2048.size a
  hwx0_2 : ∀ i : grid0.Coords, EltTy.bits .bf16 = 32 ∨ (Rect.block (s := S4096x2048) S4096x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x2048.size a
  hwx0_3 : ∀ i : grid0.Coords, EltTy.bits .bf16 = 32 ∨ (Rect.block (s := S4096x2048) S512x2048.size (cc0_transform_3 i) (hinb0_3 i)).WholeWords (EltTy.packing .bf16)
  hrank1 : 0 < grid1.rank
  k1_mult1_dvd : ∀ i : grid1.Coords, 2048 ∣ (k1_mult1 i).toNat
  k1_off1_inb : ∀ i : grid1.Coords, ∀ a, (k1_off1 i) a + S2048x2048.size a ≤ S4096x2048.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x4096.size a
  hwx1_0 : ∀ i : grid1.Coords, EltTy.bits .f32 = 32 ∨ (Rect.block (s := S4096x4096) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x4096.size a
  hwx1_1 : ∀ i : grid1.Coords, EltTy.bits .f32 = 32 ∨ (Rect.block (s := S1x4096) S1x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x2048.size a ≤ S4096x2048.size a
  hwx1_2 : ∀ i : grid1.Coords, EltTy.bits .bf16 = 32 ∨ (Rect.block (s := S4096x2048) S4096x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S4096x2048.size a
  hwx1_3 : ∀ i : grid1.Coords, EltTy.bits .bf16 = 32 ∨ (Rect.block (s := S4096x2048) S512x2048.size (cc1_transform_3 i) (hinb1_3 i)).WholeWords (EltTy.packing .bf16)
  hrank2 : 0 < grid2.rank
  k2_mult1_dvd : ∀ i : grid2.Coords, 2048 ∣ (k2_mult1 i).toNat
  k2_off1_inb : ∀ i : grid2.Coords, ∀ a, (k2_off1 i) a + S2048x2048.size a ≤ S4096x2048.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S4096x2048.size a
  hwx2_0 : ∀ i : grid2.Coords, EltTy.bits .bf16 = 32 ∨ (Rect.block (s := S4096x2048) S512x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x2048.size a ≤ S4096x2048.size a
  hwx2_1 : ∀ i : grid2.Coords, EltTy.bits .bf16 = 32 ∨ (Rect.block (s := S4096x2048) S4096x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x4096.size a
  hwx2_2 : ∀ i : grid2.Coords, EltTy.bits .f32 = 32 ∨ (Rect.block (s := S1x4096) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x2048.size a ≤ S4096x4096.size a
  hwx2_3 : ∀ i : grid2.Coords, EltTy.bits .f32 = 32 ∨ (Rect.block (s := S4096x4096) S512x2048.size (cc2_transform_3 i) (hinb2_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S4096x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v2) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S4096x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S512x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩
abbrev S4096x2048 : Shape := ⟨2, ![4096, 2048]⟩
abbrev S1x4096 : Shape := ⟨2, ![1, 4096]⟩
abbrev S4096x1 : Shape := ⟨2, ![4096, 1]⟩
abbrev S2048x4096 : Shape := ⟨2, ![2048, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096, .i32⟩
  | .hbm, ⟨4, _⟩ => ⟨S4096, .f32⟩
  | .hbm, ⟨5, _⟩ => ⟨S_, .f32⟩
  | .hbm, ⟨6, _⟩ => ⟨S4096x2048, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S4096x1, .i32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096x2048, .f32⟩
  | .hbm, ⟨33, _⟩ => ⟨S2048x4096, .f32⟩
  | .hbm, ⟨34, _⟩ => ⟨S4096x4096, .f32⟩
  | .hbm, ⟨35, _⟩ => ⟨S1x4096, .f32⟩
  | .hbm, ⟨36, _⟩ => ⟨S4096x4096, .f32⟩
  | .hbm, ⟨37, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096 : S_.BroadcastsInDim S4096 (![] : Fin 0 → Fin S4096.rank)
  bcast_S4096_S4096x1_0 : S4096.BroadcastsInDim S4096x1 (![0] : Fin 1 → Fin S4096x1.rank)
  transposes_S4096x2048_S2048x4096_1_0 : S4096x2048.Transposes [1, 0] S2048x4096
  scatter_S4096x2048_S4096x1_S4096x4096_0_1_1_1_wf : ScatterDims.WF S4096x2048 S4096x1 S4096x4096 [0] [1] [1] 1
  dot_S4096x2048_S2048x4096_S4096x4096_1_0_0_1_n_n_wf : DotDims.WF S4096x2048 S2048x4096 S4096x4096 [1] [0] [0] [1] [] []

variable [Facts₀]

def scatter_S4096x2048_S4096x1_S4096x4096_0_1_1_1 : ScatterDims S4096x2048 S4096x1 S4096x4096 where
  updateWindowDims := [0]
  insertedWindowDims := [1]
  scatterDimsToOperandDims := [1]
  indexVectorDim := 1
  wf := scatter_S4096x2048_S4096x1_S4096x4096_0_1_1_1_wf
def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.Sketch0.lean ====
/-
  The first sketch call (rows of the first matrix): what its staging buffers and its accumulator hold point by point.
  The grid is 8 row tiles by 2 halves of the contracted axis; point t = 2·i + k. At k = 0 the accumulator is reset to zero
  and the first half's product is added; at k = 1 the second half's product is added and the accumulator is written out.
-/
import proofs.«418869_j12721693131116_3_alg».proof.Proof.Gen.KernelIdeal.Launch
import proofs.«418869_j12721693131116_3_alg».proof.Proof.Gen.KernelIdeal.Skeleton
import proofs.«418869_j12721693131116_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 512 × 2048 tile, the whole 1 × 2048 row, and the 2048 rows of the resident matrix a point contracts over. -/
abbrev rT0 : Rect S512x2048 := Rect.unit (s := S512x2048) ![0, 0] S512x2048.size inb_S512x2048_S512x2048_0_0
abbrev rR0 : Rect S1x2048 := Rect.unit (s := S1x2048) ![0, 0] S1x2048.size inb_S1x2048_S1x2048_0_0
abbrev rS0 (i : grid0.Coords) : Rect S4096x2048 := Rect.unit (s := S4096x2048) (k0_off1 i) S2048x2048.size (k0_off1_inb i)

/-- One accumulation: the accumulator `a` plus the product of the signed tile with the point's rows of the resident matrix. -/
def step0 (i : grid0.Coords) (x0 : Vec F S512x2048 .f32) (x1 : Vec F S1x2048 .f32) (x2 : Vec F S4096x2048 .bf16)
    (a : Vec F S512x2048 .f32) : Vec F S512x2048 .f32 :=
  k0_pay2 (View.ld x0 rT0) (View.ld x1 rR0) (View.ld x2 (rS0 i)) a

/-- The accumulator after point `n`: from zero at an even point, from what the point before left at an odd one. -/
def acc0 (c : Dev nD) : (n : ℕ) → n < cfg0.N → Vec F S512x2048 .f32
  | 0, hn => step0 (grid0.coords ⟨0, hn⟩) (iblk0 V c 0 ⟨0, hn⟩) (iblk0 V c 1 ⟨0, hn⟩) (iblk0 V c 2 ⟨0, hn⟩) (k0_pay1 (F := F))
  | n + 1, hn => step0 (grid0.coords ⟨n + 1, hn⟩) (iblk0 V c 0 ⟨n + 1, hn⟩) (iblk0 V c 1 ⟨n + 1, hn⟩) (iblk0 V c 2 ⟨n + 1, hn⟩)
      (if (n + 1) % 2 = 0 then (k0_pay1 (F := F)) else acc0 c n (Nat.lt_of_succ_lt hn))

/-- The accumulator scratch as a memref. -/
abbrev scM0 : Memref sig .tc .vmem S512x2048 .f32 := Memref.whole cc0_scratch0

/-- The call's invariant before point `n`: at entry every scoped buffer that is no staging buffer at anything; afterwards the
    accumulator at what the point before left, the other calls' scoped buffers unopened, the generator register at some state. -/
def Phi0 (c : Dev nD) : (n : ℕ) → n ≤ cfg0.N → sProp 𝕄
  | 0, _ => Pipeline.ΦA spec0 c
  | n + 1, hn => iprop(owns (c : Thread nD τ) scM0 fullShare (acc0 V c n hn)
      ∗ Pipeline.scopedRestBut (Ix := Unit) (Name := ℕ) (U := UR sig nD τ) (Lvl := ℕ) (Val := Elt F) spec0 c [cc0_scratch0]
      ∗ (∃ r, prngReg c r))

/-- The proof data: arrays as found; inputs left at their blocks; the output tile at the accumulator written out. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (acc0 V c t.val t.isLt) := by dsimp only [dat0]

/-! ## The two branch conditions, in closed form over the grid -/

/-- The reset is taken: the second coordinate is zero. -/
abbrev isFirst0 (i : grid0.Coords) : Prop :=
  (Scalar.cmpi .ne (Scalar.extui (Scalar.cmpi .eq (BitVec.ofNat 32 (i 1).val) 0#32)) 0#32) = 1#1
/-- The write-out is taken: the second coordinate is one. -/
abbrev isLast0 (i : grid0.Coords) : Prop := k0_cond2 i = 1#1

theorem isFirst0_iff : ∀ t : Fin cfg0.N, isFirst0 (grid0.coords t) ↔ t.val % 2 = 0 :=
  (by decide +kernel : ∀ t : Fin grid0.N, isFirst0 (grid0.coords t) ↔ t.val % 2 = 0)
theorem isLast0_iff : ∀ t : Fin cfg0.N, isLast0 (grid0.coords t) ↔ t.val % 2 = 1 :=
  (by decide +kernel : ∀ t : Fin grid0.N, isLast0 (grid0.coords t) ↔ t.val % 2 = 1)

/-- The three inputs are live at every point; the output is live exactly at the odd points. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem idle0_3_even : ∀ t : Fin cfg0.N, t.val % 2 = 0 → cfg0.idle 3 (grid0.coords t) = true := by decide +kernel
theorem noflush0_3_even : ∀ t : Fin cfg0.N, t.val % 2 = 0 → (cfg0.win 3).flush t = false := by decide +kernel
theorem live0_3_odd : ∀ t : Fin cfg0.N, t.val % 2 = 1 → cfg0.idle 3 (grid0.coords t) = false := by decide +kernel

/-! ## The invariant opened at the accumulator -/

/-- The class's invariant with the accumulator split off the scoped rest. -/
theorem PhiA0_split (c : Dev nD) :
    (Pipeline.ΦA spec0 c : sProp 𝕄)
      = iprop(((∃ d, owns (c : Thread nD τ) scM0 fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA
  rw [Pipeline.scopedRest_split_of_list spec0 c [cc0_scratch0] (by decide) (by decide)]
  simp only [bigSepL_singleton, scM0, owns_whole]
  rfl

theorem Phi0_pos (c : Dev nD) (n : ℕ) (h : n ≤ cfg0.N) (hz : n ≠ 0) :
    Phi0 V c n h = iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hz
  | succ n => rfl

/-- The zero offsets of a whole-tile access, as the constant function. -/
theorem zero2_0 : (![0, 0] : Fin S512x2048.rank → ℕ) = fun _ => 0 := by funext a; fin_cases a <;> rfl

/-! ## The kernel's run, case by case -/

set_option maxHeartbeats 1000000 in
/-- At a first half (reset taken, write-out not taken): the accumulator, whatever it held, ends at one step from zero; the
    staged inputs and the output tile are as they were. -/
theorem run0_first (c : Dev nD) (E : Set ℕ) (i : grid0.Coords)
    (a2 : Memref sig .tc .vmem S512x2048 .f32) (h2 : a2.IsWhole) (a3 : Memref sig .tc .vmem S1x2048 .f32) (h3 : a3.IsWhole)
    (a4 : Memref sig .tc .vmem S4096x2048 .bf16) (h4 : a4.IsWhole) (a5 : Memref sig .tc .vmem S512x2048 .bf16) (h5 : a5.IsWhole)
    (a6 : Memref sig .tc .vmem S512x2048 .f32) (h6 : a6.IsWhole)
    (hfst : isFirst0 i) (hlst : ¬ isLast0 i)
    (x0 : Vec F S512x2048 .f32) (x1 : Vec F S1x2048 .f32) (x2 : Vec F S4096x2048 .bf16) (xo : Vec F S512x2048 .bf16)
    (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare xo ∗ (∃ d, owns (c : Thread nD τ) a6 fullShare d)
        ∗ (iprop(owns (c : Thread nD τ) a2 fullShare x0 ∗ owns (c : Thread nD τ) a3 fullShare x1 ∗ owns (c : Thread nD τ) a4 fullShare x2
            ∗ owns (c : Thread nD τ) a5 fullShare xo
            ∗ owns (c : Thread nD τ) a6 fullShare (step0 i x0 x1 x2 (k0_pay1 (F := F)))) -∗ K ⟨⟩))
      ⊢ wp frame (wpE (defs₀ (F := F)) Variants.none c none) E (cc0__sketch_kernel i a2 h2 a3 h3 a4 h4 a5 h5 a6 h6) K := by
  simp only [cc0__sketch_kernel_eq_skeleton]; unfold cc0__sketch_kernel_skel
  unfold owns
  iintro ⟨⟨%f0, %e0, H0⟩, ⟨%f1, %e1, H1⟩, ⟨%f2, %e2, H2⟩, ⟨%fo, %eo, HO⟩, ⟨%d, %fs, -, HS⟩, Hk⟩
  subst e0; subst e1; subst e2; subst eo
  sl_exec (disch := first | exact hfst | exact hlst)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists fo; isplitr; · ipureintro; rfl
    iexact HO
  iexists _; isplitr
  swap; · iexact HS
  ipureintro
  rw [View.read_writes_eq_canon _ _ _ (fun y => ⟨_, List.mem_cons_self, View.mem_set_unit_zero zero2_0 inb_S512x2048_S512x2048_0_0 y⟩)]
  sl_unfold_words
  rw [View.canon_cons_unit_zero (S := S512x2048) zero2_0]
  simp only [View.readAt_eq_ld, View.readCov_unit_zero (S := S512x2048) _ zero2_0]
  rfl

set_option maxHeartbeats 1000000 in
/-- At a second half (reset not taken, write-out taken): the accumulator ends one step from what it held, and the output tile
    holds that written out; the staged inputs are as they were. -/
theorem run0_second (c : Dev nD) (E : Set ℕ) (i : grid0.Coords)
    (a2 : Memref sig .tc .vmem S512x2048 .f32) (h2 : a2.IsWhole) (a3 : Memref sig .tc .vmem S1x2048 .f32) (h3 : a3.IsWhole)
    (a4 : Memref sig .tc .vmem S4096x2048 .bf16) (h4 : a4.IsWhole) (a5 : Memref sig .tc .vmem S512x2048 .bf16) (h5 : a5.IsWhole)
    (a6 : Memref sig .tc .vmem S512x2048 .f32) (h6 : a6.IsWhole)
    (hfst : ¬ isFirst0 i) (hlst : isLast0 i)
    (x0 : Vec F S512x2048 .f32) (x1 : Vec F S1x2048 .f32) (x2 : Vec F S4096x2048 .bf16) (a : Vec F S512x2048 .f32)
    (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a5 fullShare d) ∗ owns (c : Thread nD τ) a6 fullShare a
        ∗ (iprop(owns (c : Thread nD τ) a2 fullShare x0 ∗ owns (c : Thread nD τ) a3 fullShare x1 ∗ owns (c : Thread nD τ) a4 fullShare x2
            ∗ owns (c : Thread nD τ) a5 fullShare (k0_pay3 (step0 i x0 x1 x2 a))
            ∗ owns (c : Thread nD τ) a6 fullShare (step0 i x0 x1 x2 a)) -∗ K ⟨⟩))
      ⊢ wp frame (wpE (defs₀ (F := F)) Variants.none c none) E (cc0__sketch_kernel i a2 h2 a3 h3 a4 h4 a5 h5 a6 h6) K := by
  simp only [cc0__sketch_kernel_eq_skeleton]; unfold cc0__sketch_kernel_skel
  unfold owns
  iintro ⟨⟨%f0, %e0, H0⟩, ⟨%f1, %e1, H1⟩, ⟨%f2, %e2, H2⟩, ⟨%d, %fo, -, HO⟩, ⟨%fs, %es, HS⟩, Hk⟩
  subst e0; subst e1; subst e2; subst es
  sl_exec (disch := first | exact hfst | exact hlst)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists _; isplitr
    swap; · iexact HO
    ipureintro
    sl_unfold_words
    rw [View.read_writes_eq_canon _ _ _ (fun y => ⟨_, List.mem_cons_self, View.mem_set_unit_zero zero2_0 inb_S512x2048_S512x2048_0_0 y⟩)]
    rw [View.canon_cons_unit_zero (S := S512x2048) zero2_0]
    unfold step0
    simp only [View.readAt_eq_ld, View.readCov_unit_zero (S := S512x2048) _ zero2_0, View.ld_unit_zero (S := S512x2048) zero2_0]
    rfl
  iexists _; isplitr
  swap; · iexact HS
  ipureintro
  sl_unfold_words
  rw [View.read_writes_eq_canon _ _ _ (fun y => ⟨_, List.mem_cons_self, View.mem_set_unit_zero zero2_0 inb_S512x2048_S512x2048_0_0 y⟩)]
  rw [View.canon_cons_unit_zero (S := S512x2048) zero2_0]
  unfold step0
  simp only [View.readAt_eq_ld, View.readCov_unit_zero (S := S512x2048) _ zero2_0, View.ld_unit_zero (S := S512x2048) zero2_0]
  rfl

/-! ## What the staged inputs hold at each point -/

/-- Each input's current buffer holds its block at every point, fetched there or not: the body leaves the block in place,
    the window is uncut and never idle. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The accumulator, point by point -/

/-- At a first half the accumulator is one step from zero. -/
theorem acc0_even (c : Dev nD) (t : Fin cfg0.N) (h : t.val % 2 = 0) :
    acc0 V c t.val t.isLt
      = step0 (grid0.coords t) (iblk0 V c 0 t) (iblk0 V c 1 t) (iblk0 V c 2 t) (k0_pay1 (F := F)) := by
  obtain ⟨n, hn⟩ := t
  cases n with
  | zero => rfl
  | succ n =>
    have h' : (n + 1) % 2 = 0 := h
    rw [acc0, if_pos h']

/-- At a second half it is one step from what the point before left. -/
theorem acc0_odd (c : Dev nD) (t : Fin cfg0.N) (h : t.val % 2 = 1) :
    acc0 V c t.val t.isLt
      = step0 (grid0.coords t) (iblk0 V c 0 t) (iblk0 V c 1 t) (iblk0 V c 2 t)
          (acc0 V c (t.val - 1) (Nat.lt_of_le_of_lt (Nat.sub_le _ _) t.isLt)) := by
  obtain ⟨n, hn⟩ := t
  cases n with
  | zero => have h0 : (0 : ℕ) % 2 = 1 := h; omega
  | succ n =>
    have h' : ¬ (n + 1) % 2 = 0 := by have h1 : (n + 1) % 2 = 1 := h; omega
    rw [acc0, if_neg h']; rfl

/-! ## The invariant at a point's two ends -/

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(owns (c : Thread nD τ) scM0 fullShare (acc0 V c n hn)
      ∗ Pipeline.scopedRestBut (Ix := Unit) (Name := ℕ) (U := UR sig nD τ) (Lvl := ℕ) (Val := Elt F) spec0 c [cc0_scratch0]
      ∗ (∃ r, prngReg c r)) := rfl

theorem Phi0_start (c : Dev nD) (t : Fin cfg0.N) : (dat0 V c).Φ t.castSucc = Phi0 V c t.val (Nat.le_of_lt t.isLt) := rfl
theorem Phi0_end (c : Dev nD) (t : Fin cfg0.N) : (dat0 V c).Φ t.succ = Phi0 V c (t.val + 1) t.isLt := rfl

/-! ## The body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point. The inputs' buffers hold their blocks. At a first half the accumulator is taken at anything (at
    the very first point out of the class's invariant, later at what the point before left, forgotten) and left one step from
    zero, and the output tile, idle there, goes back as it came. At a second half the accumulator is taken at what the first
    half left and left one step further, and the output tile is left at that written out. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [Phi0_end, Phi0_succ, Phi0_start]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  rw [show (dat0 V c).leavesExact 2 t = owns (c : Thread nD τ) (st0_2 t) fullShare ((dat0 V c).after 2 t) from by
    unfold Dat.leavesExact; rw [live0_2 t], after0_2]
  have hN : t.val < 16 := lt_of_lt_of_eq t.isLt (show cfg0.N = 16 from N_0)
  by_cases hk : t.val % 2 = 0
  · have hfst : isFirst0 (grid0.coords t) := (isFirst0_iff t).mpr hk
    have hlst : ¬ isLast0 (grid0.coords t) := fun h => by have := (isLast0_iff t).mp h; omega
    rw [Dat.leavesExact_idle (dat0 V c) 3 t (idle0_3_even t hk) (noflush0_3_even t hk)]
    rw [acc0_even V c t hk]
    by_cases hz : t.val = 0
    · rw [Phi0_zero V c _ _ hz, PhiA0_split]
      iintro ⟨⟨⟨HS, HR⟩, Hg⟩, Ho, ⟨%d0, H0⟩, ⟨%d1, H1⟩, ⟨%d2, H2⟩, ⟨%d3, H3⟩⟩
      iapply (run0_first c Set.univ (grid0.coords t) _ _ _ _ _ _ _ _ _ _ hfst hlst
        (iblk0 V c 0 t) (iblk0 V c 1 t) (iblk0 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [Phi0_pos V c _ _ hz]
      iintro ⟨⟨HS, HR, Hg⟩, Ho, ⟨%d0, H0⟩, ⟨%d1, H1⟩, ⟨%d2, H2⟩, ⟨%d3, H3⟩⟩
      iapply (run0_first c Set.univ (grid0.coords t) _ _ _ _ _ _ _ _ _ _ hfst hlst
        (iblk0 V c 0 t) (iblk0 V c 1 t) (iblk0 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hk1 : t.val % 2 = 1 := by omega
    have hz : t.val ≠ 0 := by omega
    have hfst : ¬ isFirst0 (grid0.coords t) := fun h => hk ((isFirst0_iff t).mp h)
    have hlst : isLast0 (grid0.coords t) := (isLast0_iff t).mpr hk1
    rw [show (dat0 V c).leavesExact 3 t = owns (c : Thread nD τ) (st0_3 t) fullShare ((dat0 V c).after 3 t) from by
      unfold Dat.leavesExact; rw [live0_3_odd t hk1], after0_3]
    rw [acc0_odd V c t hk1, Phi0_pos V c _ _ hz]
    iintro ⟨⟨HS, HR, Hg⟩, Ho, ⟨%d0, H0⟩, ⟨%d1, H1⟩, ⟨%d2, H2⟩, ⟨%d3, H3⟩⟩
    iapply (run0_second c Set.univ (grid0.coords t) _ _ _ _ _ _ _ _ _ _ hfst hlst
      (iblk0 V c 0 t) (iblk0 V c 1 t) (iblk0 V c 2 t) _ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3

/-- The invariant at entry is the class's; at the end it gives the class's back. -/
theorem Phi0_first (c : Dev nD) : (dat0 V c).Φ 0 = Pipeline.ΦA spec0 c := rfl
theorem Phi0_last (c : Dev nD) : (dat0 V c).Φ (Fin.last cfg0.N) ⊢ (Pipeline.ΦA spec0 c : sProp 𝕄) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 16 := N_0; omega), PhiA0_split]
  iintro ⟨HS, HR, Hg⟩
  isplitr [Hg]
  · isplitl [HS]
    · iexists _; iexact HS
    iexact HR
  iexact Hg

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.Sketch1.lean ====
/-
  The second sketch call (rows of the second matrix): what its staging buffers and its accumulator hold point by point.
  The grid is 8 row tiles by 2 halves of the contracted axis; point t = 2·i + k. At k = 0 the accumulator is reset to zero
  and the first half's product is added; at k = 1 the second half's product is added and the accumulator is written out.
-/
import proofs.«418869_j12721693131116_3_alg».proof.Proof.Gen.KernelIdeal.Launch
import proofs.«418869_j12721693131116_3_alg».proof.Proof.Gen.KernelIdeal.Skeleton
import proofs.«418869_j12721693131116_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 512 × 2048 tile, the whole 1 × 2048 row, and the 2048 rows of the resident matrix a point contracts over. -/
abbrev rT1 : Rect S512x2048 := Rect.unit (s := S512x2048) ![0, 0] S512x2048.size inb_S512x2048_S512x2048_0_0
abbrev rR1 : Rect S1x2048 := Rect.unit (s := S1x2048) ![0, 0] S1x2048.size inb_S1x2048_S1x2048_0_0
abbrev rS1 (i : grid1.Coords) : Rect S4096x2048 := Rect.unit (s := S4096x2048) (k1_off1 i) S2048x2048.size (k1_off1_inb i)

/-- One accumulation: the accumulator `a` plus the product of the signed tile with the point's rows of the resident matrix. -/
def step1 (i : grid1.Coords) (x0 : Vec F S512x2048 .f32) (x1 : Vec F S1x2048 .f32) (x2 : Vec F S4096x2048 .bf16)
    (a : Vec F S512x2048 .f32) : Vec F S512x2048 .f32 :=
  k1_pay2 (View.ld x0 rT1) (View.ld x1 rR1) (View.ld x2 (rS1 i)) a

/-- The accumulator after point `n`: from zero at an even point, from what the point before left at an odd one. -/
def acc1 (c : Dev nD) : (n : ℕ) → n < cfg1.N → Vec F S512x2048 .f32
  | 0, hn => step1 (grid1.coords ⟨0, hn⟩) (iblk1 V c 0 ⟨0, hn⟩) (iblk1 V c 1 ⟨0, hn⟩) (iblk1 V c 2 ⟨0, hn⟩) (k1_pay1 (F := F))
  | n + 1, hn => step1 (grid1.coords ⟨n + 1, hn⟩) (iblk1 V c 0 ⟨n + 1, hn⟩) (iblk1 V c 1 ⟨n + 1, hn⟩) (iblk1 V c 2 ⟨n + 1, hn⟩)
      (if (n + 1) % 2 = 0 then (k1_pay1 (F := F)) else acc1 c n (Nat.lt_of_succ_lt hn))

/-- The accumulator scratch as a memref. -/
abbrev scM1 : Memref sig .tc .vmem S512x2048 .f32 := Memref.whole cc1_scratch0

/-- The call's invariant before point `n`: at entry every scoped buffer that is no staging buffer at anything; afterwards the
    accumulator at what the point before left, the other calls' scoped buffers unopened, the generator register at some state. -/
def Phi1 (c : Dev nD) : (n : ℕ) → n ≤ cfg1.N → sProp 𝕄
  | 0, _ => Pipeline.ΦA spec1 c
  | n + 1, hn => iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r))

/-- The proof data: arrays as found; inputs left at their blocks; the output tile at the accumulator written out. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t.val t.isLt) := by dsimp only [dat1]

/-! ## The two branch conditions, in closed form over the grid -/

/-- The reset is taken: the second coordinate is zero. -/
abbrev isFirst1 (i : grid1.Coords) : Prop :=
  (Scalar.cmpi .ne (Scalar.extui (Scalar.cmpi .eq (BitVec.ofNat 32 (i 1).val) 0#32)) 0#32) = 1#1
/-- The write-out is taken: the second coordinate is one. -/
abbrev isLast1 (i : grid1.Coords) : Prop := k1_cond2 i = 1#1

theorem isFirst1_iff : ∀ t : Fin cfg1.N, isFirst1 (grid1.coords t) ↔ t.val % 2 = 0 :=
  (by decide +kernel : ∀ t : Fin grid1.N, isFirst1 (grid1.coords t) ↔ t.val % 2 = 0)
theorem isLast1_iff : ∀ t : Fin cfg1.N, isLast1 (grid1.coords t) ↔ t.val % 2 = 1 :=
  (by decide +kernel : ∀ t : Fin grid1.N, isLast1 (grid1.coords t) ↔ t.val % 2 = 1)

/-- The three inputs are live at every point; the output is live exactly at the odd points. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem idle1_3_even : ∀ t : Fin cfg1.N, t.val % 2 = 0 → cfg1.idle 3 (grid1.coords t) = true := by decide +kernel
theorem noflush1_3_even : ∀ t : Fin cfg1.N, t.val % 2 = 0 → (cfg1.win 3).flush t = false := by decide +kernel
theorem live1_3_odd : ∀ t : Fin cfg1.N, t.val % 2 = 1 → cfg1.idle 3 (grid1.coords t) = false := by decide +kernel

/-! ## The invariant opened at the accumulator -/

/-- The class's invariant with the accumulator split off the scoped rest. -/
theorem PhiA1_split (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA
  rw [Pipeline.scopedRest_split_of_list spec1 c [cc1_scratch0] (by decide) (by decide)]
  simp only [bigSepL_singleton, scM1, owns_whole]
  rfl

theorem Phi1_pos (c : Dev nD) (n : ℕ) (h : n ≤ cfg1.N) (hz : n ≠ 0) :
    Phi1 V c n h = iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

/-- The zero offsets of a whole-tile access, as the constant function. -/
theorem zero2_1 : (![0, 0] : Fin S512x2048.rank → ℕ) = fun _ => 0 := by funext a; fin_cases a <;> rfl

/-! ## The kernel's run, case by case -/

set_option maxHeartbeats 1000000 in
/-- At a first half (reset taken, write-out not taken): the accumulator, whatever it held, ends at one step from zero; the
    staged inputs and the output tile are as they were. -/
theorem run1_first (c : Dev nD) (E : Set ℕ) (i : grid1.Coords)
    (a2 : Memref sig .tc .vmem S512x2048 .f32) (h2 : a2.IsWhole) (a3 : Memref sig .tc .vmem S1x2048 .f32) (h3 : a3.IsWhole)
    (a4 : Memref sig .tc .vmem S4096x2048 .bf16) (h4 : a4.IsWhole) (a5 : Memref sig .tc .vmem S512x2048 .bf16) (h5 : a5.IsWhole)
    (a6 : Memref sig .tc .vmem S512x2048 .f32) (h6 : a6.IsWhole)
    (hfst : isFirst1 i) (hlst : ¬ isLast1 i)
    (x0 : Vec F S512x2048 .f32) (x1 : Vec F S1x2048 .f32) (x2 : Vec F S4096x2048 .bf16) (xo : Vec F S512x2048 .bf16)
    (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare xo ∗ (∃ d, owns (c : Thread nD τ) a6 fullShare d)
        ∗ (iprop(owns (c : Thread nD τ) a2 fullShare x0 ∗ owns (c : Thread nD τ) a3 fullShare x1 ∗ owns (c : Thread nD τ) a4 fullShare x2
            ∗ owns (c : Thread nD τ) a5 fullShare xo
            ∗ owns (c : Thread nD τ) a6 fullShare (step1 i x0 x1 x2 (k1_pay1 (F := F)))) -∗ K ⟨⟩))
      ⊢ wp frame (wpE (defs₀ (F := F)) Variants.none c none) E (cc1__sketch_kernel i a2 h2 a3 h3 a4 h4 a5 h5 a6 h6) K := by
  simp only [cc1__sketch_kernel_eq_skeleton]; unfold cc1__sketch_kernel_skel
  unfold owns
  iintro ⟨⟨%f0, %e0, H0⟩, ⟨%f1, %e1, H1⟩, ⟨%f2, %e2, H2⟩, ⟨%fo, %eo, HO⟩, ⟨%d, %fs, -, HS⟩, Hk⟩
  subst e0; subst e1; subst e2; subst eo
  sl_exec (disch := first | exact hfst | exact hlst)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists fo; isplitr; · ipureintro; rfl
    iexact HO
  iexists _; isplitr
  swap; · iexact HS
  ipureintro
  rw [View.read_writes_eq_canon _ _ _ (fun y => ⟨_, List.mem_cons_self, View.mem_set_unit_zero zero2_1 inb_S512x2048_S512x2048_0_0 y⟩)]
  sl_unfold_words
  rw [View.canon_cons_unit_zero (S := S512x2048) zero2_1]
  simp only [View.readAt_eq_ld, View.readCov_unit_zero (S := S512x2048) _ zero2_1]
  rfl

set_option maxHeartbeats 1000000 in
/-- At a second half (reset not taken, write-out taken): the accumulator ends one step from what it held, and the output tile
    holds that written out; the staged inputs are as they were. -/
theorem run1_second (c : Dev nD) (E : Set ℕ) (i : grid1.Coords)
    (a2 : Memref sig .tc .vmem S512x2048 .f32) (h2 : a2.IsWhole) (a3 : Memref sig .tc .vmem S1x2048 .f32) (h3 : a3.IsWhole)
    (a4 : Memref sig .tc .vmem S4096x2048 .bf16) (h4 : a4.IsWhole) (a5 : Memref sig .tc .vmem S512x2048 .bf16) (h5 : a5.IsWhole)
    (a6 : Memref sig .tc .vmem S512x2048 .f32) (h6 : a6.IsWhole)
    (hfst : ¬ isFirst1 i) (hlst : isLast1 i)
    (x0 : Vec F S512x2048 .f32) (x1 : Vec F S1x2048 .f32) (x2 : Vec F S4096x2048 .bf16) (a : Vec F S512x2048 .f32)
    (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a5 fullShare d) ∗ owns (c : Thread nD τ) a6 fullShare a
        ∗ (iprop(owns (c : Thread nD τ) a2 fullShare x0 ∗ owns (c : Thread nD τ) a3 fullShare x1 ∗ owns (c : Thread nD τ) a4 fullShare x2
            ∗ owns (c : Thread nD τ) a5 fullShare (k1_pay3 (step1 i x0 x1 x2 a))
            ∗ owns (c : Thread nD τ) a6 fullShare (step1 i x0 x1 x2 a)) -∗ K ⟨⟩))
      ⊢ wp frame (wpE (defs₀ (F := F)) Variants.none c none) E (cc1__sketch_kernel i a2 h2 a3 h3 a4 h4 a5 h5 a6 h6) K := by
  simp only [cc1__sketch_kernel_eq_skeleton]; unfold cc1__sketch_kernel_skel
  unfold owns
  iintro ⟨⟨%f0, %e0, H0⟩, ⟨%f1, %e1, H1⟩, ⟨%f2, %e2, H2⟩, ⟨%d, %fo, -, HO⟩, ⟨%fs, %es, HS⟩, Hk⟩
  subst e0; subst e1; subst e2; subst es
  sl_exec (disch := first | exact hfst | exact hlst)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists _; isplitr
    swap; · iexact HO
    ipureintro
    sl_unfold_words
    rw [View.read_writes_eq_canon _ _ _ (fun y => ⟨_, List.mem_cons_self, View.mem_set_unit_zero zero2_1 inb_S512x2048_S512x2048_0_0 y⟩)]
    rw [View.canon_cons_unit_zero (S := S512x2048) zero2_1]
    unfold step1
    simp only [View.readAt_eq_ld, View.readCov_unit_zero (S := S512x2048) _ zero2_1, View.ld_unit_zero (S := S512x2048) zero2_1]
    rfl
  iexists _; isplitr
  swap; · iexact HS
  ipureintro
  sl_unfold_words
  rw [View.read_writes_eq_canon _ _ _ (fun y => ⟨_, List.mem_cons_self, View.mem_set_unit_zero zero2_1 inb_S512x2048_S512x2048_0_0 y⟩)]
  rw [View.canon_cons_unit_zero (S := S512x2048) zero2_1]
  unfold step1
  simp only [View.readAt_eq_ld, View.readCov_unit_zero (S := S512x2048) _ zero2_1, View.ld_unit_zero (S := S512x2048) zero2_1]
  rfl

/-! ## What the staged inputs hold at each point -/

/-- Each input's current buffer holds its block at every point, fetched there or not: the body leaves the block in place,
    the window is uncut and never idle. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The accumulator, point by point -/

/-- At a first half the accumulator is one step from zero. -/
theorem acc1_even (c : Dev nD) (t : Fin cfg1.N) (h : t.val % 2 = 0) :
    acc1 V c t.val t.isLt
      = step1 (grid1.coords t) (iblk1 V c 0 t) (iblk1 V c 1 t) (iblk1 V c 2 t) (k1_pay1 (F := F)) := by
  obtain ⟨n, hn⟩ := t
  cases n with
  | zero => rfl
  | succ n =>
    have h' : (n + 1) % 2 = 0 := h
    rw [acc1, if_pos h']

/-- At a second half it is one step from what the point before left. -/
theorem acc1_odd (c : Dev nD) (t : Fin cfg1.N) (h : t.val % 2 = 1) :
    acc1 V c t.val t.isLt
      = step1 (grid1.coords t) (iblk1 V c 0 t) (iblk1 V c 1 t) (iblk1 V c 2 t)
          (acc1 V c (t.val - 1) (Nat.lt_of_le_of_lt (Nat.sub_le _ _) t.isLt)) := by
  obtain ⟨n, hn⟩ := t
  cases n with
  | zero => have h0 : (0 : ℕ) % 2 = 1 := h; omega
  | succ n =>
    have h' : ¬ (n + 1) % 2 = 0 := by have h1 : (n + 1) % 2 = 1 := h; omega
    rw [acc1, if_neg h']; rfl

/-! ## The invariant at a point's two ends -/

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r)) := rfl

theorem Phi1_start (c : Dev nD) (t : Fin cfg1.N) : (dat1 V c).Φ t.castSucc = Phi1 V c t.val (Nat.le_of_lt t.isLt) := rfl
theorem Phi1_end (c : Dev nD) (t : Fin cfg1.N) : (dat1 V c).Φ t.succ = Phi1 V c (t.val + 1) t.isLt := rfl

/-! ## The body obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The inputs' buffers hold their blocks. At a first half the accumulator is taken at anything (at
    the very first point out of the class's invariant, later at what the point before left, forgotten) and left one step from
    zero, and the output tile, idle there, goes back as it came. At a second half the accumulator is taken at what the first
    half left and left one step further, and the output tile is left at that written out. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [Phi1_end, Phi1_succ, Phi1_start]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [show (dat1 V c).leavesExact 2 t = owns (c : Thread nD τ) (st1_2 t) fullShare ((dat1 V c).after 2 t) from by
    unfold Dat.leavesExact; rw [live1_2 t], after1_2]
  have hN : t.val < 16 := lt_of_lt_of_eq t.isLt (show cfg1.N = 16 from N_1)
  by_cases hk : t.val % 2 = 0
  · have hfst : isFirst1 (grid1.coords t) := (isFirst1_iff t).mpr hk
    have hlst : ¬ isLast1 (grid1.coords t) := fun h => by have := (isLast1_iff t).mp h; omega
    rw [Dat.leavesExact_idle (dat1 V c) 3 t (idle1_3_even t hk) (noflush1_3_even t hk)]
    rw [acc1_even V c t hk]
    by_cases hz : t.val = 0
    · rw [Phi1_zero V c _ _ hz, PhiA1_split]
      iintro ⟨⟨⟨HS, HR⟩, Hg⟩, Ho, ⟨%d0, H0⟩, ⟨%d1, H1⟩, ⟨%d2, H2⟩, ⟨%d3, H3⟩⟩
      iapply (run1_first c Set.univ (grid1.coords t) _ _ _ _ _ _ _ _ _ _ hfst hlst
        (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [Phi1_pos V c _ _ hz]
      iintro ⟨⟨HS, HR, Hg⟩, Ho, ⟨%d0, H0⟩, ⟨%d1, H1⟩, ⟨%d2, H2⟩, ⟨%d3, H3⟩⟩
      iapply (run1_first c Set.univ (grid1.coords t) _ _ _ _ _ _ _ _ _ _ hfst hlst
        (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hk1 : t.val % 2 = 1 := by omega
    have hz : t.val ≠ 0 := by omega
    have hfst : ¬ isFirst1 (grid1.coords t) := fun h => hk ((isFirst1_iff t).mp h)
    have hlst : isLast1 (grid1.coords t) := (isLast1_iff t).mpr hk1
    rw [show (dat1 V c).leavesExact 3 t = owns (c : Thread nD τ) (st1_3 t) fullShare ((dat1 V c).after 3 t) from by
      unfold Dat.leavesExact; rw [live1_3_odd t hk1], after1_3]
    rw [acc1_odd V c t hk1, Phi1_pos V c _ _ hz]
    iintro ⟨⟨HS, HR, Hg⟩, Ho, ⟨%d0, H0⟩, ⟨%d1, H1⟩, ⟨%d2, H2⟩, ⟨%d3, H3⟩⟩
    iapply (run1_second c Set.univ (grid1.coords t) _ _ _ _ _ _ _ _ _ _ hfst hlst
      (iblk1 V c 0 t) (iblk1 V c 1 t) (iblk1 V c 2 t) _ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3

/-- The invariant at entry is the class's; at the end it gives the class's back. -/
theorem Phi1_first (c : Dev nD) : (dat1 V c).Φ 0 = Pipeline.ΦA spec1 c := rfl
theorem Phi1_last (c : Dev nD) : (dat1 V c).Φ (Fin.last cfg1.N) ⊢ (Pipeline.ΦA spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 16 := N_1; omega), PhiA1_split]
  iintro ⟨HS, HR, Hg⟩
  isplitr [Hg]
  · isplitl [HS]
    · iexists _; iexact HS
    iexact HR
  iexact Hg

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.Final2.lean ====
/-
  The final call: one 512 × 2048 tile of the result per grid point (8 row tiles by 2 column halves, point t = 2·i + j): the
  product of the tile's rows of the first sketch with the point's 2048 rows of the second sketch, contracted over the
  2048 buckets, plus the bias row.
-/
import proofs.«418869_j12721693131116_3_alg».proof.Proof.Gen.KernelIdeal.Launch
import proofs.«418869_j12721693131116_3_alg».proof.Proof.Gen.KernelIdeal.Skeleton
import proofs.«418869_j12721693131116_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole 512 × 2048 tile, the whole 1 × 2048 row, and the 2048 rows of the resident sketch a point multiplies by. -/
abbrev rT2 : Rect S512x2048 := Rect.unit (s := S512x2048) ![0, 0] S512x2048.size inb_S512x2048_S512x2048_0_0
abbrev rR2 : Rect S1x2048 := Rect.unit (s := S1x2048) ![0, 0] S1x2048.size inb_S1x2048_S1x2048_0_0
abbrev rS2 (i : grid2.Coords) : Rect S4096x2048 := Rect.unit (s := S4096x2048) (k2_off1 i) S2048x2048.size (k2_off1_inb i)

/-- The result tile at a point, from the three input blocks. -/
def out2 (i : grid2.Coords) (x0 : Vec F S512x2048 .bf16) (x1 : Vec F S4096x2048 .bf16) (x2 : Vec F S1x2048 .f32) :
    Vec F S512x2048 .f32 :=
  k2_pay1 (View.ld x1 (rS2 i)) (View.ld x0 rT2) (View.ld x2 rR2)

/-- The proof data: arrays as found; inputs left at their blocks; the output tile at `out2` of the blocks; the class's invariant. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (grid2.coords t) (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (grid2.coords t) (iblk2 V c 0 t) (iblk2 V c 1 t) (iblk2 V c 2 t) := by dsimp only [dat2]

/-! ## The inputs where the body finds them -/

/-- What a fetch of an input window lands in its buffer is the window's block there. -/
theorem fetched2_0 (c : Dev nD) (t : Fin cfg2.N) (d) : (dat2 V c).fetched 0 t d = iblk2 V c 0 t := by
  unfold Dat.fetched Dat.blockOf iblk2; rw [A_eq2]; rfl
theorem fetched2_1 (c : Dev nD) (t : Fin cfg2.N) (d) : (dat2 V c).fetched 1 t d = iblk2 V c 1 t := by
  unfold Dat.fetched Dat.blockOf iblk2; rw [A_eq2]; rfl
theorem fetched2_2 (c : Dev nD) (t : Fin cfg2.N) (d) : (dat2 V c).fetched 2 t d = iblk2 V c 2 t := by
  unfold Dat.fetched Dat.blockOf iblk2; rw [A_eq2]; rfl

/-- The tile of the first sketch is in its buffer at every point: fetched at the even points, and at the odd ones
    the row tile has not moved and the body left it as it was. -/
theorem holds2_0 (c : Dev nD) (t : Fin cfg2.N) (d) : (dat2 V c).before 0 t d = iblk2 V c 0 t := by
  rw [(dat2 V c).before_in_eq_fetched 0 rfl (fun _ => rfl) (fun _ _ _ => rfl) ?_ t d, fetched2_0]
  intro s; rw [after2_0]; unfold Dat.blockOf iblk2; rw [A_eq2]
/-- The second sketch is resident: fetched once, whole, and left in place by every point. -/
theorem holds2_1 (c : Dev nD) (t : Fin cfg2.N) (d) : (dat2 V c).before 1 t d = iblk2 V c 1 t := by
  rw [(dat2 V c).before_in_eq_fetched 1 rfl (fun _ => rfl) (fun _ _ _ => rfl) ?_ t d, fetched2_1]
  intro s; rw [after2_1]; unfold Dat.blockOf iblk2; rw [A_eq2]
/-- The bias row's half is fetched at every point. -/
theorem holds2_2 (c : Dev nD) (t : Fin cfg2.N) (d) : (dat2 V c).before 2 t d = iblk2 V c 2 t := by
  rw [(dat2 V c).before_in_eq_fetched 2 rfl (fun _ => rfl) (fun _ _ _ => rfl) ?_ t d, fetched2_2]
  intro s; rw [after2_2]; unfold Dat.blockOf iblk2; rw [A_eq2]

/-! ## The kernel on whole buffers -/

/-- The tile's rectangle starts at the origin. -/
theorem origin2 : (![0, 0] : Fin S512x2048.rank → ℕ) = fun _ => 0 := funext fun a => by fin_cases a <;> rfl

/-- The one store covers the tile. -/
theorem tile_covered2 (p : Vec F S512x2048 .f32) (y : S512x2048.Idx) :
    ∃ pc ∈ ([⟨rT2, p⟩] : List (View.Piece (Elt F) S512x2048 .f32)), y ∈ pc.1.set :=
  ⟨_, List.mem_singleton_self _, View.mem_set_unit_zero origin2 inb_S512x2048_S512x2048_0_0 y⟩

set_option maxHeartbeats 1000000 in
/-- The kernel at grid coordinates `i`, its three inputs whole at `x0`, `x1`, `x2` and its output buffer at anything:
    it leaves the inputs as they were and the output at `out2 i x0 x1 x2`. The four loads and the one store are run in
    order; the store is of the whole tile, so what the buffer reads afterwards is the stored value. -/
theorem final_kernel_spec2 (c : Dev nD) (E : Set ℕ) (i : grid2.Coords)
    (a0 : Memref sig .tc .vmem S512x2048 .bf16) (h0 : a0.IsWhole)
    (a1 : Memref sig .tc .vmem S4096x2048 .bf16) (h1 : a1.IsWhole)
    (a2 : Memref sig .tc .vmem S1x2048 .f32) (h2 : a2.IsWhole)
    (a3 : Memref sig .tc .vmem S512x2048 .f32) (h3 : a3.IsWhole)
    (x0 : Vec F S512x2048 .bf16) (x1 : Vec F S4096x2048 .bf16) (x2 : Vec F S1x2048 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out2 i x0 x1 x2)) -∗ K ⟨⟩))
      ⊢ wp frame (wpE (defs₀ (F := F)) Variants.none c none) E (cc2__final_kernel i a0 h0 a1 h1 a2 h2 a3 h3) K := by
  simp only [cc2__final_kernel_eq_skeleton]; unfold cc2__final_kernel_skel
  unfold owns
  iintro ⟨⟨%f0, %e0, H0⟩, ⟨%f1, %e1, H1⟩, ⟨%f2, %e2, H2⟩, ⟨%d3, %f3, -, H3⟩, Hk⟩
  subst e0 e1 e2
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  iexists _; isplitr
  swap
  · iexact H3
  ipureintro
  rw [View.read_writes_eq_canon _ _ _ (tile_covered2 _), View.canon_unit_zero origin2]
  rfl

/-! ## The body at a point -/

/-- The invariant and what the core owes are the same before and after a point. -/
theorem inv_step2 (c : Dev nD) (t : Fin cfg2.N) : (dat2 V c).Φ t.succ = (dat2 V c).Φ t.castSucc := rfl
theorem owes_step2 (c : Dev nD) (t : Fin cfg2.N) : (dat2 V c).owesAt () t.succ = (dat2 V c).owesAt () t.castSucc := rfl

/-- At any point the three inputs' buffers hold their blocks, so the kernel's triple applies at the point's
    coordinates; the invariant and what the core owes pass through unread. -/
theorem final_at_point2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ d, owns (c : Thread nD τ) (st2_3 t) fullShare ((dat2 V c).before 3 t d)))
      ⊢ wp frame (wpE (defs₀ (F := F)) Variants.none c none) Set.univ (bodyAt2 t) (fun _ =>
          iprop((dat2 V c).Φ t.succ ∗ (dat2 V c).owesAt () t.succ
            ∗ owns (c : Thread nD τ) (st2_0 t) fullShare ((dat2 V c).after 0 t)
            ∗ owns (c : Thread nD τ) (st2_1 t) fullShare ((dat2 V c).after 1 t)
            ∗ owns (c : Thread nD τ) (st2_2 t) fullShare ((dat2 V c).after 2 t)
            ∗ owns (c : Thread nD τ) (st2_3 t) fullShare ((dat2 V c).after 3 t))) := by
  rw [inv_step2, owes_step2]
  simp only [holds2_0, holds2_1, holds2_2, after2_0, after2_1, after2_2, after2_3]
  iintro ⟨HΦ, Ho, ⟨%d0, H0⟩, ⟨%d1, H1⟩, ⟨%d2, H2⟩, ⟨%d3, H3⟩⟩
  iapply (final_kernel_spec2 c Set.univ (grid2.coords t) _ _ _ _ _ _ _ _ (iblk2 V c 0 t) (iblk2 V c 1 t) (iblk2 V c 2 t) _)
  isplitl [H0]
  · iexact H0
  isplitl [H1]
  · iexact H1
  isplitl [H2]
  · iexact H2
  isplitl [H3]
  · iexists _; iexact H3
  iintro ⟨H0, H1, H2, H3⟩
  isplitl [HΦ]
  · iexact HΦ
  isplitl [Ho]
  · iexact Ho
  isplitl [H0]
  · iexact H0
  isplitl [H1]
  · iexact H1
  isplitl [H2]
  · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact final_at_point2 V c t

end

end Cert.KernelIdeal.Hand

end
-- ==== Proof.Run.lean ====
/-
  The whole run of the program: the buffer contents at every boundary between its items (host operations, the two sketch
  calls, the final call), and that every weakly fair execution ends with every unscoped buffer at the last boundary's contents.
-/
import proofs.«418869_j12721693131116_3_alg».proof.Proof.Sketch0
import proofs.«418869_j12721693131116_3_alg».proof.Proof.Sketch1
import proofs.«418869_j12721693131116_3_alg».proof.Proof.Final2
import proofs.«418869_j12721693131116_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary: a fold through the program -/

/-- At launch. -/
abbrev W0 : Dev nD → Valuation τ sig (Elt F) := fun c b => m (c, b)
/-- After the one-hot table is made (six host operations). -/
abbrev W1 : Dev nD → Valuation τ sig (Elt F) := fun c => StableHlo.after hostOps0 (W0 m c)
/-- After the sign vector is laid out as a row: what the first sketch call finds. -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b
/-- After the first sketch call: its arrays at what its write-backs leave, every other buffer as it was. -/
def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev V3 : (c : Dev nD) → (b : Ref sig .tc) → Buf (Elt F) ((c : Thread nD τ).loc b) := fun c b => W3 m c b
/-- After the second sketch call. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
/-- After the bias is laid out as a row: what the final call finds. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After the final call: the end of the program. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

/-! ## The arguments end as launched

No host operation writes an argument; a call either reads it through an input window, whose array is never written back, or
has it among none of its arrays. -/

/-- A buffer neither of the first two stretches writes is, when the first sketch call is entered, as launched. -/
theorem W2_as_launched (c : Dev nD) (r : Ref sig .tc) (ht : r ∉ hostOps0_W) (hs : r ∉ hostOps0_1_W) :
    W2 m c (Proc.devRef .tc r) = m ((c : Thread nD τ).loc r) :=
  calc W2 m c (Proc.devRef .tc r)
    _ = W1 m c (Proc.devRef .tc r) := StableHlo.after_of_writes_sub hostOps0_1 _ hostOps0_1_writes hs
    _ = W0 m c (Proc.devRef .tc r) := StableHlo.after_of_writes_sub hostOps0 _ hostOps0_writes ht
    _ = m ((c : Thread nD τ).loc r) := rfl

/-- A buffer that is no array of the final call and that the bias row's stretch does not write is at the end what the
    second sketch call left. -/
theorem W6_as_W4 (c : Dev nD) (r : Ref sig .tc) (h2 : ∀ w, Pipeline.arrRef spec2 w ≠ r) (hb : r ∉ hostOps2_W) :
    W6 m c (Proc.devRef .tc r) = W4 m c (Proc.devRef .tc r) :=
  (W6_of_ne m c r h2).trans (StableHlo.after_of_writes_sub hostOps2 _ hostOps2_writes hb)

/-- A buffer no stretch writes and no call has among its arrays is at the end as launched. -/
theorem W6_untouched (c : Dev nD) (r : Ref sig .tc) (h0 : ∀ w, Pipeline.arrRef spec0 w ≠ r) (h1 : ∀ w, Pipeline.arrRef spec1 w ≠ r)
    (h2 : ∀ w, Pipeline.arrRef spec2 w ≠ r) (ht : r ∉ hostOps0_W) (hs : r ∉ hostOps0_1_W) (hb : r ∉ hostOps2_W) :
    W6 m c (Proc.devRef .tc r) = m ((c : Thread nD τ).loc r) :=
  calc W6 m c (Proc.devRef .tc r)
    _ = W4 m c (Proc.devRef .tc r) := W6_as_W4 m c r h2 hb
    _ = W3 m c (Proc.devRef .tc r) := W4_of_ne m c r h1
    _ = W2 m c (Proc.devRef .tc r) := W3_of_ne m c r h0
    _ = m ((c : Thread nD τ).loc r) := W2_as_launched m c r ht hs

/-- The first matrix: the first sketch call reads it through its first window, an input; nothing else touches it. -/
theorem W6_main_arg0 (c : Dev nD) : W6 m c (Proc.devRef .tc main_arg0) = m ((c : Thread nD τ).loc main_arg0) :=
  calc W6 m c (Proc.devRef .tc main_arg0)
    _ = W4 m c (Proc.devRef .tc main_arg0) := W6_as_W4 m c main_arg0 (by decide) (by decide)
    _ = W3 m c (Proc.devRef .tc main_arg0) := W4_of_ne m c main_arg0 (by decide)
    _ = (dat0 (V2 m) c).arrAt 0 cfg0.N := W3_arr m c 0
    _ = (dat0 (V2 m) c).A 0 := (dat0 (V2 m) c).arrAt_in 0 rfl _
    _ = W2 m c (Proc.devRef .tc main_arg0) := A_eq0 (V2 m) c 0
    _ = m ((c : Thread nD τ).loc main_arg0) := W2_as_launched m c main_arg0 (by decide) (by decide)

/-- The second matrix: the second sketch call reads it through its first window, an input; nothing else touches it. -/
theorem W6_main_arg1 (c : Dev nD) : W6 m c (Proc.devRef .tc main_arg1) = m ((c : Thread nD τ).loc main_arg1) :=
  calc W6 m c (Proc.devRef .tc main_arg1)
    _ = W4 m c (Proc.devRef .tc main_arg1) := W6_as_W4 m c main_arg1 (by decide) (by decide)
    _ = (dat1 (V3 m) c).arrAt 0 cfg1.N := W4_arr m c 0
    _ = (dat1 (V3 m) c).A 0 := (dat1 (V3 m) c).arrAt_in 0 rfl _
    _ = W3 m c (Proc.devRef .tc main_arg1) := A_eq1 (V3 m) c 0
    _ = W2 m c (Proc.devRef .tc main_arg1) := W3_of_ne m c main_arg1 (by decide)
    _ = m ((c : Thread nD τ).loc main_arg1) := W2_as_launched m c main_arg1 (by decide) (by decide)

/-- The bias, the bucket indices and the signs: the stretches only read them and no call has them among its arrays. -/
theorem W6_main_arg2 (c : Dev nD) : W6 m c (Proc.devRef .tc main_arg2) = m ((c : Thread nD τ).loc main_arg2) :=
  W6_untouched m c main_arg2 (by decide) (by decide) (by decide) (by decide) (by decide) (by decide)
theorem W6_main_arg3 (c : Dev nD) : W6 m c (Proc.devRef .tc main_arg3) = m ((c : Thread nD τ).loc main_arg3) :=
  W6_untouched m c main_arg3 (by decide) (by decide) (by decide) (by decide) (by decide) (by decide)
theorem W6_main_arg4 (c : Dev nD) : W6 m c (Proc.devRef .tc main_arg4) = m ((c : Thread nD τ).loc main_arg4) :=
  W6_untouched m c main_arg4 (by decide) (by decide) (by decide) (by decide) (by decide) (by decide)

/-! ## The run -/

/-- An unscoped reference of the core is among those the run holds throughout. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ### What a core holds at a boundary -/

/-- No call has a prefetched table. -/
abbrev noTab : (p : Fin 3) → (pcfgs (F := F) p).Adm := fun p => (cfgs p).toPCfg_adm

/-- Each call's proof data, at the contents the call is entered with. -/
def callDat : (p : Fin 3) → (c : Dev nD) → Dat τ (Elt F) Unit ℕ (UR sig nD τ) ℕ (Pipeline.pin (pcfgs (F := F)) noTab p) c
  | ⟨0, _⟩ => fun c => dat0 (V2 m) c
  | ⟨1, _⟩ => fun c => dat1 (V3 m) c
  | ⟨2, _⟩ => fun c => dat2 (V5 m) c

abbrev 𝒱ₙ : Variants := Variants.none
/-- No core owes another anything, so no pair carries a level. -/
abbrev noPairs : GSem nD τ sig → Finset Unit := fun _ => ∅
abbrev noLevel : GSem nD τ sig → Unit → ℕ := fun _ _ => 0

/-- Beside the buffers a core carries its generator register, at some state, and its dues, which are none. -/
abbrev Carry (c : Dev nD) : sProp 𝕄 := iprop((∃ r, prngReg c r) ∗ ∃ W, owes (c : Thread nD τ) (0 : CellTallies nD τ sig Unit) W)
/-- A core at a boundary: every unscoped buffer whole at the boundary's contents, and what it carries. -/
abbrev Bdry (W : Dev nD → Valuation τ sig (Elt F)) (c : Dev nD) : sProp 𝕄 :=
  iprop(StableHlo.held (c : Thread nD τ) (Pipeline.ucRefs τ sig) (W c) ∗ Carry c)
/-- A core at the end, its dues aside: every unscoped buffer at the last boundary's contents, the register at some state. -/
abbrev End (c : Dev nD) : sProp 𝕄 :=
  iprop(StableHlo.held (c : Thread nD τ) (Pipeline.ucRefs τ sig) (W6 m c) ∗ ∃ r, prngReg c r)

/-- A stretch of host operations from the boundary contents `W`: it runs to the contents after the operations. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₙ noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Carry

/-- Dues with a record nobody describes are dues with the record inside any bound that has every pair. -/
theorem due_within (c : Dev nD) (O : CellTallies nD τ sig Unit) (B : Set (SemLoc sig × Unit)) (hB : ∀ x, x ∈ B) :
    (iprop(∃ S, owes (c : Thread nD τ) O S) : sProp 𝕄) ⊢ Pipeline.owesWithin c O B := by
  iintro ⟨%S, H⟩; iexists S
  isplitr; · ipureintro; exact fun x _ => hB x
  iexact H
/-- And back: the bound is forgotten. -/
theorem within_due (c : Dev nD) (O : CellTallies nD τ sig Unit) (B : Set (SemLoc sig × Unit)) :
    (Pipeline.owesWithin c O B : sProp 𝕄) ⊢ iprop(∃ S, owes (c : Thread nD τ) O S) := by
  iintro ⟨%S, -, H⟩; iexists S; iexact H

/-! ### The three calls -/

set_option backward.isDefEq.respectTransparency.types false in
/-- Call 0 between its two boundaries: its arrays are cut out of the unscoped buffers at entry and glued back at exit at
    what its write-backs leave; the generator register goes into the call's invariant and comes back; no semaphore of
    the kernel's own; nothing owed. -/
def call0 : Pipeline.RegionSeg (pcfgs (F := F)) noTab (callDat m) () defs₀ 𝒱ₙ noPairs noLevel 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ noPairs noLevel 0 fun _ _ => rfl
  pre c := Bdry (W2 m) c
  post c := Bdry (W3 m) c
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have cut := Pipeline.arrays_of_unscopedBufs (p := 0) (pcfgs (F := F)) noTab (callDat m) launch0.win launch0.arr_whole c
      ((callDat m 0 c).share_full fun _ => rfl) (V2 m c) fun _ => rfl
    rw [Pipeline.unscopedBufs_held] at cut
    iintro ⟨⟨Hbufs, Hgen, Hdue⟩, -, -⟩
    ihave Hcut := cut $$ Hbufs
    icases Hcut with ⟨Harr, Hoth⟩
    imodintro
    isplitl [Harr]; · iexact Harr
    isplitr; · unfold Pipeline.prefHeld; rw [show (Finset.univ : Finset (Fin 0)) = ∅ from rfl, BI.bigSep_empty]; iempintro
    isplitl [Hdue]; · iapply (due_within c 0 _ fun _ => Or.inl trivial); iexact Hdue
    isplitl [Hgen]; · iexact Hgen
    iexact Hoth
  hin c := by
    rw [show (callDat m 0 c).Φ 0 = Pipeline.ΦA spec0 c from Phi0_first (V2 m) c]; unfold Pipeline.ΦA
    iintro ⟨Hgen, -, Hscr⟩
    isplitl [Hscr]; · iexact Hscr
    iexact Hgen
  hout c := by
    rw [Pipeline.ownSems0_none]
    have back := Phi0_last (V2 m) c
    unfold Pipeline.ΦA at back
    rw [show (callDat m 0 c).Φ (Fin.last _) = (dat0 (V2 m) c).Φ (Fin.last cfg0.N) from rfl]
    iintro Hlast
    ihave Hback := back $$ Hlast
    icases Hback with ⟨Hscr, Hgen⟩
    isplitl [Hgen]; · iexact Hgen
    isplitr; · iempintro
    iexact Hscr
  hexit c := by
    have glue := Pipeline.unscopedBufs_of_arrays (p := 0) (pcfgs (F := F)) noTab (Ix := Unit) (Name := ℕ) (U := UR sig nD τ) (Lvl := ℕ)
      launch0.win launch0.arr_whole c (callDat m) ((callDat m 0 c).share_full fun _ => rfl)
      (V2 m c) (fun b => W3 m c b) ((callDat m 0 c).arrAt · cfg0.N) (fun w => (W3_arr m c w).symm)
      (fun b hb => W3_of_ne m c b fun w e => hb (Finset.mem_image.mpr ⟨w, Finset.mem_univ _, e⟩))
    rw [Pipeline.unscopedBufs_held] at glue
    iintro ⟨Harr, Hdue, Hgen, Hoth⟩
    imodintro
    isplitl [Harr Hoth]
    · iapply glue; isplitl [Harr] <;> iassumption
    isplitl [Hgen]; · iexact Hgen
    iapply (within_due c 0 _); iexact Hdue

set_option backward.isDefEq.respectTransparency.types false in
/-- Call 1 between its two boundaries: its arrays are cut out of the unscoped buffers at entry and glued back at exit at
    what its write-backs leave; the generator register goes into the call's invariant and comes back; no semaphore of
    the kernel's own; nothing owed. -/
def call1 : Pipeline.RegionSeg (pcfgs (F := F)) noTab (callDat m) () defs₀ 𝒱ₙ noPairs noLevel 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ noPairs noLevel 1 fun _ _ => rfl
  pre c := Bdry (W3 m) c
  post c := Bdry (W4 m) c
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have cut := Pipeline.arrays_of_unscopedBufs (p := 1) (pcfgs (F := F)) noTab (callDat m) launch1.win launch1.arr_whole c
      ((callDat m 1 c).share_full fun _ => rfl) (V3 m c) fun _ => rfl
    rw [Pipeline.unscopedBufs_held] at cut
    iintro ⟨⟨Hbufs, Hgen, Hdue⟩, -, -⟩
    ihave Hcut := cut $$ Hbufs
    icases Hcut with ⟨Harr, Hoth⟩
    imodintro
    isplitl [Harr]; · iexact Harr
    isplitr; · unfold Pipeline.prefHeld; rw [show (Finset.univ : Finset (Fin 0)) = ∅ from rfl, BI.bigSep_empty]; iempintro
    isplitl [Hdue]; · iapply (due_within c 0 _ fun _ => Or.inl trivial); iexact Hdue
    isplitl [Hgen]; · iexact Hgen
    iexact Hoth
  hin c := by
    rw [show (callDat m 1 c).Φ 0 = Pipeline.ΦA spec1 c from Phi1_first (V3 m) c]; unfold Pipeline.ΦA
    iintro ⟨Hgen, -, Hscr⟩
    isplitl [Hscr]; · iexact Hscr
    iexact Hgen
  hout c := by
    rw [Pipeline.ownSems0_none]
    have back := Phi1_last (V3 m) c
    unfold Pipeline.ΦA at back
    rw [show (callDat m 1 c).Φ (Fin.last _) = (dat1 (V3 m) c).Φ (Fin.last cfg1.N) from rfl]
    iintro Hlast
    ihave Hback := back $$ Hlast
    icases Hback with ⟨Hscr, Hgen⟩
    isplitl [Hgen]; · iexact Hgen
    isplitr; · iempintro
    iexact Hscr
  hexit c := by
    have glue := Pipeline.unscopedBufs_of_arrays (p := 1) (pcfgs (F := F)) noTab (Ix := Unit) (Name := ℕ) (U := UR sig nD τ) (Lvl := ℕ)
      launch1.win launch1.arr_whole c (callDat m) ((callDat m 1 c).share_full fun _ => rfl)
      (V3 m c) (fun b => W4 m c b) ((callDat m 1 c).arrAt · cfg1.N) (fun w => (W4_arr m c w).symm)
      (fun b hb => W4_of_ne m c b fun w e => hb (Finset.mem_image.mpr ⟨w, Finset.mem_univ _, e⟩))
    rw [Pipeline.unscopedBufs_held] at glue
    iintro ⟨Harr, Hdue, Hgen, Hoth⟩
    imodintro
    isplitl [Harr Hoth]
    · iapply glue; isplitl [Harr] <;> iassumption
    isplitl [Hgen]; · iexact Hgen
    iapply (within_due c 0 _); iexact Hdue

set_option backward.isDefEq.respectTransparency.types false in
/-- Call 2 between its two boundaries: its arrays are cut out of the unscoped buffers at entry and glued back at exit at
    what its write-backs leave; the generator register goes into the call's invariant and comes back; no semaphore of
    the kernel's own; nothing owed. -/
def call2 : Pipeline.RegionSeg (pcfgs (F := F)) noTab (callDat m) () defs₀ 𝒱ₙ noPairs noLevel 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ noPairs noLevel 2 fun _ _ => rfl
  pre c := Bdry (W5 m) c
  post c := iprop(End m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have cut := Pipeline.arrays_of_unscopedBufs (p := 2) (pcfgs (F := F)) noTab (callDat m) launch2.win launch2.arr_whole c
      ((callDat m 2 c).share_full fun _ => rfl) (V5 m c) fun _ => rfl
    rw [Pipeline.unscopedBufs_held] at cut
    iintro ⟨⟨Hbufs, Hgen, Hdue⟩, -, -⟩
    ihave Hcut := cut $$ Hbufs
    icases Hcut with ⟨Harr, Hoth⟩
    imodintro
    isplitl [Harr]; · iexact Harr
    isplitr; · unfold Pipeline.prefHeld; rw [show (Finset.univ : Finset (Fin 0)) = ∅ from rfl, BI.bigSep_empty]; iempintro
    isplitl [Hdue]; · iapply (due_within c 0 _ fun _ => Or.inl trivial); iexact Hdue
    isplitl [Hgen]; · iexact Hgen
    iexact Hoth
  hin c := by
    rw [show (callDat m 2 c).Φ 0 = Pipeline.ΦA spec2 c from rfl]; unfold Pipeline.ΦA
    iintro ⟨Hgen, -, Hscr⟩
    isplitl [Hscr]; · iexact Hscr
    iexact Hgen
  hout c := by
    rw [Pipeline.ownSems0_none]
    rw [show (callDat m 2 c).Φ (Fin.last _) = Pipeline.ΦA spec2 c from rfl]
    unfold Pipeline.ΦA
    iintro ⟨Hscr, Hgen⟩
    isplitl [Hgen]; · iexact Hgen
    isplitr; · iempintro
    iexact Hscr
  hexit c := by
    have glue := Pipeline.unscopedBufs_of_arrays (p := 2) (pcfgs (F := F)) noTab (Ix := Unit) (Name := ℕ) (U := UR sig nD τ) (Lvl := ℕ)
      launch2.win launch2.arr_whole c (callDat m) ((callDat m 2 c).share_full fun _ => rfl)
      (V5 m c) (fun b => W6 m c b) ((callDat m 2 c).arrAt · cfg2.N) (fun w => (W6_arr m c w).symm)
      (fun b hb => W6_of_ne m c b fun w e => hb (Finset.mem_image.mpr ⟨w, Finset.mem_univ _, e⟩))
    rw [Pipeline.unscopedBufs_held] at glue
    iintro ⟨Harr, Hdue, Hgen, Hoth⟩
    imodintro
    isplitl [Harr Hoth Hgen]
    · isplitl [Harr Hoth]
      · iapply glue; isplitl [Harr] <;> iassumption
      iexact Hgen
    iapply (within_due c 0 _); iexact Hdue

/-! ### The program as its six items -/

/-- The items in order: the table's stretch, the sign row's stretch, the two sketch calls, the bias row's stretch, the final call. -/
abbrev items : List (Pipeline.Seg (pcfgs (F := F)) noTab (callDat m) () defs₀ 𝒱ₙ noPairs noLevel) :=
  [ .host (stretch hostOps0 hostOps0_sub hostOps0_fresh (W0 m)),
    .host (stretch hostOps0_1 hostOps0_1_sub hostOps0_1_fresh (W1 m)),
    .region (call0 m),
    .region (call1 m),
    .host (stretch hostOps2 hostOps2_sub hostOps2_fresh (W4 m)),
    .region (call2 m) ]

set_option backward.isDefEq.respectTransparency.types false in
/-- Every weakly fair execution from memory `m` with zero counters terminates without a fault, and every final memory holds
    every unscoped buffer of every core at the last boundary's contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W6 m c b) :=
  Pipeline.θ_run_regions_kit (pcfgs (F := F)) noTab (callDat m) () cellOf_inj emb₁ defs₀ 𝒱ₙ noPairs noLevel m ρ main (items m)
    (fun c Q => by
      rw [main_chain c, Pipeline.Seg.run_eq_chain]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Bdry (W0 m)) (Tₙ := End m)
    (hch := ⟨fun _ => .rfl, fun _ => .rfl, fun _ => .rfl, fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hdue, -, Hgen, -⟩, -⟩
      imodintro
      isplitl [Hbufs]; · iexact Hbufs
      isplitl [Hgen]; · iexists _; iexact Hgen
      iexists ∅; iexact Hdue)
    (QY := fun c s => ∀ b ∈ Pipeline.ucRefs τ sig, s.mem (((c : Thread nD τ)).1, b) = W6 m c b)
    (hfin := fun c s' => by
      iintro ⟨⟨Hbufs, -⟩, HSI⟩
      unfold StableHlo.held
      imodintro
      iapply (pointsTo_read_all (Pipeline.ucRefs τ sig) (fun b => (((c : Thread nD τ)).1, b)) (W6 m c) s')
      isplitl [Hbufs] <;> iassumption)
    (hQ := fun _ h => h)

end Cert.KernelIdeal.Hand

end
-- ==== Proof.BitsSketch0.lean ====
/-
  The first sketch call (rows of the first matrix): what its staging buffers and its accumulator hold point by point.
  The grid is 8 row tiles by 2 halves of the contracted axis; point t = 2·i + k. At k = 0 the accumulator is reset to zero
  and the first half's product is added; at k = 1 the second half's product is added and the accumulator is written out.
-/
import proofs.«418869_j12721693131116_3_alg».proof.Proof.Gen.Kernel.Launch
import proofs.«418869_j12721693131116_3_alg».proof.Proof.Gen.Kernel.Skeleton
import proofs.«418869_j12721693131116_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 512 × 2048 tile, the whole 1 × 2048 row, and the 2048 rows of the resident matrix a point contracts over. -/
abbrev rT0 : Rect S512x2048 := Rect.unit (s := S512x2048) ![0, 0] S512x2048.size inb_S512x2048_S512x2048_0_0
abbrev rR0 : Rect S1x2048 := Rect.unit (s := S1x2048) ![0, 0] S1x2048.size inb_S1x2048_S1x2048_0_0
abbrev rS0 (i : grid0.Coords) : Rect S4096x2048 := Rect.unit (s := S4096x2048) (k0_off1 i) S2048x2048.size (k0_off1_inb i)

/-- One accumulation: the accumulator `a` plus the product of the signed tile with the point's rows of the resident matrix. -/
def step0 (i : grid0.Coords) (x0 : Vec F S512x2048 .f32) (x1 : Vec F S1x2048 .f32) (x2 : Vec F S4096x2048 .bf16)
    (a : Vec F S512x2048 .f32) : Vec F S512x2048 .f32 :=
  k0_pay2 (View.ld x0 rT0) (View.ld x1 rR0) (View.ld x2 (rS0 i)) a

/-- The accumulator after point `n`: from zero at an even point, from what the point before left at an odd one. -/
def acc0 (c : Dev nD) : (n : ℕ) → n < cfg0.N → Vec F S512x2048 .f32
  | 0, hn => step0 (grid0.coords ⟨0, hn⟩) (iblk0 V c 0 ⟨0, hn⟩) (iblk0 V c 1 ⟨0, hn⟩) (iblk0 V c 2 ⟨0, hn⟩) (k0_pay1 (F := F))
  | n + 1, hn => step0 (grid0.coords ⟨n + 1, hn⟩) (iblk0 V c 0 ⟨n + 1, hn⟩) (iblk0 V c 1 ⟨n + 1, hn⟩) (iblk0 V c 2 ⟨n + 1, hn⟩)
      (if (n + 1) % 2 = 0 then (k0_pay1 (F := F)) else acc0 c n (Nat.lt_of_succ_lt hn))

/-- The accumulator scratch as a memref. -/
abbrev scM0 : Memref sig .tc .vmem S512x2048 .f32 := Memref.whole cc0_scratch0

/-- The call's invariant before point `n`: at entry every scoped buffer that is no staging buffer at anything; afterwards the
    accumulator at what the point before left, the other calls' scoped buffers unopened, the generator register at some state. -/
def Phi0 (c : Dev nD) : (n : ℕ) → n ≤ cfg0.N → sProp 𝕄
  | 0, _ => Pipeline.ΦA spec0 c
  | n + 1, hn => iprop(owns (c : Thread nD τ) scM0 fullShare (acc0 V c n hn)
      ∗ Pipeline.scopedRestBut (Ix := Unit) (Name := ℕ) (U := UR sig nD τ) (Lvl := ℕ) (Val := Elt F) spec0 c [cc0_scratch0]
      ∗ (∃ r, prngReg c r))

/-- The proof data: arrays as found; inputs left at their blocks; the output tile at the accumulator written out. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (acc0 V c t.val t.isLt) := by dsimp only [dat0]

/-! ## The two branch conditions, in closed form over the grid -/

/-- The reset is taken: the second coordinate is zero. -/
abbrev isFirst0 (i : grid0.Coords) : Prop :=
  (Scalar.cmpi .ne (Scalar.extui (Scalar.cmpi .eq (BitVec.ofNat 32 (i 1).val) 0#32)) 0#32) = 1#1
/-- The write-out is taken: the second coordinate is one. -/
abbrev isLast0 (i : grid0.Coords) : Prop := k0_cond2 i = 1#1

theorem isFirst0_iff : ∀ t : Fin cfg0.N, isFirst0 (grid0.coords t) ↔ t.val % 2 = 0 :=
  (by decide +kernel : ∀ t : Fin grid0.N, isFirst0 (grid0.coords t) ↔ t.val % 2 = 0)
theorem isLast0_iff : ∀ t : Fin cfg0.N, isLast0 (grid0.coords t) ↔ t.val % 2 = 1 :=
  (by decide +kernel : ∀ t : Fin grid0.N, isLast0 (grid0.coords t) ↔ t.val % 2 = 1)

/-- The three inputs are live at every point; the output is live exactly at the odd points. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem idle0_3_even : ∀ t : Fin cfg0.N, t.val % 2 = 0 → cfg0.idle 3 (grid0.coords t) = true := by decide +kernel
theorem noflush0_3_even : ∀ t : Fin cfg0.N, t.val % 2 = 0 → (cfg0.win 3).flush t = false := by decide +kernel
theorem live0_3_odd : ∀ t : Fin cfg0.N, t.val % 2 = 1 → cfg0.idle 3 (grid0.coords t) = false := by decide +kernel

/-! ## The invariant opened at the accumulator -/

/-- The class's invariant with the accumulator split off the scoped rest. -/
theorem PhiA0_split (c : Dev nD) :
    (Pipeline.ΦA spec0 c : sProp 𝕄)
      = iprop(((∃ d, owns (c : Thread nD τ) scM0 fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA
  rw [Pipeline.scopedRest_split_of_list spec0 c [cc0_scratch0] (by decide) (by decide)]
  simp only [bigSepL_singleton, scM0, owns_whole]
  rfl

theorem Phi0_pos (c : Dev nD) (n : ℕ) (h : n ≤ cfg0.N) (hz : n ≠ 0) :
    Phi0 V c n h = iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hz
  | succ n => rfl

/-- The zero offsets of a whole-tile access, as the constant function. -/
theorem zero2_0 : (![0, 0] : Fin S512x2048.rank → ℕ) = fun _ => 0 := by funext a; fin_cases a <;> rfl

/-! ## The kernel's run, case by case -/

set_option maxHeartbeats 1000000 in
/-- At a first half (reset taken, write-out not taken): the accumulator, whatever it held, ends at one step from zero; the
    staged inputs and the output tile are as they were. -/
theorem run0_first (c : Dev nD) (E : Set ℕ) (i : grid0.Coords)
    (a2 : Memref sig .tc .vmem S512x2048 .f32) (h2 : a2.IsWhole) (a3 : Memref sig .tc .vmem S1x2048 .f32) (h3 : a3.IsWhole)
    (a4 : Memref sig .tc .vmem S4096x2048 .bf16) (h4 : a4.IsWhole) (a5 : Memref sig .tc .vmem S512x2048 .bf16) (h5 : a5.IsWhole)
    (a6 : Memref sig .tc .vmem S512x2048 .f32) (h6 : a6.IsWhole)
    (hfst : isFirst0 i) (hlst : ¬ isLast0 i)
    (x0 : Vec F S512x2048 .f32) (x1 : Vec F S1x2048 .f32) (x2 : Vec F S4096x2048 .bf16) (xo : Vec F S512x2048 .bf16)
    (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare xo ∗ (∃ d, owns (c : Thread nD τ) a6 fullShare d)
        ∗ (iprop(owns (c : Thread nD τ) a2 fullShare x0 ∗ owns (c : Thread nD τ) a3 fullShare x1 ∗ owns (c : Thread nD τ) a4 fullShare x2
            ∗ owns (c : Thread nD τ) a5 fullShare xo
            ∗ owns (c : Thread nD τ) a6 fullShare (step0 i x0 x1 x2 (k0_pay1 (F := F)))) -∗ K ⟨⟩))
      ⊢ wp frame (wpE (defs₀ (F := F)) Variants.none c none) E (cc0__sketch_kernel i a2 h2 a3 h3 a4 h4 a5 h5 a6 h6) K := by
  simp only [cc0__sketch_kernel_eq_skeleton]; unfold cc0__sketch_kernel_skel
  unfold owns
  iintro ⟨⟨%f0, %e0, H0⟩, ⟨%f1, %e1, H1⟩, ⟨%f2, %e2, H2⟩, ⟨%fo, %eo, HO⟩, ⟨%d, %fs, -, HS⟩, Hk⟩
  subst e0; subst e1; subst e2; subst eo
  sl_exec (disch := first | exact hfst | exact hlst)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists fo; isplitr; · ipureintro; rfl
    iexact HO
  iexists _; isplitr
  swap; · iexact HS
  ipureintro
  rw [View.read_writes_eq_canon _ _ _ (fun y => ⟨_, List.mem_cons_self, View.mem_set_unit_zero zero2_0 inb_S512x2048_S512x2048_0_0 y⟩)]
  sl_unfold_words
  rw [View.canon_cons_unit_zero (S := S512x2048) zero2_0]
  simp only [View.readAt_eq_ld, View.readCov_unit_zero (S := S512x2048) _ zero2_0]
  rfl

set_option maxHeartbeats 1000000 in
/-- At a second half (reset not taken, write-out taken): the accumulator ends one step from what it held, and the output tile
    holds that written out; the staged inputs are as they were. -/
theorem run0_second (c : Dev nD) (E : Set ℕ) (i : grid0.Coords)
    (a2 : Memref sig .tc .vmem S512x2048 .f32) (h2 : a2.IsWhole) (a3 : Memref sig .tc .vmem S1x2048 .f32) (h3 : a3.IsWhole)
    (a4 : Memref sig .tc .vmem S4096x2048 .bf16) (h4 : a4.IsWhole) (a5 : Memref sig .tc .vmem S512x2048 .bf16) (h5 : a5.IsWhole)
    (a6 : Memref sig .tc .vmem S512x2048 .f32) (h6 : a6.IsWhole)
    (hfst : ¬ isFirst0 i) (hlst : isLast0 i)
    (x0 : Vec F S512x2048 .f32) (x1 : Vec F S1x2048 .f32) (x2 : Vec F S4096x2048 .bf16) (a : Vec F S512x2048 .f32)
    (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a5 fullShare d) ∗ owns (c : Thread nD τ) a6 fullShare a
        ∗ (iprop(owns (c : Thread nD τ) a2 fullShare x0 ∗ owns (c : Thread nD τ) a3 fullShare x1 ∗ owns (c : Thread nD τ) a4 fullShare x2
            ∗ owns (c : Thread nD τ) a5 fullShare (k0_pay3 (step0 i x0 x1 x2 a))
            ∗ owns (c : Thread nD τ) a6 fullShare (step0 i x0 x1 x2 a)) -∗ K ⟨⟩))
      ⊢ wp frame (wpE (defs₀ (F := F)) Variants.none c none) E (cc0__sketch_kernel i a2 h2 a3 h3 a4 h4 a5 h5 a6 h6) K := by
  simp only [cc0__sketch_kernel_eq_skeleton]; unfold cc0__sketch_kernel_skel
  unfold owns
  iintro ⟨⟨%f0, %e0, H0⟩, ⟨%f1, %e1, H1⟩, ⟨%f2, %e2, H2⟩, ⟨%d, %fo, -, HO⟩, ⟨%fs, %es, HS⟩, Hk⟩
  subst e0; subst e1; subst e2; subst es
  sl_exec (disch := first | exact hfst | exact hlst)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists _; isplitr
    swap; · iexact HO
    ipureintro
    sl_unfold_words
    rw [View.read_writes_eq_canon _ _ _ (fun y => ⟨_, List.mem_cons_self, View.mem_set_unit_zero zero2_0 inb_S512x2048_S512x2048_0_0 y⟩)]
    rw [View.canon_cons_unit_zero (S := S512x2048) zero2_0]
    unfold step0
    simp only [View.readAt_eq_ld, View.readCov_unit_zero (S := S512x2048) _ zero2_0, View.ld_unit_zero (S := S512x2048) zero2_0]
    rfl
  iexists _; isplitr
  swap; · iexact HS
  ipureintro
  sl_unfold_words
  rw [View.read_writes_eq_canon _ _ _ (fun y => ⟨_, List.mem_cons_self, View.mem_set_unit_zero zero2_0 inb_S512x2048_S512x2048_0_0 y⟩)]
  rw [View.canon_cons_unit_zero (S := S512x2048) zero2_0]
  unfold step0
  simp only [View.readAt_eq_ld, View.readCov_unit_zero (S := S512x2048) _ zero2_0, View.ld_unit_zero (S := S512x2048) zero2_0]
  rfl

/-! ## What the staged inputs hold at each point -/

/-- Each input's current buffer holds its block at every point, fetched there or not: the body leaves the block in place,
    the window is uncut and never idle. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The accumulator, point by point -/

/-- At a first half the accumulator is one step from zero. -/
theorem acc0_even (c : Dev nD) (t : Fin cfg0.N) (h : t.val % 2 = 0) :
    acc0 V c t.val t.isLt
      = step0 (grid0.coords t) (iblk0 V c 0 t) (iblk0 V c 1 t) (iblk0 V c 2 t) (k0_pay1 (F := F)) := by
  obtain ⟨n, hn⟩ := t
  cases n with
  | zero => rfl
  | succ n =>
    have h' : (n + 1) % 2 = 0 := h
    rw [acc0, if_pos h']

/-- At a second half it is one step from what the point before left. -/
theorem acc0_odd (c : Dev nD) (t : Fin cfg0.N) (h : t.val % 2 = 1) :
    acc0 V c t.val t.isLt
      = step0 (grid0.coords t) (iblk0 V c 0 t) (iblk0 V c 1 t) (iblk0 V c 2 t)
          (acc0 V c (t.val - 1) (Nat.lt_of_le_of_lt (Nat.sub_le _ _) t.isLt)) := by
  obtain ⟨n, hn⟩ := t
  cases n with
  | zero => have h0 : (0 : ℕ) % 2 = 1 := h; omega
  | succ n =>
    have h' : ¬ (n + 1) % 2 = 0 := by have h1 : (n + 1) % 2 = 1 := h; omega
    rw [acc0, if_neg h']; rfl

/-! ## The invariant at a point's two ends -/

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(owns (c : Thread nD τ) scM0 fullShare (acc0 V c n hn)
      ∗ Pipeline.scopedRestBut (Ix := Unit) (Name := ℕ) (U := UR sig nD τ) (Lvl := ℕ) (Val := Elt F) spec0 c [cc0_scratch0]
      ∗ (∃ r, prngReg c r)) := rfl

theorem Phi0_start (c : Dev nD) (t : Fin cfg0.N) : (dat0 V c).Φ t.castSucc = Phi0 V c t.val (Nat.le_of_lt t.isLt) := rfl
theorem Phi0_end (c : Dev nD) (t : Fin cfg0.N) : (dat0 V c).Φ t.succ = Phi0 V c (t.val + 1) t.isLt := rfl

/-! ## The body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point. The inputs' buffers hold their blocks. At a first half the accumulator is taken at anything (at
    the very first point out of the class's invariant, later at what the point before left, forgotten) and left one step from
    zero, and the output tile, idle there, goes back as it came. At a second half the accumulator is taken at what the first
    half left and left one step further, and the output tile is left at that written out. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [Phi0_end, Phi0_succ, Phi0_start]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  rw [show (dat0 V c).leavesExact 2 t = owns (c : Thread nD τ) (st0_2 t) fullShare ((dat0 V c).after 2 t) from by
    unfold Dat.leavesExact; rw [live0_2 t], after0_2]
  have hN : t.val < 16 := lt_of_lt_of_eq t.isLt (show cfg0.N = 16 from N_0)
  by_cases hk : t.val % 2 = 0
  · have hfst : isFirst0 (grid0.coords t) := (isFirst0_iff t).mpr hk
    have hlst : ¬ isLast0 (grid0.coords t) := fun h => by have := (isLast0_iff t).mp h; omega
    rw [Dat.leavesExact_idle (dat0 V c) 3 t (idle0_3_even t hk) (noflush0_3_even t hk)]
    rw [acc0_even V c t hk]
    by_cases hz : t.val = 0
    · rw [Phi0_zero V c _ _ hz, PhiA0_split]
      iintro ⟨⟨⟨HS, HR⟩, Hg⟩, Ho, ⟨%d0, H0⟩, ⟨%d1, H1⟩, ⟨%d2, H2⟩, ⟨%d3, H3⟩⟩
      iapply (run0_first c Set.univ (grid0.coords t) _ _ _ _ _ _ _ _ _ _ hfst hlst
        (iblk0 V c 0 t) (iblk0 V c 1 t) (iblk0 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [Phi0_pos V c _ _ hz]
      iintro ⟨⟨HS, HR, Hg⟩, Ho, ⟨%d0, H0⟩, ⟨%d1, H1⟩, ⟨%d2, H2⟩, ⟨%d3, H3⟩⟩
      iapply (run0_first c Set.univ (grid0.coords t) _ _ _ _ _ _ _ _ _ _ hfst hlst
        (iblk0 V c 0 t) (iblk0 V c 1 t) (iblk0 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hk1 : t.val % 2 = 1 := by omega
    have hz : t.val ≠ 0 := by omega
    have hfst : ¬ isFirst0 (grid0.coords t) := fun h => hk ((isFirst0_iff t).mp h)
    have hlst : isLast0 (grid0.coords t) := (isLast0_iff t).mpr hk1
    rw [show (dat0 V c).leavesExact 3 t = owns (c : Thread nD τ) (st0_3 t) fullShare ((dat0 V c).after 3 t) from by
      unfold Dat.leavesExact; rw [live0_3_odd t hk1], after0_3]
    rw [acc0_odd V c t hk1, Phi0_pos V c _ _ hz]
    iintro ⟨⟨HS, HR, Hg⟩, Ho, ⟨%d0, H0⟩, ⟨%d1, H1⟩, ⟨%d2, H2⟩, ⟨%d3, H3⟩⟩
    iapply (run0_second c Set.univ (grid0.coords t) _ _ _ _ _ _ _ _ _ _ hfst hlst
      (iblk0 V c 0 t) (iblk0 V c 1 t) (iblk0 V c 2 t) _ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3

/-- The invariant at entry is the class's; at the end it gives the class's back. -/
theorem Phi0_first (c : Dev nD) : (dat0 V c).Φ 0 = Pipeline.ΦA spec0 c := rfl
theorem Phi0_last (c : Dev nD) : (dat0 V c).Φ (Fin.last cfg0.N) ⊢ (Pipeline.ΦA spec0 c : sProp 𝕄) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 16 := N_0; omega), PhiA0_split]
  iintro ⟨HS, HR, Hg⟩
  isplitr [Hg]
  · isplitl [HS]
    · iexists _; iexact HS
    iexact HR
  iexact Hg

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.BitsSketch1.lean ====
/-
  The second sketch call (rows of the second matrix): what its staging buffers and its accumulator hold point by point.
  The grid is 8 row tiles by 2 halves of the contracted axis; point t = 2·i + k. At k = 0 the accumulator is reset to zero
  and the first half's product is added; at k = 1 the second half's product is added and the accumulator is written out.
-/
import proofs.«418869_j12721693131116_3_alg».proof.Proof.Gen.Kernel.Launch
import proofs.«418869_j12721693131116_3_alg».proof.Proof.Gen.Kernel.Skeleton
import proofs.«418869_j12721693131116_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 512 × 2048 tile, the whole 1 × 2048 row, and the 2048 rows of the resident matrix a point contracts over. -/
abbrev rT1 : Rect S512x2048 := Rect.unit (s := S512x2048) ![0, 0] S512x2048.size inb_S512x2048_S512x2048_0_0
abbrev rR1 : Rect S1x2048 := Rect.unit (s := S1x2048) ![0, 0] S1x2048.size inb_S1x2048_S1x2048_0_0
abbrev rS1 (i : grid1.Coords) : Rect S4096x2048 := Rect.unit (s := S4096x2048) (k1_off1 i) S2048x2048.size (k1_off1_inb i)

/-- One accumulation: the accumulator `a` plus the product of the signed tile with the point's rows of the resident matrix. -/
def step1 (i : grid1.Coords) (x0 : Vec F S512x2048 .f32) (x1 : Vec F S1x2048 .f32) (x2 : Vec F S4096x2048 .bf16)
    (a : Vec F S512x2048 .f32) : Vec F S512x2048 .f32 :=
  k1_pay2 (View.ld x0 rT1) (View.ld x1 rR1) (View.ld x2 (rS1 i)) a

/-- The accumulator after point `n`: from zero at an even point, from what the point before left at an odd one. -/
def acc1 (c : Dev nD) : (n : ℕ) → n < cfg1.N → Vec F S512x2048 .f32
  | 0, hn => step1 (grid1.coords ⟨0, hn⟩) (iblk1 V c 0 ⟨0, hn⟩) (iblk1 V c 1 ⟨0, hn⟩) (iblk1 V c 2 ⟨0, hn⟩) (k1_pay1 (F := F))
  | n + 1, hn => step1 (grid1.coords ⟨n + 1, hn⟩) (iblk1 V c 0 ⟨n + 1, hn⟩) (iblk1 V c 1 ⟨n + 1, hn⟩) (iblk1 V c 2 ⟨n + 1, hn⟩)
      (if (n + 1) % 2 = 0 then (k1_pay1 (F := F)) else acc1 c n (Nat.lt_of_succ_lt hn))

/-- The accumulator scratch as a memref. -/
abbrev scM1 : Memref sig .tc .vmem S512x2048 .f32 := Memref.whole cc1_scratch0

/-- The call's invariant before point `n`: at entry every scoped buffer that is no staging buffer at anything; afterwards the
    accumulator at what the point before left, the other calls' scoped buffers unopened, the generator register at some state. -/
def Phi1 (c : Dev nD) : (n : ℕ) → n ≤ cfg1.N → sProp 𝕄
  | 0, _ => Pipeline.ΦA spec1 c
  | n + 1, hn => iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r))

/-- The proof data: arrays as found; inputs left at their blocks; the output tile at the accumulator written out. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t.val t.isLt) := by dsimp only [dat1]

/-! ## The two branch conditions, in closed form over the grid -/

/-- The reset is taken: the second coordinate is zero. -/
abbrev isFirst1 (i : grid1.Coords) : Prop :=
  (Scalar.cmpi .ne (Scalar.extui (Scalar.cmpi .eq (BitVec.ofNat 32 (i 1).val) 0#32)) 0#32) = 1#1
/-- The write-out is taken: the second coordinate is one. -/
abbrev isLast1 (i : grid1.Coords) : Prop := k1_cond2 i = 1#1

theorem isFirst1_iff : ∀ t : Fin cfg1.N, isFirst1 (grid1.coords t) ↔ t.val % 2 = 0 :=
  (by decide +kernel : ∀ t : Fin grid1.N, isFirst1 (grid1.coords t) ↔ t.val % 2 = 0)
theorem isLast1_iff : ∀ t : Fin cfg1.N, isLast1 (grid1.coords t) ↔ t.val % 2 = 1 :=
  (by decide +kernel : ∀ t : Fin grid1.N, isLast1 (grid1.coords t) ↔ t.val % 2 = 1)

/-- The three inputs are live at every point; the output is live exactly at the odd points. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem idle1_3_even : ∀ t : Fin cfg1.N, t.val % 2 = 0 → cfg1.idle 3 (grid1.coords t) = true := by decide +kernel
theorem noflush1_3_even : ∀ t : Fin cfg1.N, t.val % 2 = 0 → (cfg1.win 3).flush t = false := by decide +kernel
theorem live1_3_odd : ∀ t : Fin cfg1.N, t.val % 2 = 1 → cfg1.idle 3 (grid1.coords t) = false := by decide +kernel

/-! ## The invariant opened at the accumulator -/

/-- The class's invariant with the accumulator split off the scoped rest. -/
theorem PhiA1_split (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA
  rw [Pipeline.scopedRest_split_of_list spec1 c [cc1_scratch0] (by decide) (by decide)]
  simp only [bigSepL_singleton, scM1, owns_whole]
  rfl

theorem Phi1_pos (c : Dev nD) (n : ℕ) (h : n ≤ cfg1.N) (hz : n ≠ 0) :
    Phi1 V c n h = iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

/-- The zero offsets of a whole-tile access, as the constant function. -/
theorem zero2_1 : (![0, 0] : Fin S512x2048.rank → ℕ) = fun _ => 0 := by funext a; fin_cases a <;> rfl

/-! ## The kernel's run, case by case -/

set_option maxHeartbeats 1000000 in
/-- At a first half (reset taken, write-out not taken): the accumulator, whatever it held, ends at one step from zero; the
    staged inputs and the output tile are as they were. -/
theorem run1_first (c : Dev nD) (E : Set ℕ) (i : grid1.Coords)
    (a2 : Memref sig .tc .vmem S512x2048 .f32) (h2 : a2.IsWhole) (a3 : Memref sig .tc .vmem S1x2048 .f32) (h3 : a3.IsWhole)
    (a4 : Memref sig .tc .vmem S4096x2048 .bf16) (h4 : a4.IsWhole) (a5 : Memref sig .tc .vmem S512x2048 .bf16) (h5 : a5.IsWhole)
    (a6 : Memref sig .tc .vmem S512x2048 .f32) (h6 : a6.IsWhole)
    (hfst : isFirst1 i) (hlst : ¬ isLast1 i)
    (x0 : Vec F S512x2048 .f32) (x1 : Vec F S1x2048 .f32) (x2 : Vec F S4096x2048 .bf16) (xo : Vec F S512x2048 .bf16)
    (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare xo ∗ (∃ d, owns (c : Thread nD τ) a6 fullShare d)
        ∗ (iprop(owns (c : Thread nD τ) a2 fullShare x0 ∗ owns (c : Thread nD τ) a3 fullShare x1 ∗ owns (c : Thread nD τ) a4 fullShare x2
            ∗ owns (c : Thread nD τ) a5 fullShare xo
            ∗ owns (c : Thread nD τ) a6 fullShare (step1 i x0 x1 x2 (k1_pay1 (F := F)))) -∗ K ⟨⟩))
      ⊢ wp frame (wpE (defs₀ (F := F)) Variants.none c none) E (cc1__sketch_kernel i a2 h2 a3 h3 a4 h4 a5 h5 a6 h6) K := by
  simp only [cc1__sketch_kernel_eq_skeleton]; unfold cc1__sketch_kernel_skel
  unfold owns
  iintro ⟨⟨%f0, %e0, H0⟩, ⟨%f1, %e1, H1⟩, ⟨%f2, %e2, H2⟩, ⟨%fo, %eo, HO⟩, ⟨%d, %fs, -, HS⟩, Hk⟩
  subst e0; subst e1; subst e2; subst eo
  sl_exec (disch := first | exact hfst | exact hlst)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists fo; isplitr; · ipureintro; rfl
    iexact HO
  iexists _; isplitr
  swap; · iexact HS
  ipureintro
  rw [View.read_writes_eq_canon _ _ _ (fun y => ⟨_, List.mem_cons_self, View.mem_set_unit_zero zero2_1 inb_S512x2048_S512x2048_0_0 y⟩)]
  sl_unfold_words
  rw [View.canon_cons_unit_zero (S := S512x2048) zero2_1]
  simp only [View.readAt_eq_ld, View.readCov_unit_zero (S := S512x2048) _ zero2_1]
  rfl

set_option maxHeartbeats 1000000 in
/-- At a second half (reset not taken, write-out taken): the accumulator ends one step from what it held, and the output tile
    holds that written out; the staged inputs are as they were. -/
theorem run1_second (c : Dev nD) (E : Set ℕ) (i : grid1.Coords)
    (a2 : Memref sig .tc .vmem S512x2048 .f32) (h2 : a2.IsWhole) (a3 : Memref sig .tc .vmem S1x2048 .f32) (h3 : a3.IsWhole)
    (a4 : Memref sig .tc .vmem S4096x2048 .bf16) (h4 : a4.IsWhole) (a5 : Memref sig .tc .vmem S512x2048 .bf16) (h5 : a5.IsWhole)
    (a6 : Memref sig .tc .vmem S512x2048 .f32) (h6 : a6.IsWhole)
    (hfst : ¬ isFirst1 i) (hlst : isLast1 i)
    (x0 : Vec F S512x2048 .f32) (x1 : Vec F S1x2048 .f32) (x2 : Vec F S4096x2048 .bf16) (a : Vec F S512x2048 .f32)
    (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a5 fullShare d) ∗ owns (c : Thread nD τ) a6 fullShare a
        ∗ (iprop(owns (c : Thread nD τ) a2 fullShare x0 ∗ owns (c : Thread nD τ) a3 fullShare x1 ∗ owns (c : Thread nD τ) a4 fullShare x2
            ∗ owns (c : Thread nD τ) a5 fullShare (k1_pay3 (step1 i x0 x1 x2 a))
            ∗ owns (c : Thread nD τ) a6 fullShare (step1 i x0 x1 x2 a)) -∗ K ⟨⟩))
      ⊢ wp frame (wpE (defs₀ (F := F)) Variants.none c none) E (cc1__sketch_kernel i a2 h2 a3 h3 a4 h4 a5 h5 a6 h6) K := by
  simp only [cc1__sketch_kernel_eq_skeleton]; unfold cc1__sketch_kernel_skel
  unfold owns
  iintro ⟨⟨%f0, %e0, H0⟩, ⟨%f1, %e1, H1⟩, ⟨%f2, %e2, H2⟩, ⟨%d, %fo, -, HO⟩, ⟨%fs, %es, HS⟩, Hk⟩
  subst e0; subst e1; subst e2; subst es
  sl_exec (disch := first | exact hfst | exact hlst)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists _; isplitr
    swap; · iexact HO
    ipureintro
    sl_unfold_words
    rw [View.read_writes_eq_canon _ _ _ (fun y => ⟨_, List.mem_cons_self, View.mem_set_unit_zero zero2_1 inb_S512x2048_S512x2048_0_0 y⟩)]
    rw [View.canon_cons_unit_zero (S := S512x2048) zero2_1]
    unfold step1
    simp only [View.readAt_eq_ld, View.readCov_unit_zero (S := S512x2048) _ zero2_1, View.ld_unit_zero (S := S512x2048) zero2_1]
    rfl
  iexists _; isplitr
  swap; · iexact HS
  ipureintro
  sl_unfold_words
  rw [View.read_writes_eq_canon _ _ _ (fun y => ⟨_, List.mem_cons_self, View.mem_set_unit_zero zero2_1 inb_S512x2048_S512x2048_0_0 y⟩)]
  rw [View.canon_cons_unit_zero (S := S512x2048) zero2_1]
  unfold step1
  simp only [View.readAt_eq_ld, View.readCov_unit_zero (S := S512x2048) _ zero2_1, View.ld_unit_zero (S := S512x2048) zero2_1]
  rfl

/-! ## What the staged inputs hold at each point -/

/-- Each input's current buffer holds its block at every point, fetched there or not: the body leaves the block in place,
    the window is uncut and never idle. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The accumulator, point by point -/

/-- At a first half the accumulator is one step from zero. -/
theorem acc1_even (c : Dev nD) (t : Fin cfg1.N) (h : t.val % 2 = 0) :
    acc1 V c t.val t.isLt
      = step1 (grid1.coords t) (iblk1 V c 0 t) (iblk1 V c 1 t) (iblk1 V c 2 t) (k1_pay1 (F := F)) := by
  obtain ⟨n, hn⟩ := t
  cases n with
  | zero => rfl
  | succ n =>
    have h' : (n + 1) % 2 = 0 := h
    rw [acc1, if_pos h']

/-- At a second half it is one step from what the point before left. -/
theorem acc1_odd (c : Dev nD) (t : Fin cfg1.N) (h : t.val % 2 = 1) :
    acc1 V c t.val t.isLt
      = step1 (grid1.coords t) (iblk1 V c 0 t) (iblk1 V c 1 t) (iblk1 V c 2 t)
          (acc1 V c (t.val - 1) (Nat.lt_of_le_of_lt (Nat.sub_le _ _) t.isLt)) := by
  obtain ⟨n, hn⟩ := t
  cases n with
  | zero => have h0 : (0 : ℕ) % 2 = 1 := h; omega
  | succ n =>
    have h' : ¬ (n + 1) % 2 = 0 := by have h1 : (n + 1) % 2 = 1 := h; omega
    rw [acc1, if_neg h']; rfl

/-! ## The invariant at a point's two ends -/

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r)) := rfl

theorem Phi1_start (c : Dev nD) (t : Fin cfg1.N) : (dat1 V c).Φ t.castSucc = Phi1 V c t.val (Nat.le_of_lt t.isLt) := rfl
theorem Phi1_end (c : Dev nD) (t : Fin cfg1.N) : (dat1 V c).Φ t.succ = Phi1 V c (t.val + 1) t.isLt := rfl

/-! ## The body obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The inputs' buffers hold their blocks. At a first half the accumulator is taken at anything (at
    the very first point out of the class's invariant, later at what the point before left, forgotten) and left one step from
    zero, and the output tile, idle there, goes back as it came. At a second half the accumulator is taken at what the first
    half left and left one step further, and the output tile is left at that written out. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [Phi1_end, Phi1_succ, Phi1_start]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [show (dat1 V c).leavesExact 2 t = owns (c : Thread nD τ) (st1_2 t) fullShare ((dat1 V c).after 2 t) from by
    unfold Dat.leavesExact; rw [live1_2 t], after1_2]
  have hN : t.val < 16 := lt_of_lt_of_eq t.isLt (show cfg1.N = 16 from N_1)
  by_cases hk : t.val % 2 = 0
  · have hfst : isFirst1 (grid1.coords t) := (isFirst1_iff t).mpr hk
    have hlst : ¬ isLast1 (grid1.coords t) := fun h => by have := (isLast1_iff t).mp h; omega
    rw [Dat.leavesExact_idle (dat1 V c) 3 t (idle1_3_even t hk) (noflush1_3_even t hk)]
    rw [acc1_even V c t hk]
    by_cases hz : t.val = 0
    · rw [Phi1_zero V c _ _ hz, PhiA1_split]
      iintro ⟨⟨⟨HS, HR⟩, Hg⟩, Ho, ⟨%d0, H0⟩, ⟨%d1, H1⟩, ⟨%d2, H2⟩, ⟨%d3, H3⟩⟩
      iapply (run1_first c Set.univ (grid1.coords t) _ _ _ _ _ _ _ _ _ _ hfst hlst
        (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [Phi1_pos V c _ _ hz]
      iintro ⟨⟨HS, HR, Hg⟩, Ho, ⟨%d0, H0⟩, ⟨%d1, H1⟩, ⟨%d2, H2⟩, ⟨%d3, H3⟩⟩
      iapply (run1_first c Set.univ (grid1.coords t) _ _ _ _ _ _ _ _ _ _ hfst hlst
        (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hk1 : t.val % 2 = 1 := by omega
    have hz : t.val ≠ 0 := by omega
    have hfst : ¬ isFirst1 (grid1.coords t) := fun h => hk ((isFirst1_iff t).mp h)
    have hlst : isLast1 (grid1.coords t) := (isLast1_iff t).mpr hk1
    rw [show (dat1 V c).leavesExact 3 t = owns (c : Thread nD τ) (st1_3 t) fullShare ((dat1 V c).after 3 t) from by
      unfold Dat.leavesExact; rw [live1_3_odd t hk1], after1_3]
    rw [acc1_odd V c t hk1, Phi1_pos V c _ _ hz]
    iintro ⟨⟨HS, HR, Hg⟩, Ho, ⟨%d0, H0⟩, ⟨%d1, H1⟩, ⟨%d2, H2⟩, ⟨%d3, H3⟩⟩
    iapply (run1_second c Set.univ (grid1.coords t) _ _ _ _ _ _ _ _ _ _ hfst hlst
      (iblk1 V c 0 t) (iblk1 V c 1 t) (iblk1 V c 2 t) _ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3

/-- The invariant at entry is the class's; at the end it gives the class's back. -/
theorem Phi1_first (c : Dev nD) : (dat1 V c).Φ 0 = Pipeline.ΦA spec1 c := rfl
theorem Phi1_last (c : Dev nD) : (dat1 V c).Φ (Fin.last cfg1.N) ⊢ (Pipeline.ΦA spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 16 := N_1; omega), PhiA1_split]
  iintro ⟨HS, HR, Hg⟩
  isplitr [Hg]
  · isplitl [HS]
    · iexists _; iexact HS
    iexact HR
  iexact Hg

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.BitsFinal2.lean ====
/-
  The final call: one 512 × 2048 tile of the result per grid point (8 row tiles by 2 column halves, point t = 2·i + j): the
  product of the tile's rows of the first sketch with the point's 2048 rows of the second sketch, contracted over the
  2048 buckets, plus the bias row.
-/
import proofs.«418869_j12721693131116_3_alg».proof.Proof.Gen.Kernel.Launch
import proofs.«418869_j12721693131116_3_alg».proof.Proof.Gen.Kernel.Skeleton
import proofs.«418869_j12721693131116_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole 512 × 2048 tile, the whole 1 × 2048 row, and the 2048 rows of the resident sketch a point multiplies by. -/
abbrev rT2 : Rect S512x2048 := Rect.unit (s := S512x2048) ![0, 0] S512x2048.size inb_S512x2048_S512x2048_0_0
abbrev rR2 : Rect S1x2048 := Rect.unit (s := S1x2048) ![0, 0] S1x2048.size inb_S1x2048_S1x2048_0_0
abbrev rS2 (i : grid2.Coords) : Rect S4096x2048 := Rect.unit (s := S4096x2048) (k2_off1 i) S2048x2048.size (k2_off1_inb i)

/-- The result tile at a point, from the three input blocks. -/
def out2 (i : grid2.Coords) (x0 : Vec F S512x2048 .bf16) (x1 : Vec F S4096x2048 .bf16) (x2 : Vec F S1x2048 .f32) :
    Vec F S512x2048 .f32 :=
  k2_pay1 (View.ld x1 (rS2 i)) (View.ld x0 rT2) (View.ld x2 rR2)

/-- The proof data: arrays as found; inputs left at their blocks; the output tile at `out2` of the blocks; the class's invariant. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (grid2.coords t) (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (grid2.coords t) (iblk2 V c 0 t) (iblk2 V c 1 t) (iblk2 V c 2 t) := by dsimp only [dat2]

/-! ## The inputs where the body finds them -/

/-- What a fetch of an input window lands in its buffer is the window's block there. -/
theorem fetched2_0 (c : Dev nD) (t : Fin cfg2.N) (d) : (dat2 V c).fetched 0 t d = iblk2 V c 0 t := by
  unfold Dat.fetched Dat.blockOf iblk2; rw [A_eq2]; rfl
theorem fetched2_1 (c : Dev nD) (t : Fin cfg2.N) (d) : (dat2 V c).fetched 1 t d = iblk2 V c 1 t := by
  unfold Dat.fetched Dat.blockOf iblk2; rw [A_eq2]; rfl
theorem fetched2_2 (c : Dev nD) (t : Fin cfg2.N) (d) : (dat2 V c).fetched 2 t d = iblk2 V c 2 t := by
  unfold Dat.fetched Dat.blockOf iblk2; rw [A_eq2]; rfl

/-- The tile of the first sketch is in its buffer at every point: fetched at the even points, and at the odd ones
    the row tile has not moved and the body left it as it was. -/
theorem holds2_0 (c : Dev nD) (t : Fin cfg2.N) (d) : (dat2 V c).before 0 t d = iblk2 V c 0 t := by
  rw [(dat2 V c).before_in_eq_fetched 0 rfl (fun _ => rfl) (fun _ _ _ => rfl) ?_ t d, fetched2_0]
  intro s; rw [after2_0]; unfold Dat.blockOf iblk2; rw [A_eq2]
/-- The second sketch is resident: fetched once, whole, and left in place by every point. -/
theorem holds2_1 (c : Dev nD) (t : Fin cfg2.N) (d) : (dat2 V c).before 1 t d = iblk2 V c 1 t := by
  rw [(dat2 V c).before_in_eq_fetched 1 rfl (fun _ => rfl) (fun _ _ _ => rfl) ?_ t d, fetched2_1]
  intro s; rw [after2_1]; unfold Dat.blockOf iblk2; rw [A_eq2]
/-- The bias row's half is fetched at every point. -/
theorem holds2_2 (c : Dev nD) (t : Fin cfg2.N) (d) : (dat2 V c).before 2 t d = iblk2 V c 2 t := by
  rw [(dat2 V c).before_in_eq_fetched 2 rfl (fun _ => rfl) (fun _ _ _ => rfl) ?_ t d, fetched2_2]
  intro s; rw [after2_2]; unfold Dat.blockOf iblk2; rw [A_eq2]

/-! ## The kernel on whole buffers -/

/-- The tile's rectangle starts at the origin. -/
theorem origin2 : (![0, 0] : Fin S512x2048.rank → ℕ) = fun _ => 0 := funext fun a => by fin_cases a <;> rfl

/-- The one store covers the tile. -/
theorem tile_covered2 (p : Vec F S512x2048 .f32) (y : S512x2048.Idx) :
    ∃ pc ∈ ([⟨rT2, p⟩] : List (View.Piece (Elt F) S512x2048 .f32)), y ∈ pc.1.set :=
  ⟨_, List.mem_singleton_self _, View.mem_set_unit_zero origin2 inb_S512x2048_S512x2048_0_0 y⟩

set_option maxHeartbeats 1000000 in
/-- The kernel at grid coordinates `i`, its three inputs whole at `x0`, `x1`, `x2` and its output buffer at anything:
    it leaves the inputs as they were and the output at `out2 i x0 x1 x2`. The four loads and the one store are run in
    order; the store is of the whole tile, so what the buffer reads afterwards is the stored value. -/
theorem final_kernel_spec2 (c : Dev nD) (E : Set ℕ) (i : grid2.Coords)
    (a0 : Memref sig .tc .vmem S512x2048 .bf16) (h0 : a0.IsWhole)
    (a1 : Memref sig .tc .vmem S4096x2048 .bf16) (h1 : a1.IsWhole)
    (a2 : Memref sig .tc .vmem S1x2048 .f32) (h2 : a2.IsWhole)
    (a3 : Memref sig .tc .vmem S512x2048 .f32) (h3 : a3.IsWhole)
    (x0 : Vec F S512x2048 .bf16) (x1 : Vec F S4096x2048 .bf16) (x2 : Vec F S1x2048 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out2 i x0 x1 x2)) -∗ K ⟨⟩))
      ⊢ wp frame (wpE (defs₀ (F := F)) Variants.none c none) E (cc2__final_kernel i a0 h0 a1 h1 a2 h2 a3 h3) K := by
  simp only [cc2__final_kernel_eq_skeleton]; unfold cc2__final_kernel_skel
  unfold owns
  iintro ⟨⟨%f0, %e0, H0⟩, ⟨%f1, %e1, H1⟩, ⟨%f2, %e2, H2⟩, ⟨%d3, %f3, -, H3⟩, Hk⟩
  subst e0 e1 e2
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  iexists _; isplitr
  swap
  · iexact H3
  ipureintro
  rw [View.read_writes_eq_canon _ _ _ (tile_covered2 _), View.canon_unit_zero origin2]
  rfl

/-! ## The body at a point -/

/-- The invariant and what the core owes are the same before and after a point. -/
theorem inv_step2 (c : Dev nD) (t : Fin cfg2.N) : (dat2 V c).Φ t.succ = (dat2 V c).Φ t.castSucc := rfl
theorem owes_step2 (c : Dev nD) (t : Fin cfg2.N) : (dat2 V c).owesAt () t.succ = (dat2 V c).owesAt () t.castSucc := rfl

/-- At any point the three inputs' buffers hold their blocks, so the kernel's triple applies at the point's
    coordinates; the invariant and what the core owes pass through unread. -/
theorem final_at_point2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ d, owns (c : Thread nD τ) (st2_3 t) fullShare ((dat2 V c).before 3 t d)))
      ⊢ wp frame (wpE (defs₀ (F := F)) Variants.none c none) Set.univ (bodyAt2 t) (fun _ =>
          iprop((dat2 V c).Φ t.succ ∗ (dat2 V c).owesAt () t.succ
            ∗ owns (c : Thread nD τ) (st2_0 t) fullShare ((dat2 V c).after 0 t)
            ∗ owns (c : Thread nD τ) (st2_1 t) fullShare ((dat2 V c).after 1 t)
            ∗ owns (c : Thread nD τ) (st2_2 t) fullShare ((dat2 V c).after 2 t)
            ∗ owns (c : Thread nD τ) (st2_3 t) fullShare ((dat2 V c).after 3 t))) := by
  rw [inv_step2, owes_step2]
  simp only [holds2_0, holds2_1, holds2_2, after2_0, after2_1, after2_2, after2_3]
  iintro ⟨HΦ, Ho, ⟨%d0, H0⟩, ⟨%d1, H1⟩, ⟨%d2, H2⟩, ⟨%d3, H3⟩⟩
  iapply (final_kernel_spec2 c Set.univ (grid2.coords t) _ _ _ _ _ _ _ _ (iblk2 V c 0 t) (iblk2 V c 1 t) (iblk2 V c 2 t) _)
  isplitl [H0]
  · iexact H0
  isplitl [H1]
  · iexact H1
  isplitl [H2]
  · iexact H2
  isplitl [H3]
  · iexists _; iexact H3
  iintro ⟨H0, H1, H2, H3⟩
  isplitl [HΦ]
  · iexact HΦ
  isplitl [Ho]
  · iexact Ho
  isplitl [H0]
  · iexact H0
  isplitl [H1]
  · iexact H1
  isplitl [H2]
  · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact final_at_point2 V c t

end

end Cert.Kernel.Hand

end
-- ==== Proof.BitsRun.lean ====
/-
  The whole run of the program: the buffer contents at every boundary between its items (host operations, the two sketch
  calls, the final call), and that every weakly fair execution ends with every unscoped buffer at the last boundary's contents.
-/
import proofs.«418869_j12721693131116_3_alg».proof.Proof.BitsSketch0
import proofs.«418869_j12721693131116_3_alg».proof.Proof.BitsSketch1
import proofs.«418869_j12721693131116_3_alg».proof.Proof.BitsFinal2
import proofs.«418869_j12721693131116_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary: a fold through the program -/

/-- At launch. -/
abbrev W0 : Dev nD → Valuation τ sig (Elt F) := fun c b => m (c, b)
/-- After the one-hot table is made (six host operations). -/
abbrev W1 : Dev nD → Valuation τ sig (Elt F) := fun c => StableHlo.after hostOps0 (W0 m c)
/-- After the sign vector is laid out as a row: what the first sketch call finds. -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b
/-- After the first sketch call: its arrays at what its write-backs leave, every other buffer as it was. -/
def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev V3 : (c : Dev nD) → (b : Ref sig .tc) → Buf (Elt F) ((c : Thread nD τ).loc b) := fun c b => W3 m c b
/-- After the second sketch call. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
/-- After the bias is laid out as a row: what the final call finds. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After the final call: the end of the program. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

/-! ## The arguments end as launched

No host operation writes an argument; a call either reads it through an input window, whose array is never written back, or
has it among none of its arrays. -/

/-- A buffer neither of the first two stretches writes is, when the first sketch call is entered, as launched. -/
theorem W2_as_launched (c : Dev nD) (r : Ref sig .tc) (ht : r ∉ hostOps0_W) (hs : r ∉ hostOps0_1_W) :
    W2 m c (Proc.devRef .tc r) = m ((c : Thread nD τ).loc r) :=
  calc W2 m c (Proc.devRef .tc r)
    _ = W1 m c (Proc.devRef .tc r) := StableHlo.after_of_writes_sub hostOps0_1 _ hostOps0_1_writes hs
    _ = W0 m c (Proc.devRef .tc r) := StableHlo.after_of_writes_sub hostOps0 _ hostOps0_writes ht
    _ = m ((c : Thread nD τ).loc r) := rfl

/-- A buffer that is no array of the final call and that the bias row's stretch does not write is at the end what the
    second sketch call left. -/
theorem W6_as_W4 (c : Dev nD) (r : Ref sig .tc) (h2 : ∀ w, Pipeline.arrRef spec2 w ≠ r) (hb : r ∉ hostOps2_W) :
    W6 m c (Proc.devRef .tc r) = W4 m c (Proc.devRef .tc r) :=
  (W6_of_ne m c r h2).trans (StableHlo.after_of_writes_sub hostOps2 _ hostOps2_writes hb)

/-- A buffer no stretch writes and no call has among its arrays is at the end as launched. -/
theorem W6_untouched (c : Dev nD) (r : Ref sig .tc) (h0 : ∀ w, Pipeline.arrRef spec0 w ≠ r) (h1 : ∀ w, Pipeline.arrRef spec1 w ≠ r)
    (h2 : ∀ w, Pipeline.arrRef spec2 w ≠ r) (ht : r ∉ hostOps0_W) (hs : r ∉ hostOps0_1_W) (hb : r ∉ hostOps2_W) :
    W6 m c (Proc.devRef .tc r) = m ((c : Thread nD τ).loc r) :=
  calc W6 m c (Proc.devRef .tc r)
    _ = W4 m c (Proc.devRef .tc r) := W6_as_W4 m c r h2 hb
    _ = W3 m c (Proc.devRef .tc r) := W4_of_ne m c r h1
    _ = W2 m c (Proc.devRef .tc r) := W3_of_ne m c r h0
    _ = m ((c : Thread nD τ).loc r) := W2_as_launched m c r ht hs

/-- The first matrix: the first sketch call reads it through its first window, an input; nothing else touches it. -/
theorem W6_main_arg0 (c : Dev nD) : W6 m c (Proc.devRef .tc main_arg0) = m ((c : Thread nD τ).loc main_arg0) :=
  calc W6 m c (Proc.devRef .tc main_arg0)
    _ = W4 m c (Proc.devRef .tc main_arg0) := W6_as_W4 m c main_arg0 (by decide) (by decide)
    _ = W3 m c (Proc.devRef .tc main_arg0) := W4_of_ne m c main_arg0 (by decide)
    _ = (dat0 (V2 m) c).arrAt 0 cfg0.N := W3_arr m c 0
    _ = (dat0 (V2 m) c).A 0 := (dat0 (V2 m) c).arrAt_in 0 rfl _
    _ = W2 m c (Proc.devRef .tc main_arg0) := A_eq0 (V2 m) c 0
    _ = m ((c : Thread nD τ).loc main_arg0) := W2_as_launched m c main_arg0 (by decide) (by decide)

/-- The second matrix: the second sketch call reads it through its first window, an input; nothing else touches it. -/
theorem W6_main_arg1 (c : Dev nD) : W6 m c (Proc.devRef .tc main_arg1) = m ((c : Thread nD τ).loc main_arg1) :=
  calc W6 m c (Proc.devRef .tc main_arg1)
    _ = W4 m c (Proc.devRef .tc main_arg1) := W6_as_W4 m c main_arg1 (by decide) (by decide)
    _ = (dat1 (V3 m) c).arrAt 0 cfg1.N := W4_arr m c 0
    _ = (dat1 (V3 m) c).A 0 := (dat1 (V3 m) c).arrAt_in 0 rfl _
    _ = W3 m c (Proc.devRef .tc main_arg1) := A_eq1 (V3 m) c 0
    _ = W2 m c (Proc.devRef .tc main_arg1) := W3_of_ne m c main_arg1 (by decide)
    _ = m ((c : Thread nD τ).loc main_arg1) := W2_as_launched m c main_arg1 (by decide) (by decide)

/-- The bias, the bucket indices and the signs: the stretches only read them and no call has them among its arrays. -/
theorem W6_main_arg2 (c : Dev nD) : W6 m c (Proc.devRef .tc main_arg2) = m ((c : Thread nD τ).loc main_arg2) :=
  W6_untouched m c main_arg2 (by decide) (by decide) (by decide) (by decide) (by decide) (by decide)
theorem W6_main_arg3 (c : Dev nD) : W6 m c (Proc.devRef .tc main_arg3) = m ((c : Thread nD τ).loc main_arg3) :=
  W6_untouched m c main_arg3 (by decide) (by decide) (by decide) (by decide) (by decide) (by decide)
theorem W6_main_arg4 (c : Dev nD) : W6 m c (Proc.devRef .tc main_arg4) = m ((c : Thread nD τ).loc main_arg4) :=
  W6_untouched m c main_arg4 (by decide) (by decide) (by decide) (by decide) (by decide) (by decide)

/-! ## The run -/

/-- An unscoped reference of the core is among those the run holds throughout. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ### What a core holds at a boundary -/

/-- No call has a prefetched table. -/
abbrev noTab : (p : Fin 3) → (pcfgs (F := F) p).Adm := fun p => (cfgs p).toPCfg_adm

/-- Each call's proof data, at the contents the call is entered with. -/
def callDat : (p : Fin 3) → (c : Dev nD) → Dat τ (Elt F) Unit ℕ (UR sig nD τ) ℕ (Pipeline.pin (pcfgs (F := F)) noTab p) c
  | ⟨0, _⟩ => fun c => dat0 (V2 m) c
  | ⟨1, _⟩ => fun c => dat1 (V3 m) c
  | ⟨2, _⟩ => fun c => dat2 (V5 m) c

abbrev 𝒱ₙ : Variants := Variants.none
/-- No core owes another anything, so no pair carries a level. -/
abbrev noPairs : GSem nD τ sig → Finset Unit := fun _ => ∅
abbrev noLevel : GSem nD τ sig → Unit → ℕ := fun _ _ => 0

/-- Beside the buffers a core carries its generator register, at some state, and its dues, which are none. -/
abbrev Carry (c : Dev nD) : sProp 𝕄 := iprop((∃ r, prngReg c r) ∗ ∃ W, owes (c : Thread nD τ) (0 : CellTallies nD τ sig Unit) W)
/-- A core at a boundary: every unscoped buffer whole at the boundary's contents, and what it carries. -/
abbrev Bdry (W : Dev nD → Valuation τ sig (Elt F)) (c : Dev nD) : sProp 𝕄 :=
  iprop(StableHlo.held (c : Thread nD τ) (Pipeline.ucRefs τ sig) (W c) ∗ Carry c)
/-- A core at the end, its dues aside: every unscoped buffer at the last boundary's contents, the register at some state. -/
abbrev End (c : Dev nD) : sProp 𝕄 :=
  iprop(StableHlo.held (c : Thread nD τ) (Pipeline.ucRefs τ sig) (W6 m c) ∗ ∃ r, prngReg c r)

/-- A stretch of host operations from the boundary contents `W`: it runs to the contents after the operations. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₙ noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Carry

/-- Dues with a record nobody describes are dues with the record inside any bound that has every pair. -/
theorem due_within (c : Dev nD) (O : CellTallies nD τ sig Unit) (B : Set (SemLoc sig × Unit)) (hB : ∀ x, x ∈ B) :
    (iprop(∃ S, owes (c : Thread nD τ) O S) : sProp 𝕄) ⊢ Pipeline.owesWithin c O B := by
  iintro ⟨%S, H⟩; iexists S
  isplitr; · ipureintro; exact fun x _ => hB x
  iexact H
/-- And back: the bound is forgotten. -/
theorem within_due (c : Dev nD) (O : CellTallies nD τ sig Unit) (B : Set (SemLoc sig × Unit)) :
    (Pipeline.owesWithin c O B : sProp 𝕄) ⊢ iprop(∃ S, owes (c : Thread nD τ) O S) := by
  iintro ⟨%S, -, H⟩; iexists S; iexact H

/-! ### The three calls -/

set_option backward.isDefEq.respectTransparency.types false in
/-- Call 0 between its two boundaries: its arrays are cut out of the unscoped buffers at entry and glued back at exit at
    what its write-backs leave; the generator register goes into the call's invariant and comes back; no semaphore of
    the kernel's own; nothing owed. -/
def call0 : Pipeline.RegionSeg (pcfgs (F := F)) noTab (callDat m) () defs₀ 𝒱ₙ noPairs noLevel 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ noPairs noLevel 0 fun _ _ => rfl
  pre c := Bdry (W2 m) c
  post c := Bdry (W3 m) c
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have cut := Pipeline.arrays_of_unscopedBufs (p := 0) (pcfgs (F := F)) noTab (callDat m) launch0.win launch0.arr_whole c
      ((callDat m 0 c).share_full fun _ => rfl) (V2 m c) fun _ => rfl
    rw [Pipeline.unscopedBufs_held] at cut
    iintro ⟨⟨Hbufs, Hgen, Hdue⟩, -, -⟩
    ihave Hcut := cut $$ Hbufs
    icases Hcut with ⟨Harr, Hoth⟩
    imodintro
    isplitl [Harr]; · iexact Harr
    isplitr; · unfold Pipeline.prefHeld; rw [show (Finset.univ : Finset (Fin 0)) = ∅ from rfl, BI.bigSep_empty]; iempintro
    isplitl [Hdue]; · iapply (due_within c 0 _ fun _ => Or.inl trivial); iexact Hdue
    isplitl [Hgen]; · iexact Hgen
    iexact Hoth
  hin c := by
    rw [show (callDat m 0 c).Φ 0 = Pipeline.ΦA spec0 c from Phi0_first (V2 m) c]; unfold Pipeline.ΦA
    iintro ⟨Hgen, -, Hscr⟩
    isplitl [Hscr]; · iexact Hscr
    iexact Hgen
  hout c := by
    rw [Pipeline.ownSems0_none]
    have back := Phi0_last (V2 m) c
    unfold Pipeline.ΦA at back
    rw [show (callDat m 0 c).Φ (Fin.last _) = (dat0 (V2 m) c).Φ (Fin.last cfg0.N) from rfl]
    iintro Hlast
    ihave Hback := back $$ Hlast
    icases Hback with ⟨Hscr, Hgen⟩
    isplitl [Hgen]; · iexact Hgen
    isplitr; · iempintro
    iexact Hscr
  hexit c := by
    have glue := Pipeline.unscopedBufs_of_arrays (p := 0) (pcfgs (F := F)) noTab (Ix := Unit) (Name := ℕ) (U := UR sig nD τ) (Lvl := ℕ)
      launch0.win launch0.arr_whole c (callDat m) ((callDat m 0 c).share_full fun _ => rfl)
      (V2 m c) (fun b => W3 m c b) ((callDat m 0 c).arrAt · cfg0.N) (fun w => (W3_arr m c w).symm)
      (fun b hb => W3_of_ne m c b fun w e => hb (Finset.mem_image.mpr ⟨w, Finset.mem_univ _, e⟩))
    rw [Pipeline.unscopedBufs_held] at glue
    iintro ⟨Harr, Hdue, Hgen, Hoth⟩
    imodintro
    isplitl [Harr Hoth]
    · iapply glue; isplitl [Harr] <;> iassumption
    isplitl [Hgen]; · iexact Hgen
    iapply (within_due c 0 _); iexact Hdue

set_option backward.isDefEq.respectTransparency.types false in
/-- Call 1 between its two boundaries: its arrays are cut out of the unscoped buffers at entry and glued back at exit at
    what its write-backs leave; the generator register goes into the call's invariant and comes back; no semaphore of
    the kernel's own; nothing owed. -/
def call1 : Pipeline.RegionSeg (pcfgs (F := F)) noTab (callDat m) () defs₀ 𝒱ₙ noPairs noLevel 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ noPairs noLevel 1 fun _ _ => rfl
  pre c := Bdry (W3 m) c
  post c := Bdry (W4 m) c
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have cut := Pipeline.arrays_of_unscopedBufs (p := 1) (pcfgs (F := F)) noTab (callDat m) launch1.win launch1.arr_whole c
      ((callDat m 1 c).share_full fun _ => rfl) (V3 m c) fun _ => rfl
    rw [Pipeline.unscopedBufs_held] at cut
    iintro ⟨⟨Hbufs, Hgen, Hdue⟩, -, -⟩
    ihave Hcut := cut $$ Hbufs
    icases Hcut with ⟨Harr, Hoth⟩
    imodintro
    isplitl [Harr]; · iexact Harr
    isplitr; · unfold Pipeline.prefHeld; rw [show (Finset.univ : Finset (Fin 0)) = ∅ from rfl, BI.bigSep_empty]; iempintro
    isplitl [Hdue]; · iapply (due_within c 0 _ fun _ => Or.inl trivial); iexact Hdue
    isplitl [Hgen]; · iexact Hgen
    iexact Hoth
  hin c := by
    rw [show (callDat m 1 c).Φ 0 = Pipeline.ΦA spec1 c from Phi1_first (V3 m) c]; unfold Pipeline.ΦA
    iintro ⟨Hgen, -, Hscr⟩
    isplitl [Hscr]; · iexact Hscr
    iexact Hgen
  hout c := by
    rw [Pipeline.ownSems0_none]
    have back := Phi1_last (V3 m) c
    unfold Pipeline.ΦA at back
    rw [show (callDat m 1 c).Φ (Fin.last _) = (dat1 (V3 m) c).Φ (Fin.last cfg1.N) from rfl]
    iintro Hlast
    ihave Hback := back $$ Hlast
    icases Hback with ⟨Hscr, Hgen⟩
    isplitl [Hgen]; · iexact Hgen
    isplitr; · iempintro
    iexact Hscr
  hexit c := by
    have glue := Pipeline.unscopedBufs_of_arrays (p := 1) (pcfgs (F := F)) noTab (Ix := Unit) (Name := ℕ) (U := UR sig nD τ) (Lvl := ℕ)
      launch1.win launch1.arr_whole c (callDat m) ((callDat m 1 c).share_full fun _ => rfl)
      (V3 m c) (fun b => W4 m c b) ((callDat m 1 c).arrAt · cfg1.N) (fun w => (W4_arr m c w).symm)
      (fun b hb => W4_of_ne m c b fun w e => hb (Finset.mem_image.mpr ⟨w, Finset.mem_univ _, e⟩))
    rw [Pipeline.unscopedBufs_held] at glue
    iintro ⟨Harr, Hdue, Hgen, Hoth⟩
    imodintro
    isplitl [Harr Hoth]
    · iapply glue; isplitl [Harr] <;> iassumption
    isplitl [Hgen]; · iexact Hgen
    iapply (within_due c 0 _); iexact Hdue

set_option backward.isDefEq.respectTransparency.types false in
/-- Call 2 between its two boundaries: its arrays are cut out of the unscoped buffers at entry and glued back at exit at
    what its write-backs leave; the generator register goes into the call's invariant and comes back; no semaphore of
    the kernel's own; nothing owed. -/
def call2 : Pipeline.RegionSeg (pcfgs (F := F)) noTab (callDat m) () defs₀ 𝒱ₙ noPairs noLevel 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ noPairs noLevel 2 fun _ _ => rfl
  pre c := Bdry (W5 m) c
  post c := iprop(End m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have cut := Pipeline.arrays_of_unscopedBufs (p := 2) (pcfgs (F := F)) noTab (callDat m) launch2.win launch2.arr_whole c
      ((callDat m 2 c).share_full fun _ => rfl) (V5 m c) fun _ => rfl
    rw [Pipeline.unscopedBufs_held] at cut
    iintro ⟨⟨Hbufs, Hgen, Hdue⟩, -, -⟩
    ihave Hcut := cut $$ Hbufs
    icases Hcut with ⟨Harr, Hoth⟩
    imodintro
    isplitl [Harr]; · iexact Harr
    isplitr; · unfold Pipeline.prefHeld; rw [show (Finset.univ : Finset (Fin 0)) = ∅ from rfl, BI.bigSep_empty]; iempintro
    isplitl [Hdue]; · iapply (due_within c 0 _ fun _ => Or.inl trivial); iexact Hdue
    isplitl [Hgen]; · iexact Hgen
    iexact Hoth
  hin c := by
    rw [show (callDat m 2 c).Φ 0 = Pipeline.ΦA spec2 c from rfl]; unfold Pipeline.ΦA
    iintro ⟨Hgen, -, Hscr⟩
    isplitl [Hscr]; · iexact Hscr
    iexact Hgen
  hout c := by
    rw [Pipeline.ownSems0_none]
    rw [show (callDat m 2 c).Φ (Fin.last _) = Pipeline.ΦA spec2 c from rfl]
    unfold Pipeline.ΦA
    iintro ⟨Hscr, Hgen⟩
    isplitl [Hgen]; · iexact Hgen
    isplitr; · iempintro
    iexact Hscr
  hexit c := by
    have glue := Pipeline.unscopedBufs_of_arrays (p := 2) (pcfgs (F := F)) noTab (Ix := Unit) (Name := ℕ) (U := UR sig nD τ) (Lvl := ℕ)
      launch2.win launch2.arr_whole c (callDat m) ((callDat m 2 c).share_full fun _ => rfl)
      (V5 m c) (fun b => W6 m c b) ((callDat m 2 c).arrAt · cfg2.N) (fun w => (W6_arr m c w).symm)
      (fun b hb => W6_of_ne m c b fun w e => hb (Finset.mem_image.mpr ⟨w, Finset.mem_univ _, e⟩))
    rw [Pipeline.unscopedBufs_held] at glue
    iintro ⟨Harr, Hdue, Hgen, Hoth⟩
    imodintro
    isplitl [Harr Hoth Hgen]
    · isplitl [Harr Hoth]
      · iapply glue; isplitl [Harr] <;> iassumption
      iexact Hgen
    iapply (within_due c 0 _); iexact Hdue

/-! ### The program as its six items -/

/-- The items in order: the table's stretch, the sign row's stretch, the two sketch calls, the bias row's stretch, the final call. -/
abbrev items : List (Pipeline.Seg (pcfgs (F := F)) noTab (callDat m) () defs₀ 𝒱ₙ noPairs noLevel) :=
  [ .host (stretch hostOps0 hostOps0_sub hostOps0_fresh (W0 m)),
    .host (stretch hostOps0_1 hostOps0_1_sub hostOps0_1_fresh (W1 m)),
    .region (call0 m),
    .region (call1 m),
    .host (stretch hostOps2 hostOps2_sub hostOps2_fresh (W4 m)),
    .region (call2 m) ]

set_option backward.isDefEq.respectTransparency.types false in
/-- Every weakly fair execution from memory `m` with zero counters terminates without a fault, and every final memory holds
    every unscoped buffer of every core at the last boundary's contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W6 m c b) :=
  Pipeline.θ_run_regions_kit (pcfgs (F := F)) noTab (callDat m) () cellOf_inj emb₁ defs₀ 𝒱ₙ noPairs noLevel m ρ main (items m)
    (fun c Q => by
      rw [main_chain c, Pipeline.Seg.run_eq_chain]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Bdry (W0 m)) (Tₙ := End m)
    (hch := ⟨fun _ => .rfl, fun _ => .rfl, fun _ => .rfl, fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hdue, -, Hgen, -⟩, -⟩
      imodintro
      isplitl [Hbufs]; · iexact Hbufs
      isplitl [Hgen]; · iexists _; iexact Hgen
      iexists ∅; iexact Hdue)
    (QY := fun c s => ∀ b ∈ Pipeline.ucRefs τ sig, s.mem (((c : Thread nD τ)).1, b) = W6 m c b)
    (hfin := fun c s' => by
      iintro ⟨⟨Hbufs, -⟩, HSI⟩
      unfold StableHlo.held
      imodintro
      iapply (pointsTo_read_all (Pipeline.ucRefs τ sig) (fun b => (((c : Thread nD τ)).1, b)) (W6 m c) s')
      isplitl [Hbufs] <;> iassumption)
    (hQ := fun _ h => h)

end Cert.Kernel.Hand

end
-- ==== Proof.Spec.lean ====
/-
  The mathematics of the claim, with no program in sight. A count sketch of a matrix: bucket b of row n collects the signed
  entries x(n, d) · s(d) of the columns d whose hash index is b. The result: out(n, o) = Σ_b sketch(x)(n, b) · sketch(w)(o, b) + bias(o).
  The kernel computes each sketch as a product with a zero-one table, the contracted axis cut in two halves added one after
  the other to a zero accumulator; over the extended reals that is the same sum, since a · 0 = 0, a · 1 = a, and finite sums
  may be regrouped (no finiteness is needed: only commutativity and associativity of + are used).
-/
import Idealize.ShloMosaic.PureOps.Ideal
import Idealize.ShloMosaic.Lib.ValueIdx
import Mathlib.Algebra.BigOperators.Fin
import Mathlib.Data.EReal.Basic

noncomputable section

namespace Cert.Spec

open Idealize.ShloMosaic Idealize.ShloMosaic.ValueIdx

/-- The shapes of the claim: the two 4096 × 4096 matrices and the result, a 4096 × 2048 sketch (or zero-one table), a
    1 × 4096 row, a vector of 4096. -/
abbrev M44 : Shape := ⟨2, ![4096, 4096]⟩
abbrev M42 : Shape := ⟨2, ![4096, 2048]⟩
abbrev R14 : Shape := ⟨2, ![1, 4096]⟩
abbrev V4 : Shape := ⟨1, ![4096]⟩

/-- Bucket `b` of row `n` of the sketch: the signed entries of the columns hashed to `b`. -/
def sketchAt (x : M44.Idx → EReal) (s : V4.Idx → EReal) (h : V4.Idx → BitVec 32) (n : Fin 4096) (b : Fin 2048) : EReal :=
  ∑ d : Fin 4096, if h (ix1 d) = BitVec.ofNat 32 b.val then x (ix2 n d) * s (ix1 d) else 0

/-- The sketch as an array. -/
def sketch (x : M44.Idx → EReal) (s : V4.Idx → EReal) (h : V4.Idx → BitVec 32) : M42.Idx → EReal :=
  fun j => sketchAt x s h (j 0) (j 1)

/-- The two halves of the contracted axis. -/
def lo (k : Fin 2048) : Fin 4096 := ⟨k.val, by omega⟩
def hi (k : Fin 2048) : Fin 4096 := ⟨2048 + k.val, by omega⟩

/-- The sketch as the kernel forms it, from a sign ROW `r` and a TABLE `S`: zero, plus the first half's products, plus
    the second half's. -/
def sketchBlockedAt (x : M44.Idx → EReal) (r : R14.Idx → EReal) (S : M42.Idx → EReal) (n : Fin 4096) (b : Fin 2048) : EReal :=
  (0 + ∑ k : Fin 2048, (x (ix2 n (lo k)) * r (ix2 0 (lo k))) * S (ix2 (lo k) b))
    + ∑ k : Fin 2048, (x (ix2 n (hi k)) * r (ix2 0 (hi k))) * S (ix2 (hi k) b)

def sketchBlocked (x : M44.Idx → EReal) (r : R14.Idx → EReal) (S : M42.Idx → EReal) : M42.Idx → EReal :=
  fun j => sketchBlockedAt x r S (j 0) (j 1)

/-- A vector laid out as a 1 × 4096 row. -/
def rowOf (v : V4.Idx → EReal) : R14.Idx → EReal := fun j => v (ix1 (j 1))

/-- The zero-one table of a hash index vector: 1 at (d, b) when column `d` is hashed to bucket `b`. -/
def onehot (h : V4.Idx → BitVec 32) : M42.Idx → EReal :=
  fun j => if h (ix1 (j 0)) = BitVec.ofNat 32 (j 1).val then 1 else 0

/-- Entry (n, o) of the product of two sketches over the buckets, plus the bias row. -/
def finalAt (a b : M42.Idx → EReal) (r : R14.Idx → EReal) (n o : Fin 4096) : EReal :=
  (∑ k : Fin 2048, a (ix2 n k) * b (ix2 o k)) + r (ix2 0 o)

def finalK (a b : M42.Idx → EReal) (r : R14.Idx → EReal) : M44.Idx → EReal :=
  fun i => finalAt a b r (i 0) (i 1)

/-- THE RESULT as one function of the five argument arrays. -/
def G (x w : M44.Idx → EReal) (bias : V4.Idx → EReal) (h : V4.Idx → BitVec 32) (s : V4.Idx → EReal) : M44.Idx → EReal :=
  finalK (sketch x s h) (sketch w s h) (rowOf bias)

/-- A sum over the 4096 columns is the sum over the first half plus the sum over the second half. -/
theorem sum_halves (f : Fin 4096 → EReal) : ∑ d : Fin 4096, f d = (∑ k : Fin 2048, f (lo k)) + ∑ k : Fin 2048, f (hi k) := by
  have e := Fin.sum_univ_add (M := EReal) (a := 2048) (b := 2048) f
  have hlo : ∀ k : Fin 2048, Fin.castAdd 2048 k = lo k := fun k => Fin.ext rfl
  have hhi : ∀ k : Fin 2048, Fin.natAdd 2048 k = hi k := fun k => Fin.ext rfl
  simp only [hlo, hhi] at e
  exact e

/-- The kernel's form of the sketch, over the sign row and the zero-one table, is the sketch. -/
theorem sketchBlocked_onehot (x : M44.Idx → EReal) (s : V4.Idx → EReal) (h : V4.Idx → BitVec 32) :
    sketchBlocked x (rowOf s) (onehot h) = sketch x s h := by
  funext j
  simp only [sketchBlocked, sketch, sketchBlockedAt, sketchAt, rowOf, onehot]
  rw [sum_halves (fun d => if h (ix1 d) = BitVec.ofNat 32 (j 1).val then x (ix2 (j 0) d) * s (ix1 d) else 0), zero_add]
  congr 1 <;>
  · refine Finset.sum_congr rfl fun k _ => ?_
    show _ * (if _ then (1 : EReal) else 0) = _
    rw [mul_ite, mul_one, mul_zero]

end Cert.Spec

end
-- ==== Proof.SketchValue0.lean ====
/-
  What the first sketch call (rows of the first matrix) leaves in its output array, over the extended reals: entry (n, b) is
  zero, plus the sum over the first 2048 columns d of x(n, d) · r(0, d) · S(d, b), plus the same sum over the last 2048
  columns. Row tile i is written back once, after the second half (point 2·i + 1); the 8 tiles cover the array.
-/
import proofs.«418869_j12721693131116_3_alg».proof.Proof.Sketch0
import proofs.«418869_j12721693131116_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The four axis readings of the product's operand indices: the left operand is read at (row of the output, contraction
    position), the right one at (contraction position, column of the output). -/
theorem sk0_lhs_0 (j : S512x2048.Idx) (q : dot_S512x2048_S2048x2048_S512x2048_1_0_0_1_n_n.contr.Idx) :
    (dot_S512x2048_S2048x2048_S512x2048_1_0_0_1_n_n.lhsIdx j q 0).val = (j 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
theorem sk0_lhs_1 (j : S512x2048.Idx) (q : dot_S512x2048_S2048x2048_S512x2048_1_0_0_1_n_n.contr.Idx) :
    (dot_S512x2048_S2048x2048_S512x2048_1_0_0_1_n_n.lhsIdx j q 1).val = (q ⟨0, by decide⟩).val :=
  dot_S512x2048_S2048x2048_S512x2048_1_0_0_1_n_n.lhsIdx_val_of_single rfl j q
theorem sk0_rhs_0 (j : S512x2048.Idx) (q : dot_S512x2048_S2048x2048_S512x2048_1_0_0_1_n_n.contr.Idx) :
    (dot_S512x2048_S2048x2048_S512x2048_1_0_0_1_n_n.rhsIdx j q 0).val = (q ⟨0, by decide⟩).val :=
  dot_S512x2048_S2048x2048_S512x2048_1_0_0_1_n_n.rhsIdx_val_of_single rfl j q
theorem sk0_rhs_1 (j : S512x2048.Idx) (q : dot_S512x2048_S2048x2048_S512x2048_1_0_0_1_n_n.contr.Idx) :
    (dot_S512x2048_S2048x2048_S512x2048_1_0_0_1_n_n.rhsIdx j q 1).val = (j 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- The product into the zero accumulator, read at (p, q): the sum over the 2048 contraction positions of left(p, k) · right(k, q). -/
theorem sk0_matmul_apply (A : FVec Ideal S512x2048 .bf16) (B : FVec Ideal S2048x2048 .bf16) (p : Fin 512) (q : Fin 2048) :
    matmul (F := Ideal) dot_S512x2048_S2048x2048_S512x2048_1_0_0_1_n_n none A B (constant (F := Ideal) S512x2048 .f32 0x00000000#32) (ix2 p q)
      = ∑ k : Fin 2048, A (ix2 p k) * B (ix2 k q) := by
  simp only [matmul]
  rw [Ideal.matmul_constant_zero_apply, ← Equiv.sum_comp (ValueIdx.contrEquiv1 dot_S512x2048_S2048x2048_S512x2048_1_0_0_1_n_n 2048 rfl rfl).symm]
  refine Finset.sum_congr rfl fun k _ => ?_
  have hk := ValueIdx.contrEquiv1_symm_val dot_S512x2048_S2048x2048_S512x2048_1_0_0_1_n_n 2048 rfl rfl k
  have el : dot_S512x2048_S2048x2048_S512x2048_1_0_0_1_n_n.lhsIdx (ix2 p q) ((ValueIdx.contrEquiv1 dot_S512x2048_S2048x2048_S512x2048_1_0_0_1_n_n 2048 rfl rfl).symm k) = ix2 p k := funext fun a => Fin.ext (by
    match a with
    | ⟨0, _⟩ => exact sk0_lhs_0 _ _
    | ⟨1, _⟩ => exact (sk0_lhs_1 _ _).trans hk)
  have er : dot_S512x2048_S2048x2048_S512x2048_1_0_0_1_n_n.rhsIdx (ix2 p q) ((ValueIdx.contrEquiv1 dot_S512x2048_S2048x2048_S512x2048_1_0_0_1_n_n 2048 rfl rfl).symm k) = ix2 k q := funext fun a => Fin.ext (by
    match a with
    | ⟨0, _⟩ => exact (sk0_rhs_0 _ _).trans hk
    | ⟨1, _⟩ => exact sk0_rhs_1 _ _)
  rw [el, er]

/-- One accumulation read at (p, q): the accumulator there plus the sum over the point's 2048 columns of
    tile(p, k) · sign(0, k) · table(k, q). -/
theorem skv0_payload (v3 : Vec Ideal S512x2048 .f32) (v4 : Vec Ideal S1x2048 .f32) (v12 : Vec Ideal S2048x2048 .bf16)
    (v14 : Vec Ideal S512x2048 .f32) (p : Fin 512) (q : Fin 2048) :
    k0_pay2 (F := Ideal) v3 v4 v12 v14 (ix2 p q)
      = v14 (ix2 p q) + ∑ k : Fin 2048, (v3 (ix2 p k) * v4 (ix2 (0 : Fin 1) k)) * v12 (ix2 k q) := by
  unfold k0_pay2
  rw [shapeCast_self, shapeCast_self, shapeCast_self, addf_apply, sk0_matmul_apply]
  refine congrArg (v14 (ix2 p q) + ·) (Finset.sum_congr rfl fun k _ => ?_)
  rw [truncf_apply, mulf_apply, broadcastTo_1b_ab_apply]

/-- The accumulator's reset value is zero everywhere. -/
theorem skv0_zero (j : S512x2048.Idx) : k0_pay1 (F := Ideal) j = 0 := by
  unfold k0_pay1
  rw [shapeCast_self, broadcast_apply]
  exact Ideal.ofBits_zero_f32

theorem hz0 : (![0, 0] : Fin 2 → Nat) = fun _ => 0 := funext fun a => by fin_cases a <;> rfl

/-- Two rank-2 indices with equal coordinates are equal. -/
theorem skv0_ix2_congr {n0 n1 : Nat} {a a' : Fin n0} {b b' : Fin n1} (ha : a.val = a'.val) (hb : b.val = b'.val) :
    ix2 a b = ix2 a' b' := by
  obtain rfl : a = a' := Fin.ext ha
  obtain rfl : b = b' := Fin.ext hb
  rfl

/-- One accumulation at half κ of the contracted axis, read at (p, q): the accumulator there plus the sum over the
    half's 2048 columns of tile(p, k) · sign(0, k) · table(2048·κ + k, q). -/
theorem step0_apply (i : grid0.Coords) (x0 : Vec Ideal S512x2048 .f32) (x1 : Vec Ideal S1x2048 .f32) (x2 : Vec Ideal S4096x2048 .bf16)
    (a : Vec Ideal S512x2048 .f32) (κ : ℕ) (hi : (i 1).val = κ) (hκ : κ < 2) (p : Fin 512) (q : Fin 2048) :
    step0 (F := Ideal) i x0 x1 x2 a (ix2 p q)
      = a (ix2 p q) + ∑ k : Fin 2048, (x0 (ix2 p k) * x1 (ix2 (0 : Fin 1) k)) * x2 (ix2 (⟨2048 * κ + k.val, by omega⟩ : Fin 4096) q) := by
  unfold step0
  rw [skv0_payload, View.ld_unit_zero (S := S512x2048) hz0, View.ld_unit_zero (S := S1x2048) hz0]
  refine congrArg (a (ix2 p q) + ·) (Finset.sum_congr rfl fun k _ => ?_)
  refine congrArg ((x0 (ix2 p k) * x1 (ix2 (0 : Fin 1) k)) * ·) ?_
  show x2 ((rS0 i).idx (ix2 k q)) = _
  refine congrArg x2 (funext fun ax => Fin.ext ?_)
  have e := k0_off1_eq i
  match ax with
  | ⟨0, _⟩ =>
    show k0_off1 i 0 + 1 * k.val = 2048 * κ + k.val
    rw [e, ← hi]; show 2048 * (i 1).val + 1 * k.val = _; omega
  | ⟨1, _⟩ =>
    show k0_off1 i 1 + 1 * q.val = q.val
    rw [e]; show 0 + 1 * q.val = _; omega

/-- The accumulator after an even point: one accumulation from zero. -/
theorem skv0_acc_even (c : Dev nD) (n : ℕ) (hn : n < cfg0.N) (he : n % 2 = 0) :
    acc0 V c n hn = step0 (grid0.coords ⟨n, hn⟩) (iblk0 V c 0 ⟨n, hn⟩) (iblk0 V c 1 ⟨n, hn⟩) (iblk0 V c 2 ⟨n, hn⟩) (k0_pay1 (F := Ideal)) := by
  cases n with
  | zero => rw [acc0]
  | succ m => rw [acc0, if_pos he]

/-- The accumulator after an odd point: one accumulation onto what the point before left. -/
theorem skv0_acc_odd (c : Dev nD) (n : ℕ) (hn : n + 1 < cfg0.N) (ho : (n + 1) % 2 = 1) :
    acc0 V c (n + 1) hn = step0 (grid0.coords ⟨n + 1, hn⟩) (iblk0 V c 0 ⟨n + 1, hn⟩) (iblk0 V c 1 ⟨n + 1, hn⟩) (iblk0 V c 2 ⟨n + 1, hn⟩)
      (acc0 V c n (Nat.lt_of_succ_lt hn)) := by
  rw [acc0, if_neg (by omega)]

/-- The printed index maps over the grid: point t = 2·i + k reads tile (i, k) of the matrix, piece (0, k) of the sign row,
    the whole table, and writes tile (i, 0) of the output; its second grid coordinate is k. -/
theorem idx0_facts : ∀ t : Fin cfg0.N, win0_0.index t (0 : Fin 2) = t.val / 2
    ∧ win0_0.index t (1 : Fin 2) = t.val % 2
    ∧ win0_1.index t (0 : Fin 2) = 0
    ∧ win0_1.index t (1 : Fin 2) = t.val % 2
    ∧ win0_2.index t (0 : Fin 2) = 0
    ∧ win0_2.index t (1 : Fin 2) = 0
    ∧ win0_3.index t (0 : Fin 2) = t.val / 2
    ∧ win0_3.index t (1 : Fin 2) = 0
    ∧ ((grid0.coords t) 1).val = t.val % 2 :=
  (by decide +kernel : ∀ t : Fin grid0.N, _)

/-- The matrix's block at point t = 2·i + k is rows 512·i … and columns 2048·k … of the matrix. -/
theorem iblk0_0_apply (c : Dev nD) (t : Fin cfg0.N) (p : Fin 512) (k : Fin 2048) (n d : Fin 4096)
    (hn : n.val = 512 * (t.val / 2) + p.val) (hd : d.val = 2048 * (t.val % 2) + k.val) :
    (iblk0 V c 0 t : Vec Ideal S512x2048 .f32) (ix2 p k) = (V c (Pipeline.arrRef spec0 0) : S4096x4096.Idx → EReal) (ix2 n d) := by
  obtain ⟨e00, e01, -⟩ := idx0_facts t
  unfold iblk0
  rw [View.read_apply]
  show V c (Pipeline.arrRef spec0 0) (((cfg0.win 0).blk t).view.emb (ix2 p k)) = _
  refine congrArg (V c (Pipeline.arrRef spec0 0)) (funext fun a => Fin.ext ?_)
  match a with
  | ⟨0, _⟩ => show win0_0.index t (0 : Fin 2) * 512 + 1 * p.val = n.val; rw [e00, hn]; omega
  | ⟨1, _⟩ => show win0_0.index t (1 : Fin 2) * 2048 + 1 * k.val = d.val; rw [e01, hd]; omega

/-- The sign row's block at point t = 2·i + k is columns 2048·k … of the row. -/
theorem iblk0_1_apply (c : Dev nD) (t : Fin cfg0.N) (k : Fin 2048) (d : Fin 4096)
    (hd : d.val = 2048 * (t.val % 2) + k.val) :
    (iblk0 V c 1 t : Vec Ideal S1x2048 .f32) (ix2 (0 : Fin 1) k) = (V c (Pipeline.arrRef spec0 1) : S1x4096.Idx → EReal) (ix2 (0 : Fin 1) d) := by
  obtain ⟨-, -, e10, e11, -⟩ := idx0_facts t
  unfold iblk0
  rw [View.read_apply]
  show V c (Pipeline.arrRef spec0 1) (((cfg0.win 1).blk t).view.emb (ix2 (0 : Fin 1) k)) = _
  refine congrArg (V c (Pipeline.arrRef spec0 1)) (funext fun a => Fin.ext ?_)
  match a with
  | ⟨0, _⟩ => show win0_1.index t (0 : Fin 2) * 1 + 1 * 0 = 0; rw [e10]
  | ⟨1, _⟩ => show win0_1.index t (1 : Fin 2) * 2048 + 1 * k.val = d.val; rw [e11, hd]; omega

/-- The table's block at every point is the whole table. -/
theorem iblk0_2_apply (c : Dev nD) (t : Fin cfg0.N) (r : Fin 4096) (q : Fin 2048) :
    (iblk0 V c 2 t : Vec Ideal S4096x2048 .bf16) (ix2 r q) = (V c (Pipeline.arrRef spec0 2) : S4096x2048.Idx → EReal) (ix2 r q) := by
  obtain ⟨-, -, -, -, e20, e21, -⟩ := idx0_facts t
  unfold iblk0
  rw [View.read_apply]
  show V c (Pipeline.arrRef spec0 2) (((cfg0.win 2).blk t).view.emb (ix2 r q)) = _
  refine congrArg (V c (Pipeline.arrRef spec0 2)) (funext fun a => Fin.ext ?_)
  match a with
  | ⟨0, _⟩ => show win0_2.index t (0 : Fin 2) * 4096 + 1 * r.val = r.val; rw [e20]; omega
  | ⟨1, _⟩ => show win0_2.index t (1 : Fin 2) * 2048 + 1 * q.val = q.val; rw [e21]; omega

/-- After the odd point 2·i + 1 the accumulator at (p, q) is the two-halves sketch at row 512·i + p, bucket q. -/
theorem skv0_acc_val (c : Dev nD) (n : ℕ) (hn : n + 1 < cfg0.N) (ho : (n + 1) % 2 = 1) (p : Fin 512) (q : Fin 2048)
    (N : Fin 4096) (hN : N.val = 512 * ((n + 1) / 2) + p.val) :
    acc0 V c (n + 1) hn (ix2 p q)
      = Cert.Spec.sketchBlockedAt (V c (Pipeline.arrRef spec0 0)) (V c (Pipeline.arrRef spec0 1)) (V c (Pipeline.arrRef spec0 2)) N q := by
  have hlt : n < cfg0.N := Nat.lt_of_succ_lt hn
  have he : n % 2 = 0 := by omega
  have ec1 : ((grid0.coords ⟨n + 1, hn⟩) 1).val = 1 := ((idx0_facts ⟨n + 1, hn⟩).2.2.2.2.2.2.2.2).trans ho
  have ec0 : ((grid0.coords ⟨n, hlt⟩) 1).val = 0 := ((idx0_facts ⟨n, hlt⟩).2.2.2.2.2.2.2.2).trans he
  rw [skv0_acc_odd V c n hn ho, skv0_acc_even V c n hlt he]
  refine (step0_apply _ _ _ _ _ 1 ec1 (by omega) p q).trans ?_
  unfold Cert.Spec.sketchBlockedAt
  refine congrArg₂ (· + ·) ((step0_apply _ _ _ _ _ 0 ec0 (by omega) p q).trans ?_) ?_
  · refine congrArg₂ (· + ·) (skv0_zero _) (Finset.sum_congr rfl fun k _ => ?_)
    refine congrArg₂ (· * ·) (congrArg₂ (· * ·)
      (iblk0_0_apply V c ⟨n, hlt⟩ p k N (Cert.Spec.lo k) (by show N.val = 512 * (n / 2) + p.val; omega) (by show k.val = 2048 * (n % 2) + k.val; omega))
      (iblk0_1_apply V c ⟨n, hlt⟩ k (Cert.Spec.lo k) (by show k.val = 2048 * (n % 2) + k.val; omega)))
      ((iblk0_2_apply V c ⟨n, hlt⟩ _ q).trans (congrArg (V c (Pipeline.arrRef spec0 2)) (skv0_ix2_congr (by show 2048 * 0 + k.val = k.val; omega) rfl)))
  · refine Finset.sum_congr rfl fun k _ => ?_
    refine congrArg₂ (· * ·) (congrArg₂ (· * ·)
      (iblk0_0_apply V c ⟨n + 1, hn⟩ p k N (Cert.Spec.hi k) (by show N.val = 512 * ((n + 1) / 2) + p.val; omega) (by show 2048 + k.val = 2048 * ((n + 1) % 2) + k.val; omega))
      (iblk0_1_apply V c ⟨n + 1, hn⟩ k (Cert.Spec.hi k) (by show 2048 + k.val = 2048 * ((n + 1) % 2) + k.val; omega)))
      ((iblk0_2_apply V c ⟨n + 1, hn⟩ _ q).trans (congrArg (V c (Pipeline.arrRef spec0 2)) (skv0_ix2_congr (by show 2048 * 1 + k.val = 2048 + k.val; omega) rfl)))

/-- What an odd point writes back is its block of the two-halves sketch of the three arrays. -/
theorem flushed0_eq (c : Dev nD) (t : Fin cfg0.N) (hf : (cfg0.win 3).flush t = true) :
    (dat0 (F := Ideal) V c).flushed 3 t = ((cfg0.win 3).blk t).view.read (Elt Ideal)
      (Cert.Spec.sketchBlocked (V c (Pipeline.arrRef spec0 0)) (V c (Pipeline.arrRef spec0 1)) (V c (Pipeline.arrRef spec0 2))) := by
  have ho : t.val % 2 = 1 := (flush0_3 t).mp hf
  obtain ⟨-, -, -, -, -, -, e30, e31, -⟩ := idx0_facts t
  show (cfg0.win 3).cut (grid0.coords t) ((dat0 V c).after 3 t) = _
  rw [after0_3]
  funext j
  obtain ⟨p, q, rfl⟩ : ∃ (p : Fin 512) (q : Fin 2048), j = ix2 p q := ⟨j 0, j 1, eq_ix2 (n0 := 512) (n1 := 2048) j⟩
  rw [View.read_apply]
  show k0_pay3 (acc0 V c t.val t.isLt) (ix2 p q)
    = Cert.Spec.sketchBlockedAt (V c (Pipeline.arrRef spec0 0)) (V c (Pipeline.arrRef spec0 1)) (V c (Pipeline.arrRef spec0 2))
        ((((cfg0.win 3).blk t).view.emb (ix2 p q)) 0) ((((cfg0.win 3).blk t).view.emb (ix2 p q)) 1)
  unfold k0_pay3
  rw [truncf_apply]
  have hq : q = (((cfg0.win 3).blk t).view.emb (ix2 p q)) 1 := Fin.ext (by
    show q.val = win0_3.index t (1 : Fin 2) * 2048 + 1 * q.val
    rw [e31]; omega)
  have hp : ((((cfg0.win 3).blk t).view.emb (ix2 p q)) 0).val = 512 * (t.val / 2) + p.val := by
    show win0_3.index t (0 : Fin 2) * 512 + 1 * p.val = _
    rw [e30]; omega
  refine Eq.trans ?_ (congrArg (Cert.Spec.sketchBlockedAt (V c (Pipeline.arrRef spec0 0)) (V c (Pipeline.arrRef spec0 1)) (V c (Pipeline.arrRef spec0 2))
        ((((cfg0.win 3).blk t).view.emb (ix2 p q)) 0)) hq)
  obtain ⟨n, hn⟩ := t
  cases n with
  | zero => exact absurd (show 0 % 2 = 1 from ho) (by decide)
  | succ m => exact skv0_acc_val V c m hn ho p q _ hp

/-- An index of the output array is in point t's block iff each coordinate is in the block's range on its axis. -/
theorem mem_blk0 (t : Fin cfg0.N) (i : S4096x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole (Pipeline.arrRef spec0 3)).slice (win0_3.rect t)).set ↔ _
  rw [View.set_slice_whole, Rect.mem_set_unit]
  exact Iff.rfl

/-- Row r of the output lies in the block written back at the odd point 2·(r / 512) + 1. -/
theorem cover0 (i : S4096x2048.Idx) : ∃ t : Fin cfg0.N, (cfg0.win 3).flush t = true ∧ i ∈ ((cfg0.win 3).blk t).view.set := by
  have h0 : (i 0).val < 4096 := idx2_lt0 i
  have h1 : (i 1).val < 2048 := idx2_lt1 i
  have hN : cfg0.N = 16 := N_0
  obtain ⟨t, ht⟩ : ∃ t : Fin cfg0.N, t.val = 2 * ((i 0).val / 512) + 1 := ⟨⟨2 * ((i 0).val / 512) + 1, by rw [hN]; omega⟩, rfl⟩
  obtain ⟨-, -, -, -, -, -, e30, e31, -⟩ := idx0_facts t
  refine ⟨t, (flush0_3 t).mpr (by omega), ?_⟩
  rw [mem_blk0]
  intro a
  match a with
  | ⟨0, _⟩ =>
    show win0_3.index t (0 : Fin 2) * 512 ≤ (i 0).val ∧ (i 0).val < win0_3.index t (0 : Fin 2) * 512 + 512
    rw [e30, ht]; omega
  | ⟨1, _⟩ =>
    show win0_3.index t (1 : Fin 2) * 2048 ≤ (i 1).val ∧ (i 1).val < win0_3.index t (1 : Fin 2) * 2048 + 2048
    rw [e31]; omega

/-- The output array after the call is the two-halves sketch of the call's three input arrays as it finds them: the matrix
    (window 0), the sign row (window 1), the zero-one table (window 2). -/
theorem sketch_value0 (c : Dev nD) :
    (dat0 (F := Ideal) V c).arrAt 3 cfg0.N
      = Cert.Spec.sketchBlocked (V c (Pipeline.arrRef spec0 0)) (V c (Pipeline.arrRef spec0 1)) (V c (Pipeline.arrRef spec0 2)) :=
  (dat0 (F := Ideal) V c).arrAt_eq_of_cover 3 _ (fun t hf => flushed0_eq V c t hf) fun i => cover0 i

end Cert.KernelIdeal.Hand

end
-- ==== Proof.SketchValue1.lean ====
/-
  What the first sketch call (rows of the first matrix) leaves in its output array, over the extended reals: entry (n, b) is
  zero, plus the sum over the first 2048 columns d of x(n, d) · r(0, d) · S(d, b), plus the same sum over the last 2048
  columns. Row tile i is written back once, after the second half (point 2·i + 1); the 8 tiles cover the array.
-/
import proofs.«418869_j12721693131116_3_alg».proof.Proof.Sketch1
import proofs.«418869_j12721693131116_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The four axis readings of the product's operand indices: the left operand is read at (row of the output, contraction
    position), the right one at (contraction position, column of the output). -/
theorem sk1_lhs_0 (j : S512x2048.Idx) (q : dot_S512x2048_S2048x2048_S512x2048_1_0_0_1_n_n.contr.Idx) :
    (dot_S512x2048_S2048x2048_S512x2048_1_0_0_1_n_n.lhsIdx j q 0).val = (j 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
theorem sk1_lhs_1 (j : S512x2048.Idx) (q : dot_S512x2048_S2048x2048_S512x2048_1_0_0_1_n_n.contr.Idx) :
    (dot_S512x2048_S2048x2048_S512x2048_1_0_0_1_n_n.lhsIdx j q 1).val = (q ⟨0, by decide⟩).val :=
  dot_S512x2048_S2048x2048_S512x2048_1_0_0_1_n_n.lhsIdx_val_of_single rfl j q
theorem sk1_rhs_0 (j : S512x2048.Idx) (q : dot_S512x2048_S2048x2048_S512x2048_1_0_0_1_n_n.contr.Idx) :
    (dot_S512x2048_S2048x2048_S512x2048_1_0_0_1_n_n.rhsIdx j q 0).val = (q ⟨0, by decide⟩).val :=
  dot_S512x2048_S2048x2048_S512x2048_1_0_0_1_n_n.rhsIdx_val_of_single rfl j q
theorem sk1_rhs_1 (j : S512x2048.Idx) (q : dot_S512x2048_S2048x2048_S512x2048_1_0_0_1_n_n.contr.Idx) :
    (dot_S512x2048_S2048x2048_S512x2048_1_0_0_1_n_n.rhsIdx j q 1).val = (j 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- The product into the zero accumulator, read at (p, q): the sum over the 2048 contraction positions of left(p, k) · right(k, q). -/
theorem sk1_matmul_apply (A : FVec Ideal S512x2048 .bf16) (B : FVec Ideal S2048x2048 .bf16) (p : Fin 512) (q : Fin 2048) :
    matmul (F := Ideal) dot_S512x2048_S2048x2048_S512x2048_1_0_0_1_n_n none A B (constant (F := Ideal) S512x2048 .f32 0x00000000#32) (ix2 p q)
      = ∑ k : Fin 2048, A (ix2 p k) * B (ix2 k q) := by
  simp only [matmul]
  rw [Ideal.matmul_constant_zero_apply, ← Equiv.sum_comp (ValueIdx.contrEquiv1 dot_S512x2048_S2048x2048_S512x2048_1_0_0_1_n_n 2048 rfl rfl).symm]
  refine Finset.sum_congr rfl fun k _ => ?_
  have hk := ValueIdx.contrEquiv1_symm_val dot_S512x2048_S2048x2048_S512x2048_1_0_0_1_n_n 2048 rfl rfl k
  have el : dot_S512x2048_S2048x2048_S512x2048_1_0_0_1_n_n.lhsIdx (ix2 p q) ((ValueIdx.contrEquiv1 dot_S512x2048_S2048x2048_S512x2048_1_0_0_1_n_n 2048 rfl rfl).symm k) = ix2 p k := funext fun a => Fin.ext (by
    match a with
    | ⟨0, _⟩ => exact sk1_lhs_0 _ _
    | ⟨1, _⟩ => exact (sk1_lhs_1 _ _).trans hk)
  have er : dot_S512x2048_S2048x2048_S512x2048_1_0_0_1_n_n.rhsIdx (ix2 p q) ((ValueIdx.contrEquiv1 dot_S512x2048_S2048x2048_S512x2048_1_0_0_1_n_n 2048 rfl rfl).symm k) = ix2 k q := funext fun a => Fin.ext (by
    match a with
    | ⟨0, _⟩ => exact (sk1_rhs_0 _ _).trans hk
    | ⟨1, _⟩ => exact sk1_rhs_1 _ _)
  rw [el, er]

/-- One accumulation read at (p, q): the accumulator there plus the sum over the point's 2048 columns of
    tile(p, k) · sign(0, k) · table(k, q). -/
theorem skv1_payload (v3 : Vec Ideal S512x2048 .f32) (v4 : Vec Ideal S1x2048 .f32) (v12 : Vec Ideal S2048x2048 .bf16)
    (v14 : Vec Ideal S512x2048 .f32) (p : Fin 512) (q : Fin 2048) :
    k1_pay2 (F := Ideal) v3 v4 v12 v14 (ix2 p q)
      = v14 (ix2 p q) + ∑ k : Fin 2048, (v3 (ix2 p k) * v4 (ix2 (0 : Fin 1) k)) * v12 (ix2 k q) := by
  unfold k1_pay2
  rw [shapeCast_self, shapeCast_self, shapeCast_self, addf_apply, sk1_matmul_apply]
  refine congrArg (v14 (ix2 p q) + ·) (Finset.sum_congr rfl fun k _ => ?_)
  rw [truncf_apply, mulf_apply, broadcastTo_1b_ab_apply]

/-- The accumulator's reset value is zero everywhere. -/
theorem skv1_zero (j : S512x2048.Idx) : k1_pay1 (F := Ideal) j = 0 := by
  unfold k1_pay1
  rw [shapeCast_self, broadcast_apply]
  exact Ideal.ofBits_zero_f32

theorem hz1 : (![0, 0] : Fin 2 → Nat) = fun _ => 0 := funext fun a => by fin_cases a <;> rfl

/-- Two rank-2 indices with equal coordinates are equal. -/
theorem skv1_ix2_congr {n0 n1 : Nat} {a a' : Fin n0} {b b' : Fin n1} (ha : a.val = a'.val) (hb : b.val = b'.val) :
    ix2 a b = ix2 a' b' := by
  obtain rfl : a = a' := Fin.ext ha
  obtain rfl : b = b' := Fin.ext hb
  rfl

/-- One accumulation at half κ of the contracted axis, read at (p, q): the accumulator there plus the sum over the
    half's 2048 columns of tile(p, k) · sign(0, k) · table(2048·κ + k, q). -/
theorem step1_apply (i : grid1.Coords) (x0 : Vec Ideal S512x2048 .f32) (x1 : Vec Ideal S1x2048 .f32) (x2 : Vec Ideal S4096x2048 .bf16)
    (a : Vec Ideal S512x2048 .f32) (κ : ℕ) (hi : (i 1).val = κ) (hκ : κ < 2) (p : Fin 512) (q : Fin 2048) :
    step1 (F := Ideal) i x0 x1 x2 a (ix2 p q)
      = a (ix2 p q) + ∑ k : Fin 2048, (x0 (ix2 p k) * x1 (ix2 (0 : Fin 1) k)) * x2 (ix2 (⟨2048 * κ + k.val, by omega⟩ : Fin 4096) q) := by
  unfold step1
  rw [skv1_payload, View.ld_unit_zero (S := S512x2048) hz1, View.ld_unit_zero (S := S1x2048) hz1]
  refine congrArg (a (ix2 p q) + ·) (Finset.sum_congr rfl fun k _ => ?_)
  refine congrArg ((x0 (ix2 p k) * x1 (ix2 (0 : Fin 1) k)) * ·) ?_
  show x2 ((rS1 i).idx (ix2 k q)) = _
  refine congrArg x2 (funext fun ax => Fin.ext ?_)
  have e := k1_off1_eq i
  match ax with
  | ⟨0, _⟩ =>
    show k1_off1 i 0 + 1 * k.val = 2048 * κ + k.val
    rw [e, ← hi]; show 2048 * (i 1).val + 1 * k.val = _; omega
  | ⟨1, _⟩ =>
    show k1_off1 i 1 + 1 * q.val = q.val
    rw [e]; show 0 + 1 * q.val = _; omega

/-- The accumulator after an even point: one accumulation from zero. -/
theorem skv1_acc_even (c : Dev nD) (n : ℕ) (hn : n < cfg1.N) (he : n % 2 = 0) :
    acc1 V c n hn = step1 (grid1.coords ⟨n, hn⟩) (iblk1 V c 0 ⟨n, hn⟩) (iblk1 V c 1 ⟨n, hn⟩) (iblk1 V c 2 ⟨n, hn⟩) (k1_pay1 (F := Ideal)) := by
  cases n with
  | zero => rw [acc1]
  | succ m => rw [acc1, if_pos he]

/-- The accumulator after an odd point: one accumulation onto what the point before left. -/
theorem skv1_acc_odd (c : Dev nD) (n : ℕ) (hn : n + 1 < cfg1.N) (ho : (n + 1) % 2 = 1) :
    acc1 V c (n + 1) hn = step1 (grid1.coords ⟨n + 1, hn⟩) (iblk1 V c 0 ⟨n + 1, hn⟩) (iblk1 V c 1 ⟨n + 1, hn⟩) (iblk1 V c 2 ⟨n + 1, hn⟩)
      (acc1 V c n (Nat.lt_of_succ_lt hn)) := by
  rw [acc1, if_neg (by omega)]

/-- The printed index maps over the grid: point t = 2·i + k reads tile (i, k) of the matrix, piece (0, k) of the sign row,
    the whole table, and writes tile (i, 0) of the output; its second grid coordinate is k. -/
theorem idx1_facts : ∀ t : Fin cfg1.N, win1_0.index t (0 : Fin 2) = t.val / 2
    ∧ win1_0.index t (1 : Fin 2) = t.val % 2
    ∧ win1_1.index t (0 : Fin 2) = 0
    ∧ win1_1.index t (1 : Fin 2) = t.val % 2
    ∧ win1_2.index t (0 : Fin 2) = 0
    ∧ win1_2.index t (1 : Fin 2) = 0
    ∧ win1_3.index t (0 : Fin 2) = t.val / 2
    ∧ win1_3.index t (1 : Fin 2) = 0
    ∧ ((grid1.coords t) 1).val = t.val % 2 :=
  (by decide +kernel : ∀ t : Fin grid1.N, _)

/-- The matrix's block at point t = 2·i + k is rows 512·i … and columns 2048·k … of the matrix. -/
theorem iblk1_0_apply (c : Dev nD) (t : Fin cfg1.N) (p : Fin 512) (k : Fin 2048) (n d : Fin 4096)
    (hn : n.val = 512 * (t.val / 2) + p.val) (hd : d.val = 2048 * (t.val % 2) + k.val) :
    (iblk1 V c 0 t : Vec Ideal S512x2048 .f32) (ix2 p k) = (V c (Pipeline.arrRef spec1 0) : S4096x4096.Idx → EReal) (ix2 n d) := by
  obtain ⟨e00, e01, -⟩ := idx1_facts t
  unfold iblk1
  rw [View.read_apply]
  show V c (Pipeline.arrRef spec1 0) (((cfg1.win 0).blk t).view.emb (ix2 p k)) = _
  refine congrArg (V c (Pipeline.arrRef spec1 0)) (funext fun a => Fin.ext ?_)
  match a with
  | ⟨0, _⟩ => show win1_0.index t (0 : Fin 2) * 512 + 1 * p.val = n.val; rw [e00, hn]; omega
  | ⟨1, _⟩ => show win1_0.index t (1 : Fin 2) * 2048 + 1 * k.val = d.val; rw [e01, hd]; omega

/-- The sign row's block at point t = 2·i + k is columns 2048·k … of the row. -/
theorem iblk1_1_apply (c : Dev nD) (t : Fin cfg1.N) (k : Fin 2048) (d : Fin 4096)
    (hd : d.val = 2048 * (t.val % 2) + k.val) :
    (iblk1 V c 1 t : Vec Ideal S1x2048 .f32) (ix2 (0 : Fin 1) k) = (V c (Pipeline.arrRef spec1 1) : S1x4096.Idx → EReal) (ix2 (0 : Fin 1) d) := by
  obtain ⟨-, -, e10, e11, -⟩ := idx1_facts t
  unfold iblk1
  rw [View.read_apply]
  show V c (Pipeline.arrRef spec1 1) (((cfg1.win 1).blk t).view.emb (ix2 (0 : Fin 1) k)) = _
  refine congrArg (V c (Pipeline.arrRef spec1 1)) (funext fun a => Fin.ext ?_)
  match a with
  | ⟨0, _⟩ => show win1_1.index t (0 : Fin 2) * 1 + 1 * 0 = 0; rw [e10]
  | ⟨1, _⟩ => show win1_1.index t (1 : Fin 2) * 2048 + 1 * k.val = d.val; rw [e11, hd]; omega

/-- The table's block at every point is the whole table. -/
theorem iblk1_2_apply (c : Dev nD) (t : Fin cfg1.N) (r : Fin 4096) (q : Fin 2048) :
    (iblk1 V c 2 t : Vec Ideal S4096x2048 .bf16) (ix2 r q) = (V c (Pipeline.arrRef spec1 2) : S4096x2048.Idx → EReal) (ix2 r q) := by
  obtain ⟨-, -, -, -, e20, e21, -⟩ := idx1_facts t
  unfold iblk1
  rw [View.read_apply]
  show V c (Pipeline.arrRef spec1 2) (((cfg1.win 2).blk t).view.emb (ix2 r q)) = _
  refine congrArg (V c (Pipeline.arrRef spec1 2)) (funext fun a => Fin.ext ?_)
  match a with
  | ⟨0, _⟩ => show win1_2.index t (0 : Fin 2) * 4096 + 1 * r.val = r.val; rw [e20]; omega
  | ⟨1, _⟩ => show win1_2.index t (1 : Fin 2) * 2048 + 1 * q.val = q.val; rw [e21]; omega

/-- After the odd point 2·i + 1 the accumulator at (p, q) is the two-halves sketch at row 512·i + p, bucket q. -/
theorem skv1_acc_val (c : Dev nD) (n : ℕ) (hn : n + 1 < cfg1.N) (ho : (n + 1) % 2 = 1) (p : Fin 512) (q : Fin 2048)
    (N : Fin 4096) (hN : N.val = 512 * ((n + 1) / 2) + p.val) :
    acc1 V c (n + 1) hn (ix2 p q)
      = Cert.Spec.sketchBlockedAt (V c (Pipeline.arrRef spec1 0)) (V c (Pipeline.arrRef spec1 1)) (V c (Pipeline.arrRef spec1 2)) N q := by
  have hlt : n < cfg1.N := Nat.lt_of_succ_lt hn
  have he : n % 2 = 0 := by omega
  have ec1 : ((grid1.coords ⟨n + 1, hn⟩) 1).val = 1 := ((idx1_facts ⟨n + 1, hn⟩).2.2.2.2.2.2.2.2).trans ho
  have ec0 : ((grid1.coords ⟨n, hlt⟩) 1).val = 0 := ((idx1_facts ⟨n, hlt⟩).2.2.2.2.2.2.2.2).trans he
  rw [skv1_acc_odd V c n hn ho, skv1_acc_even V c n hlt he]
  refine (step1_apply _ _ _ _ _ 1 ec1 (by omega) p q).trans ?_
  unfold Cert.Spec.sketchBlockedAt
  refine congrArg₂ (· + ·) ((step1_apply _ _ _ _ _ 0 ec0 (by omega) p q).trans ?_) ?_
  · refine congrArg₂ (· + ·) (skv1_zero _) (Finset.sum_congr rfl fun k _ => ?_)
    refine congrArg₂ (· * ·) (congrArg₂ (· * ·)
      (iblk1_0_apply V c ⟨n, hlt⟩ p k N (Cert.Spec.lo k) (by show N.val = 512 * (n / 2) + p.val; omega) (by show k.val = 2048 * (n % 2) + k.val; omega))
      (iblk1_1_apply V c ⟨n, hlt⟩ k (Cert.Spec.lo k) (by show k.val = 2048 * (n % 2) + k.val; omega)))
      ((iblk1_2_apply V c ⟨n, hlt⟩ _ q).trans (congrArg (V c (Pipeline.arrRef spec1 2)) (skv1_ix2_congr (by show 2048 * 0 + k.val = k.val; omega) rfl)))
  · refine Finset.sum_congr rfl fun k _ => ?_
    refine congrArg₂ (· * ·) (congrArg₂ (· * ·)
      (iblk1_0_apply V c ⟨n + 1, hn⟩ p k N (Cert.Spec.hi k) (by show N.val = 512 * ((n + 1) / 2) + p.val; omega) (by show 2048 + k.val = 2048 * ((n + 1) % 2) + k.val; omega))
      (iblk1_1_apply V c ⟨n + 1, hn⟩ k (Cert.Spec.hi k) (by show 2048 + k.val = 2048 * ((n + 1) % 2) + k.val; omega)))
      ((iblk1_2_apply V c ⟨n + 1, hn⟩ _ q).trans (congrArg (V c (Pipeline.arrRef spec1 2)) (skv1_ix2_congr (by show 2048 * 1 + k.val = 2048 + k.val; omega) rfl)))

/-- What an odd point writes back is its block of the two-halves sketch of the three arrays. -/
theorem flushed1_eq (c : Dev nD) (t : Fin cfg1.N) (hf : (cfg1.win 3).flush t = true) :
    (dat1 (F := Ideal) V c).flushed 3 t = ((cfg1.win 3).blk t).view.read (Elt Ideal)
      (Cert.Spec.sketchBlocked (V c (Pipeline.arrRef spec1 0)) (V c (Pipeline.arrRef spec1 1)) (V c (Pipeline.arrRef spec1 2))) := by
  have ho : t.val % 2 = 1 := (flush1_3 t).mp hf
  obtain ⟨-, -, -, -, -, -, e30, e31, -⟩ := idx1_facts t
  show (cfg1.win 3).cut (grid1.coords t) ((dat1 V c).after 3 t) = _
  rw [after1_3]
  funext j
  obtain ⟨p, q, rfl⟩ : ∃ (p : Fin 512) (q : Fin 2048), j = ix2 p q := ⟨j 0, j 1, eq_ix2 (n0 := 512) (n1 := 2048) j⟩
  rw [View.read_apply]
  show k1_pay3 (acc1 V c t.val t.isLt) (ix2 p q)
    = Cert.Spec.sketchBlockedAt (V c (Pipeline.arrRef spec1 0)) (V c (Pipeline.arrRef spec1 1)) (V c (Pipeline.arrRef spec1 2))
        ((((cfg1.win 3).blk t).view.emb (ix2 p q)) 0) ((((cfg1.win 3).blk t).view.emb (ix2 p q)) 1)
  unfold k1_pay3
  rw [truncf_apply]
  have hq : q = (((cfg1.win 3).blk t).view.emb (ix2 p q)) 1 := Fin.ext (by
    show q.val = win1_3.index t (1 : Fin 2) * 2048 + 1 * q.val
    rw [e31]; omega)
  have hp : ((((cfg1.win 3).blk t).view.emb (ix2 p q)) 0).val = 512 * (t.val / 2) + p.val := by
    show win1_3.index t (0 : Fin 2) * 512 + 1 * p.val = _
    rw [e30]; omega
  refine Eq.trans ?_ (congrArg (Cert.Spec.sketchBlockedAt (V c (Pipeline.arrRef spec1 0)) (V c (Pipeline.arrRef spec1 1)) (V c (Pipeline.arrRef spec1 2))
        ((((cfg1.win 3).blk t).view.emb (ix2 p q)) 0)) hq)
  obtain ⟨n, hn⟩ := t
  cases n with
  | zero => exact absurd (show 0 % 2 = 1 from ho) (by decide)
  | succ m => exact skv1_acc_val V c m hn ho p q _ hp

/-- An index of the output array is in point t's block iff each coordinate is in the block's range on its axis. -/
theorem mem_blk1 (t : Fin cfg1.N) (i : S4096x2048.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole (Pipeline.arrRef spec1 3)).slice (win1_3.rect t)).set ↔ _
  rw [View.set_slice_whole, Rect.mem_set_unit]
  exact Iff.rfl

/-- Row r of the output lies in the block written back at the odd point 2·(r / 512) + 1. -/
theorem cover1 (i : S4096x2048.Idx) : ∃ t : Fin cfg1.N, (cfg1.win 3).flush t = true ∧ i ∈ ((cfg1.win 3).blk t).view.set := by
  have h0 : (i 0).val < 4096 := idx2_lt0 i
  have h1 : (i 1).val < 2048 := idx2_lt1 i
  have hN : cfg1.N = 16 := N_1
  obtain ⟨t, ht⟩ : ∃ t : Fin cfg1.N, t.val = 2 * ((i 0).val / 512) + 1 := ⟨⟨2 * ((i 0).val / 512) + 1, by rw [hN]; omega⟩, rfl⟩
  obtain ⟨-, -, -, -, -, -, e30, e31, -⟩ := idx1_facts t
  refine ⟨t, (flush1_3 t).mpr (by omega), ?_⟩
  rw [mem_blk1]
  intro a
  match a with
  | ⟨0, _⟩ =>
    show win1_3.index t (0 : Fin 2) * 512 ≤ (i 0).val ∧ (i 0).val < win1_3.index t (0 : Fin 2) * 512 + 512
    rw [e30, ht]; omega
  | ⟨1, _⟩ =>
    show win1_3.index t (1 : Fin 2) * 2048 ≤ (i 1).val ∧ (i 1).val < win1_3.index t (1 : Fin 2) * 2048 + 2048
    rw [e31]; omega

/-- The output array after the call is the two-halves sketch of the call's three input arrays as it finds them: the matrix
    (window 0), the sign row (window 1), the zero-one table (window 2). -/
theorem sketch_value1 (c : Dev nD) :
    (dat1 (F := Ideal) V c).arrAt 3 cfg1.N
      = Cert.Spec.sketchBlocked (V c (Pipeline.arrRef spec1 0)) (V c (Pipeline.arrRef spec1 1)) (V c (Pipeline.arrRef spec1 2)) :=
  (dat1 (F := Ideal) V c).arrAt_eq_of_cover 3 _ (fun t hf => flushed1_eq V c t hf) fun i => cover1 i

end Cert.KernelIdeal.Hand

end
-- ==== Proof.FinalValue.lean ====
/-
  What the final call leaves in the result array, over the extended reals: entry (n, o) is the sum over the 2048 buckets of
  the first sketch's (n, b) times the second sketch's (o, b), plus the bias row's entry o. Tile (i, j) holds rows
  512·i … 512·i + 511 and columns 2048·j … 2048·j + 2047; the 16 tiles cover the array.
-/
import proofs.«418869_j12721693131116_3_alg».proof.Proof.Final2
import proofs.«418869_j12721693131116_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-! ## The tile's value at an index -/

/-- Where the product's operands are read, axis by axis: the left operand at (row of the result, bucket), the right
    one at (column of the result, bucket) — both contract their second axis. -/
theorem prod_lhs_0 (j : S512x2048.Idx) (q : dot_S512x2048_S2048x2048_S512x2048_1_1_0_0_n_n.contr.Idx) :
    (dot_S512x2048_S2048x2048_S512x2048_1_1_0_0_n_n.lhsIdx j q 0).val = (j 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem prod_lhs_1 (j : S512x2048.Idx) (q : dot_S512x2048_S2048x2048_S512x2048_1_1_0_0_n_n.contr.Idx) :
    (dot_S512x2048_S2048x2048_S512x2048_1_1_0_0_n_n.lhsIdx j q 1).val = (q ⟨0, by decide⟩).val :=
  dot_S512x2048_S2048x2048_S512x2048_1_1_0_0_n_n.lhsIdx_val_of_single rfl j q
theorem prod_rhs_0 (j : S512x2048.Idx) (q : dot_S512x2048_S2048x2048_S512x2048_1_1_0_0_n_n.contr.Idx) :
    (dot_S512x2048_S2048x2048_S512x2048_1_1_0_0_n_n.rhsIdx j q 0).val = (j 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem prod_rhs_1 (j : S512x2048.Idx) (q : dot_S512x2048_S2048x2048_S512x2048_1_1_0_0_n_n.contr.Idx) :
    (dot_S512x2048_S2048x2048_S512x2048_1_1_0_0_n_n.rhsIdx j q 1).val = (q ⟨0, by decide⟩).val :=
  dot_S512x2048_S2048x2048_S512x2048_1_1_0_0_n_n.rhsIdx_val_of_single rfl j q

/-- The product into a zero accumulator, read at (p, q): the sum over the buckets of left (p, k) times right (q, k). -/
theorem prod_at (a : FVec Ideal S512x2048 .bf16) (b : FVec Ideal S2048x2048 .bf16) (p : Fin 512) (q : Fin 2048) :
    matmul (F := Ideal) dot_S512x2048_S2048x2048_S512x2048_1_1_0_0_n_n none a b (constant (F := Ideal) S512x2048 .f32 0x00000000#32) (ix2 p q)
      = ∑ k : Fin 2048, a (ix2 p k) * b (ix2 q k) := by
  simp only [matmul]
  rw [Ideal.matmul_constant_zero_apply, ← Equiv.sum_comp (ValueIdx.contrEquiv1 dot_S512x2048_S2048x2048_S512x2048_1_1_0_0_n_n 2048 rfl rfl).symm]
  refine Finset.sum_congr rfl fun k _ => ?_
  have hk := ValueIdx.contrEquiv1_symm_val dot_S512x2048_S2048x2048_S512x2048_1_1_0_0_n_n 2048 rfl rfl k
  have el : dot_S512x2048_S2048x2048_S512x2048_1_1_0_0_n_n.lhsIdx (ix2 p q) ((ValueIdx.contrEquiv1 dot_S512x2048_S2048x2048_S512x2048_1_1_0_0_n_n 2048 rfl rfl).symm k) = ix2 p k := funext fun ax => Fin.ext (by
    match ax with
    | ⟨0, _⟩ => exact prod_lhs_0 _ _
    | ⟨1, _⟩ => exact (prod_lhs_1 _ _).trans hk)
  have er : dot_S512x2048_S2048x2048_S512x2048_1_1_0_0_n_n.rhsIdx (ix2 p q) ((ValueIdx.contrEquiv1 dot_S512x2048_S2048x2048_S512x2048_1_1_0_0_n_n 2048 rfl rfl).symm k) = ix2 q k := funext fun ax => Fin.ext (by
    match ax with
    | ⟨0, _⟩ => exact prod_rhs_0 _ _
    | ⟨1, _⟩ => exact (prod_rhs_1 _ _).trans hk)
  rw [el, er]

/-- The kernel's tile at (p, q), from the three values it loads: the product of the tile's rows with the point's rows
    of the second sketch, plus the bias row's entry q. -/
theorem pay_at (v3 : Vec Ideal S2048x2048 .bf16) (v5 : Vec Ideal S512x2048 .bf16) (v8 : Vec Ideal S1x2048 .f32) (p : Fin 512) (q : Fin 2048) :
    k2_pay1 (F := Ideal) v3 v5 v8 (ix2 p q) = (∑ k : Fin 2048, v5 (ix2 p k) * v3 (ix2 q k)) + v8 (ix2 (0 : Fin 1) q) := by
  unfold k2_pay1
  simp only [shapeCast_self]
  rw [addf_apply]
  refine congrArg₂ (· + ·) (prod_at v5 v3 p q) ?_
  exact broadcastTo_1b_ab_apply v8 broadcasts_S1x2048_S512x2048 p q

/-! ## Where the windows sit -/

/-- At a point whose result tile is block (i, j): the first sketch's tile is row block i, the second sketch is whole, the
    bias row's half is column block j, and the rows of the second sketch the point multiplies by start at 2048·j. -/
theorem where_at : ∀ t : Fin cfg2.N,
      win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = win2_3.index t (1 : Fin 2)
    ∧ k2_off1 (grid2.coords t) (0 : Fin 2) = win2_3.index t (1 : Fin 2) * 2048 ∧ k2_off1 (grid2.coords t) (1 : Fin 2) = 0
    ∧ win2_3.index t (0 : Fin 2) ≤ 7 ∧ win2_3.index t (1 : Fin 2) ≤ 1 :=
  (by decide +kernel : ∀ t : Fin grid2.N, _)

/-- Every tile of the result is some point's. -/
theorem tile_onto : ∀ (i : Fin 8) (j : Fin 2), ∃ t : Fin cfg2.N, win2_3.index t = ![i.val, j.val] :=
  (by decide +kernel : ∀ (i : Fin 8) (j : Fin 2), ∃ t : Fin grid2.N, win2_3.index t = ![i.val, j.val])

/-! ## The three inputs at an index, as entries of their arrays -/

/-- Row p of the first sketch's tile at a point is row 512·i + p of the sketch. -/
theorem first_at (c : Dev nD) (t : Fin cfg2.N) (p : Fin 512) (k : Fin 2048) (n : Fin 4096)
    (hn : n.val = win2_3.index t (0 : Fin 2) * 512 + p.val) :
    View.ld (iblk2 V c 0 t : Vec Ideal S512x2048 .bf16) rT2 (ix2 p k)
      = (V c main_v2 : S4096x2048.Idx → Elt Ideal .bf16) (ix2 n k) := by
  rw [View.ld_unit_zero (S := S512x2048) origin2]
  obtain ⟨e0, e1, -⟩ := where_at t
  show (V c main_v2 : S4096x2048.Idx → Elt Ideal .bf16) (((cfg2.win 0).blk t).view.emb (ix2 p k)) = _
  refine congrArg (V c main_v2 : S4096x2048.Idx → Elt Ideal .bf16) (funext fun a => Fin.ext ?_)
  match a with
  | ⟨0, _⟩ => show win2_0.index t (0 : Fin 2) * 512 + 1 * p.val = n.val; omega
  | ⟨1, _⟩ => show win2_0.index t (1 : Fin 2) * 2048 + 1 * k.val = k.val; omega

/-- Row q of the 2048 rows of the second sketch the point multiplies by is row 2048·j + q of the sketch. -/
theorem second_at (c : Dev nD) (t : Fin cfg2.N) (q k : Fin 2048) (o : Fin 4096)
    (ho : o.val = win2_3.index t (1 : Fin 2) * 2048 + q.val) :
    View.ld (iblk2 V c 1 t : Vec Ideal S4096x2048 .bf16) (rS2 (grid2.coords t)) (ix2 q k)
      = (V c main_v3 : S4096x2048.Idx → Elt Ideal .bf16) (ix2 o k) := by
  obtain ⟨-, -, e2, e3, -, -, e6, e7, -⟩ := where_at t
  show (V c main_v3 : S4096x2048.Idx → Elt Ideal .bf16) (((cfg2.win 1).blk t).view.emb ((rS2 (grid2.coords t)).idx (ix2 q k))) = _
  refine congrArg (V c main_v3 : S4096x2048.Idx → Elt Ideal .bf16) (funext fun a => Fin.ext ?_)
  match a with
  | ⟨0, _⟩ => show win2_1.index t (0 : Fin 2) * 4096 + 1 * (k2_off1 (grid2.coords t) (0 : Fin 2) + 1 * q.val) = o.val; omega
  | ⟨1, _⟩ => show win2_1.index t (1 : Fin 2) * 2048 + 1 * (k2_off1 (grid2.coords t) (1 : Fin 2) + 1 * k.val) = k.val; omega

/-- Entry q of the bias row's half at a point is entry 2048·j + q of the row. -/
theorem bias_at (c : Dev nD) (t : Fin cfg2.N) (q : Fin 2048) (o : Fin 4096)
    (ho : o.val = win2_3.index t (1 : Fin 2) * 2048 + q.val) :
    View.ld (iblk2 V c 2 t : Vec Ideal S1x2048 .f32) rR2 (ix2 (0 : Fin 1) q)
      = (V c main_v4 : S1x4096.Idx → Elt Ideal .f32) (ix2 (0 : Fin 1) o) := by
  rw [View.ld_unit_zero (S := S1x2048) origin2]
  obtain ⟨-, -, -, -, e4, e5, -⟩ := where_at t
  show (V c main_v4 : S1x4096.Idx → Elt Ideal .f32) (((cfg2.win 2).blk t).view.emb (ix2 (0 : Fin 1) q)) = _
  refine congrArg (V c main_v4 : S1x4096.Idx → Elt Ideal .f32) (funext fun a => Fin.ext ?_)
  match a with
  | ⟨0, _⟩ => show win2_2.index t (0 : Fin 2) * 1 + 1 * 0 = 0; omega
  | ⟨1, _⟩ => show win2_2.index t (1 : Fin 2) * 2048 + 1 * q.val = o.val; omega

/-! ## What a point writes back -/

/-- The tile a point writes back is the tile of `finalK` of the three arrays at the point's block. -/
theorem flushed_tile (c : Dev nD) (t : Fin cfg2.N) :
    (dat2 (F := Ideal) V c).flushed 3 t
      = ((cfg2.win 3).blk t).view.read (Elt Ideal) (Cert.Spec.finalK (V c main_v2) (V c main_v3) (V c main_v4)) := by
  show (cfg2.win 3).cut (grid2.coords t) ((dat2 V c).after 3 t) = _
  rw [after2_3]
  refine funext fun (j : S512x2048.Idx) => ?_
  obtain ⟨p, q, rfl⟩ : ∃ (p : Fin 512) (q : Fin 2048), j = ix2 p q := ⟨j 0, j 1, eq_ix2 j⟩
  obtain ⟨-, -, -, -, -, -, -, -, b0, b1⟩ := where_at t
  have hn : win2_3.index t (0 : Fin 2) * 512 + p.val < 4096 := by have := p.isLt; omega
  have ho : win2_3.index t (1 : Fin 2) * 2048 + q.val < 4096 := by have := q.isLt; omega
  have hi : ((cfg2.win 3).blk t).view.emb (ix2 p q)
      = (ix2 (⟨win2_3.index t (0 : Fin 2) * 512 + p.val, hn⟩ : Fin 4096) (⟨win2_3.index t (1 : Fin 2) * 2048 + q.val, ho⟩ : Fin 4096) : S4096x4096.Idx) :=
    funext fun a => Fin.ext (by
      match a with
      | ⟨0, _⟩ => show win2_3.index t (0 : Fin 2) * 512 + 1 * p.val = win2_3.index t (0 : Fin 2) * 512 + p.val; omega
      | ⟨1, _⟩ => show win2_3.index t (1 : Fin 2) * 2048 + 1 * q.val = win2_3.index t (1 : Fin 2) * 2048 + q.val; omega)
  show out2 (F := Ideal) (grid2.coords t) (iblk2 V c 0 t) (iblk2 V c 1 t) (iblk2 V c 2 t) (ix2 p q)
      = Cert.Spec.finalK (V c main_v2) (V c main_v3) (V c main_v4) (((cfg2.win 3).blk t).view.emb (ix2 p q))
  rw [hi]
  unfold out2
  refine (pay_at _ _ _ p q).trans ?_
  show _ = Cert.Spec.finalAt (V c main_v2) (V c main_v3) (V c main_v4)
    (⟨win2_3.index t (0 : Fin 2) * 512 + p.val, hn⟩ : Fin 4096) (⟨win2_3.index t (1 : Fin 2) * 2048 + q.val, ho⟩ : Fin 4096)
  unfold Cert.Spec.finalAt
  exact congrArg₂ (· + ·)
    (Finset.sum_congr rfl fun k _ => congrArg₂ (· * ·) (first_at V c t p k _ rfl) (second_at V c t q k _ rfl))
    (bias_at V c t q _ rfl)

/-! ## The sixteen tiles cover the array -/

/-- An entry of the result is in a point's tile when each coordinate is in the tile's range. -/
theorem mem_tile (t : Fin cfg2.N) (i : S4096x4096.Idx) :
    i ∈ ((cfg2.win 3).blk t).view.set
      ↔ ∀ a : Fin 2, win2_3.index t a * S512x2048.size a ≤ (i a).val ∧ (i a).val < win2_3.index t a * S512x2048.size a + S512x2048.size a := by
  show i ∈ ((View.whole main_v5).slice (win2_3.rect t)).set ↔ _
  rw [View.set_slice_whole, Rect.mem_set_unit]
  exact Iff.rfl

/-- Entry (n, o) is in the tile of the point at block (n / 512, o / 2048), which writes it back. -/
theorem tiles_cover (i : S4096x4096.Idx) :
    ∃ t : Fin cfg2.N, (cfg2.win 3).flush t = true ∧ i ∈ ((cfg2.win 3).blk t).view.set := by
  have h0 : (i 0).val < 4096 := (i 0).isLt
  have h1 : (i 1).val < 4096 := (i 1).isLt
  obtain ⟨t, ht⟩ := tile_onto ⟨(i 0).val / 512, by omega⟩ ⟨(i 1).val / 2048, by omega⟩
  have q0 : win2_3.index t (0 : Fin 2) = (i 0).val / 512 := congrFun ht 0
  have q1 : win2_3.index t (1 : Fin 2) = (i 1).val / 2048 := congrFun ht 1
  refine ⟨t, flush2_3 t, ?_⟩
  rw [mem_tile]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 2048 ≤ (i 1).val ∧ (i 1).val < win2_3.index t (1 : Fin 2) * 2048 + 2048; omega

/-- The result array after the final call is `finalK` of the two sketches and the bias row as the call finds them. -/
theorem final_value2 (c : Dev nD) :
    (dat2 (F := Ideal) V c).arrAt 3 cfg2.N = Cert.Spec.finalK (V c main_v2) (V c main_v3) (V c main_v4) :=
  (dat2 (F := Ideal) V c).arrAt_eq_of_cover 3 _ (fun t _ => flushed_tile V c t) tiles_cover

end Cert.KernelIdeal.Hand

end
-- ==== Proof.HostValue.lean ====
/-
  What the host operations around the three calls compute, over the extended reals: the zero-one table of the hash indices
  (1 at (d, b) exactly when the index of column d is b), the sign vector as a row, the bias vector as a row.
-/
import proofs.«418869_j12721693131116_3_alg».proof.Proof.Gen.KernelIdeal.Launch
import proofs.«418869_j12721693131116_3_alg».proof.Proof.Gen.KernelIdeal.Regions
import proofs.«418869_j12721693131116_3_alg».proof.Proof.Spec
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.SL.Sem Idealize.ShloMosaic.ValueIdx

variable (W : Valuation τ sig (Elt Ideal))

/-- The index of a rectangle with row p and column q is the pair (p, q). -/
theorem ix2_eq_ij {n m : Nat} (p : Fin n) (q : Fin m) : ix2 p q = StableHlo.Predicate.ij p q := by
  funext a; match a with | ⟨0, _⟩ => rfl | ⟨1, _⟩ => rfl

/-- The index of a vector at position p has the one coordinate p. -/
theorem ofFin_eq_ix1 {n : Nat} (p : Fin n) : Shape.Idx.ofFin p = ix1 p := by
  funext a; match a with | ⟨0, _⟩ => rfl

/-- A bit turned into an extended real: 1 for the set bit, 0 for the cleared one. -/
theorem uitofp_one (φ : FTy) : (FloatOps.uitofp (F := Ideal) φ (1#1) : EReal) = 1 := by
  show (((1#1 : BitVec 1).toNat : ℝ) : EReal) = 1
  simp
theorem uitofp_zero (φ : FTy) : (FloatOps.uitofp (F := Ideal) φ (0#1) : EReal) = 0 := by
  show (((0#1 : BitVec 1).toNat : ℝ) : EReal) = 0
  simp

/-- THE TABLE AT AN ENTRY: a vector laid down the rows, compared with the column numbers laid along the columns, the
    outcome turned into a number, is 1 at (p, q) exactly when the vector's entry p is q. -/
theorem table_at (h : IVec S4096 32) (p : Fin 4096) (q : Fin 2048) :
    (uitofp .bf16 (cmpi .eq
        (broadcastInDim S4096x2048 ![0, 1] bcast_S4096x1_S4096x2048_0_1 (broadcastInDim S4096x1 ![0] bcast_S4096_S4096x1_0 h))
        (broadcastInDim S4096x2048 ![0, 1] bcast_S1x2048_S4096x2048_0_1 (iotaInDim S1x2048 32 1))) : FVec Ideal S4096x2048 .bf16) (ix2 p q)
      = if h (ix1 p) = BitVec.ofNat 32 q.val then 1 else 0 := by
  have e1 : broadcastInDim S4096x2048 ![0, 1] bcast_S4096x1_S4096x2048_0_1 (broadcastInDim S4096x1 ![0] bcast_S4096_S4096x1_0 h) (ix2 p q)
      = h (ix1 p) := by
    rw [ix2_eq_ij, StableHlo.Predicate.bcast_rows, ofFin_eq_ix1]
  have e2 : broadcastInDim S4096x2048 ![0, 1] bcast_S1x2048_S4096x2048_0_1 (iotaInDim S1x2048 32 1) (ix2 p q)
      = BitVec.ofNat 32 q.val := by
    rw [ix2_eq_ij, StableHlo.Predicate.bcast_of_row]
    rfl
  show FloatOps.uitofp (F := Ideal) .bf16 (IntOp.cmpi .eq _ _) = _
  rw [e1, e2]
  by_cases hc : h (ix1 p) = BitVec.ofNat 32 q.val
  · rw [if_pos hc, StableHlo.Predicate.cmpi_eq_iff.2 hc, uitofp_one]
  · rw [if_neg hc, eq_zero_of_ne_one (fun e => hc (StableHlo.Predicate.cmpi_eq_iff.1 e)), uitofp_zero]

/-- After the six operations that make the table, its buffer holds the zero-one table of the hash index argument. -/
theorem table_after :
    StableHlo.after (hostOps0 (F := Ideal)) W (Proc.devRef .tc main_v0) = Cert.Spec.onehot (W (Proc.devRef .tc main_arg3)) := by
  have e : StableHlo.after (hostOps0 (F := Ideal)) W (Proc.devRef .tc main_v0)
      = (uitofp .bf16 (cmpi .eq
          (broadcastInDim S4096x2048 ![0, 1] bcast_S4096x1_S4096x2048_0_1
            (broadcastInDim S4096x1 ![0] bcast_S4096_S4096x1_0 (W (Proc.devRef .tc main_arg3) : IVec S4096 32)))
          (broadcastInDim S4096x2048 ![0, 1] bcast_S1x2048_S4096x2048_0_1 (iotaInDim S1x2048 32 1))) : FVec Ideal S4096x2048 .bf16) := by
    after_results; rfl
  rw [e]
  funext j
  rw [eq_ix2 j]
  exact table_at _ (j 0) (j 1)

/-- A vector reshaped to one row holds, at column i, its entry i. -/
theorem reshape_row (v : S4096.Idx → EReal) :
    shapeCast S1x4096 v shapeCasts_S4096_S1x4096 = Cert.Spec.rowOf v := by
  funext j
  rw [eq_ix2 j]
  exact shapeCast_a_1a_apply v shapeCasts_S4096_S1x4096 (j 0) (j 1)

/-- After the reshape of the sign vector, its buffer holds the vector as a row. -/
theorem row_after :
    StableHlo.after (hostOps0_1 (F := Ideal)) W (Proc.devRef .tc main_v1) = Cert.Spec.rowOf (W (Proc.devRef .tc main_arg4)) := by
  have e : StableHlo.after (hostOps0_1 (F := Ideal)) W (Proc.devRef .tc main_v1)
      = shapeCast S1x4096 (W (Proc.devRef .tc main_arg4) : S4096.Idx → EReal) shapeCasts_S4096_S1x4096 := by
    after_results; rfl
  rw [e]
  exact reshape_row _

/-- After the reshape of the bias vector, its buffer holds the vector as a row. -/
theorem bias_after :
    StableHlo.after (hostOps2 (F := Ideal)) W (Proc.devRef .tc main_v4) = Cert.Spec.rowOf (W (Proc.devRef .tc main_arg2)) := by
  have e : StableHlo.after (hostOps2 (F := Ideal)) W (Proc.devRef .tc main_v4)
      = shapeCast S1x4096 (W (Proc.devRef .tc main_arg2) : S4096.Idx → EReal) shapeCasts_S4096_S1x4096 := by
    after_results; rfl
  rw [e]
  exact reshape_row _

end Cert.KernelIdeal.Hand

end
-- ==== Proof.KernelValue.lean ====
/-
  The idealized kernel's result as one function of its five arguments: the result buffer at the end of the run holds G.
  The final call leaves finalK of the two sketch arrays and the bias row; each sketch call leaves the two-halves sketch of
  its matrix, the sign row and the zero-one table; the row, the table and the bias row are what the host operations make of the
  arguments; no item writes an argument. The two-halves sketch over the row and the table is the sketch (Spec).
-/
import proofs.«418869_j12721693131116_3_alg».proof.Proof.Run
import proofs.«418869_j12721693131116_3_alg».proof.Proof.SketchValue0
import proofs.«418869_j12721693131116_3_alg».proof.Proof.SketchValue1
import proofs.«418869_j12721693131116_3_alg».proof.Proof.FinalValue
import proofs.«418869_j12721693131116_3_alg».proof.Proof.HostValue
import proofs.«418869_j12721693131116_3_alg».proof.Proof.Spec

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-! ## A buffer no item before a boundary writes holds there what it held at launch -/

/-- Through the two host stretches at the start. -/
theorem W2_keeps (c : Dev nD) (r : Ref sig .tc) (h0 : r ∉ hostOps0_W) (h1 : r ∉ hostOps0_1_W) :
    W2 m c (Proc.devRef .tc r) = m ((c : Thread nD τ).loc r) :=
  (Gen.V2_of m c r h1).trans ((Gen.V1_of m c r h0).trans rfl)

/-! ## What the first sketch call finds -/

theorem V2_matrix (c : Dev nD) : V2 m c main_arg0 = m ((c : Thread nD τ).loc main_arg0) :=
  W2_keeps m c main_arg0 (by decide) (by decide)

theorem V2_row (c : Dev nD) : V2 m c main_v1 = Cert.Spec.rowOf (m ((c : Thread nD τ).loc main_arg4)) := by
  show StableHlo.after hostOps0_1 (W1 m c) (Proc.devRef .tc main_v1) = _
  rw [row_after]
  exact congrArg Cert.Spec.rowOf ((Gen.V1_of m c main_arg4 (by decide)).trans rfl)

theorem V2_table (c : Dev nD) : V2 m c main_v0 = Cert.Spec.onehot (m ((c : Thread nD τ).loc main_arg3)) := by
  show StableHlo.after hostOps0_1 (W1 m c) (Proc.devRef .tc main_v0) = _
  rw [show StableHlo.after hostOps0_1 (W1 m c) (Proc.devRef .tc main_v0) = W1 m c (Proc.devRef .tc main_v0) from
    Gen.V2_of m c main_v0 (by decide)]
  show StableHlo.after hostOps0 (W0 m c) (Proc.devRef .tc main_v0) = _
  rw [table_after]

/-! ## What the second sketch call finds: the first call changes none of its inputs -/

theorem V3_matrix (c : Dev nD) : V3 m c main_arg1 = m ((c : Thread nD τ).loc main_arg1) :=
  (W3_of_ne m c main_arg1 (by decide)).trans (W2_keeps m c main_arg1 (by decide) (by decide))

theorem V3_row (c : Dev nD) : V3 m c main_v1 = Cert.Spec.rowOf (m ((c : Thread nD τ).loc main_arg4)) :=
  ((W3_arr m c 1).trans (((dat0 (V2 m) c).arrAt_in 1 rfl _).trans (A_eq0 (V2 m) c 1))).trans (V2_row m c)

theorem V3_table (c : Dev nD) : V3 m c main_v0 = Cert.Spec.onehot (m ((c : Thread nD τ).loc main_arg3)) :=
  ((W3_arr m c 2).trans (((dat0 (V2 m) c).arrAt_in 2 rfl _).trans (A_eq0 (V2 m) c 2))).trans (V2_table m c)

/-! ## The two sketches -/

theorem sketch_first (c : Dev nD) :
    W3 m c (Proc.devRef .tc main_v2)
      = Cert.Spec.sketch (m ((c : Thread nD τ).loc main_arg0)) (m ((c : Thread nD τ).loc main_arg4)) (m ((c : Thread nD τ).loc main_arg3)) := by
  rw [show W3 m c (Proc.devRef .tc main_v2) = (dat0 (V2 m) c).arrAt 3 cfg0.N from W3_arr m c 3, sketch_value0]
  rw [show V2 m c (Pipeline.arrRef spec0 0) = m ((c : Thread nD τ).loc main_arg0) from V2_matrix m c,
    show V2 m c (Pipeline.arrRef spec0 1) = _ from V2_row m c, show V2 m c (Pipeline.arrRef spec0 2) = _ from V2_table m c]
  exact Cert.Spec.sketchBlocked_onehot _ _ _

theorem sketch_second (c : Dev nD) :
    W4 m c (Proc.devRef .tc main_v3)
      = Cert.Spec.sketch (m ((c : Thread nD τ).loc main_arg1)) (m ((c : Thread nD τ).loc main_arg4)) (m ((c : Thread nD τ).loc main_arg3)) := by
  rw [show W4 m c (Proc.devRef .tc main_v3) = (dat1 (V3 m) c).arrAt 3 cfg1.N from W4_arr m c 3, sketch_value1]
  rw [show V3 m c (Pipeline.arrRef spec1 0) = m ((c : Thread nD τ).loc main_arg1) from V3_matrix m c,
    show V3 m c (Pipeline.arrRef spec1 1) = _ from V3_row m c, show V3 m c (Pipeline.arrRef spec1 2) = _ from V3_table m c]
  exact Cert.Spec.sketchBlocked_onehot _ _ _

/-! ## What the final call finds, and the result -/

theorem V5_first (c : Dev nD) :
    V5 m c main_v2 = Cert.Spec.sketch (m ((c : Thread nD τ).loc main_arg0)) (m ((c : Thread nD τ).loc main_arg4)) (m ((c : Thread nD τ).loc main_arg3)) :=
  ((StableHlo.after_of_writes_sub hostOps2 _ Gen.hostOps2_writes (r := main_v2) (by decide)).trans
    (W4_of_ne m c main_v2 (by decide))).trans (sketch_first m c)

theorem V5_second (c : Dev nD) :
    V5 m c main_v3 = Cert.Spec.sketch (m ((c : Thread nD τ).loc main_arg1)) (m ((c : Thread nD τ).loc main_arg4)) (m ((c : Thread nD τ).loc main_arg3)) :=
  (StableHlo.after_of_writes_sub hostOps2 _ Gen.hostOps2_writes (r := main_v3) (by decide)).trans (sketch_second m c)

theorem V5_bias (c : Dev nD) : V5 m c main_v4 = Cert.Spec.rowOf (m ((c : Thread nD τ).loc main_arg2)) := by
  show StableHlo.after hostOps2 (W4 m c) (Proc.devRef .tc main_v4) = _
  rw [bias_after]
  exact congrArg Cert.Spec.rowOf
    ((W4_of_ne m c main_arg2 (by decide)).trans ((W3_of_ne m c main_arg2 (by decide)).trans (W2_keeps m c main_arg2 (by decide) (by decide))))

/-- THE KERNEL'S VALUE: at the end of the run the result buffer holds `G` of the five arguments. -/
theorem kernel_value (c : Dev nD) :
    W6 m c (Proc.devRef .tc main_v5)
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) := by
  rw [show W6 m c (Proc.devRef .tc main_v5) = (dat2 (V5 m) c).arrAt 3 cfg2.N from W6_arr m c 3, final_value2,
    V5_first, V5_second, V5_bias]
  rfl

end Cert.KernelIdeal.Hand

end
-- ==== Proof.RefValue.lean ====
/-
  The reference's value: its run ends with the result array at G of the argument arrays, when every hash index is a bucket number.
-/
import proofs.«418869_j12721693131116_3_alg».proof.Proof.Gen.ReferenceIdeal.Run
import proofs.«418869_j12721693131116_3_alg».proof.Proof.Gen.ReferenceIdeal.Read
import proofs.«418869_j12721693131116_3_alg».proof.Proof.Spec
import Idealize.ShloMosaic.Lib.ValueIdx
import Idealize.ShloMosaic.Lib.StableHlo.Predicate
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Gen

/-- On the row axis the window starts at 0: the index column names only the bucket axis. -/
theorem start_row (idx : IVec S4096x1 32) (j : S4096x4096.Idx) :
    scatter_S4096x2048_S4096x1_S4096x4096_0_1_1_1.start j idx 0 = 0 := by
  unfold ScatterDims.start
  rw [dif_neg (show ¬(0 : Fin S4096x2048.rank) ∈ scatter_S4096x2048_S4096x1_S4096x4096_0_1_1_1.scatterDimsToOperandDims by decide)]

theorem start_bucket (idx : IVec S4096x1 32) (j : S4096x4096.Idx) :
    scatter_S4096x2048_S4096x1_S4096x4096_0_1_1_1.start j idx 1 = (idx (ix2 (j 1) 0)).toInt := by
  unfold ScatterDims.start
  rw [dif_pos (show (1 : Fin S4096x2048.rank) ∈ scatter_S4096x2048_S4096x1_S4096x4096_0_1_1_1.scatterDimsToOperandDims by decide)]
  congr 2
  funext b
  match b with
  | ⟨0, _⟩ => rfl
  | ⟨1, _⟩ => rfl

theorem window_row (j : S4096x4096.Idx) :
    scatter_S4096x2048_S4096x1_S4096x4096_0_1_1_1.window j 0 = (j 0).val := by
  unfold ScatterDims.window
  rw [dif_pos (show (0 : Fin S4096x2048.rank) ∈ scatter_S4096x2048_S4096x1_S4096x4096_0_1_1_1.sKept by decide)]
  rfl

theorem window_bucket (j : S4096x4096.Idx) :
    scatter_S4096x2048_S4096x1_S4096x4096_0_1_1_1.window j 1 = 0 := by
  unfold ScatterDims.window
  rw [dif_neg (show ¬(1 : Fin S4096x2048.rank) ∈ scatter_S4096x2048_S4096x1_S4096x4096_0_1_1_1.sKept by decide)]

open Idealize.ShloMosaic.StableHlo.Predicate in
/-- Where an update lands: the update at (n', d) goes to (n', the index of column d), when that index read unsigned is a
    bucket number: read signed it is the same number, and it is inside the bucket axis. -/
theorem lands (idx : IVec S4096x1 32) (j : S4096x4096.Idx) (h : (idx (ix2 (j 1) 0)).toNat < 2048) :
    scatter_S4096x2048_S4096x1_S4096x4096_0_1_1_1.resultIdx? j idx = some (ix2 (j 0) ⟨(idx (ix2 (j 1) 0)).toNat, h⟩) := by
  have e0 : scatter_S4096x2048_S4096x1_S4096x4096_0_1_1_1.start j idx 0
      + (scatter_S4096x2048_S4096x1_S4096x4096_0_1_1_1.window j 0 : Int) = ((j 0).val : Int) := by
    rw [start_row, window_row, zero_add]
  have e1 : scatter_S4096x2048_S4096x1_S4096x4096_0_1_1_1.start j idx 1
      + (scatter_S4096x2048_S4096x1_S4096x4096_0_1_1_1.window j 1 : Int) = ((idx (ix2 (j 1) 0)).toNat : Int) := by
    rw [start_bucket, window_bucket, toInt_eq_toNat_of_lt (by omega), Nat.cast_zero, add_zero]
  have hj0 := idx2_lt0 j
  unfold ScatterDims.resultIdx?
  rw [dif_pos (fun a => by
    match a with
    | ⟨0, _⟩ =>
      show 0 ≤ scatter_S4096x2048_S4096x1_S4096x4096_0_1_1_1.start j idx 0 + (scatter_S4096x2048_S4096x1_S4096x4096_0_1_1_1.window j 0 : Int)
        ∧ scatter_S4096x2048_S4096x1_S4096x4096_0_1_1_1.start j idx 0 + (scatter_S4096x2048_S4096x1_S4096x4096_0_1_1_1.window j 0 : Int) < ((4096 : Nat) : Int)
      rw [e0]; omega
    | ⟨1, _⟩ =>
      show 0 ≤ scatter_S4096x2048_S4096x1_S4096x4096_0_1_1_1.start j idx 1 + (scatter_S4096x2048_S4096x1_S4096x4096_0_1_1_1.window j 1 : Int)
        ∧ scatter_S4096x2048_S4096x1_S4096x4096_0_1_1_1.start j idx 1 + (scatter_S4096x2048_S4096x1_S4096x4096_0_1_1_1.window j 1 : Int) < ((2048 : Nat) : Int)
      rw [e1]; omega)]
  congr 1
  funext a
  match a with
  | ⟨0, _⟩ =>
    refine Fin.ext ?_
    show (scatter_S4096x2048_S4096x1_S4096x4096_0_1_1_1.start j idx 0 + (scatter_S4096x2048_S4096x1_S4096x4096_0_1_1_1.window j 0 : Int)).toNat = (j 0).val
    rw [e0]; rfl
  | ⟨1, _⟩ =>
    refine Fin.ext ?_
    show (scatter_S4096x2048_S4096x1_S4096x4096_0_1_1_1.start j idx 1 + (scatter_S4096x2048_S4096x1_S4096x4096_0_1_1_1.window j 1 : Int)).toNat = (idx (ix2 (j 1) 0)).toNat
    rw [e1]; rfl

/-- The update at (a, d) lands at (n, b) exactly when it is in row n and column d's index is b. -/
theorem lands_iff (idx : IVec S4096x1 32) (hidx : ∀ d : Fin 4096, (idx (ix2 d 0)).toNat < 2048)
    (a d n : Fin 4096) (b : Fin 2048) :
    scatter_S4096x2048_S4096x1_S4096x4096_0_1_1_1.resultIdx? (ix2 a d) idx = some (ix2 n b)
      ↔ a = n ∧ (idx (ix2 d 0)).toNat = b.val := by
  rw [lands idx (ix2 a d) (hidx d)]
  constructor
  · intro h
    have h' := Option.some.inj h
    exact ⟨congrFun h' 0, congrArg Fin.val (congrFun h' 1)⟩
  · rintro ⟨rfl, hb⟩
    congr 1
    funext c
    match c with
    | ⟨0, _⟩ => rfl
    | ⟨1, _⟩ => exact Fin.ext hb

/-- THE SCATTER AT AN ELEMENT: bucket b of row n is the operand's element plus the updates of row n over the columns whose
    index is b, when every index read unsigned is a bucket number. -/
theorem scatter_apply (z : FVec Ideal S4096x2048 .f32) (idx : IVec S4096x1 32) (u : FVec Ideal S4096x4096 .f32)
    (hidx : ∀ d : Fin 4096, (idx (ix2 d 0)).toNat < 2048) (n : Fin 4096) (b : Fin 2048) :
    Host.scatterAdd (F := Ideal) scatter_S4096x2048_S4096x1_S4096x4096_0_1_1_1 z idx u (ix2 n b)
      = z (ix2 n b) + ∑ d : Fin 4096, if (idx (ix2 d 0)).toNat = b.val then u (ix2 n d) else 0 := by
  show z (ix2 n b) + ∑ j ∈ Finset.univ.filter (fun j => scatter_S4096x2048_S4096x1_S4096x4096_0_1_1_1.resultIdx? j idx = some (ix2 n b)), u j = _
  congr 1
  rw [Finset.sum_filter, sum_idx2, Finset.sum_comm]
  refine Finset.sum_congr rfl fun d _ => ?_
  by_cases hP : (idx (ix2 d 0)).toNat = b.val
  · rw [if_pos hP, Finset.sum_eq_single n]
    · rw [if_pos ((lands_iff idx hidx n d n b).2 ⟨rfl, hP⟩)]
    · intro a _ hne
      rw [if_neg (fun h => hne ((lands_iff idx hidx a d n b).1 h).1)]
    · intro h
      exact absurd (Finset.mem_univ n) h
  · rw [if_neg hP]
    exact Finset.sum_eq_zero fun a _ => if_neg (fun h => hP ((lands_iff idx hidx a d n b).1 h).2)

open Idealize.ShloMosaic.StableHlo.Predicate in
/-- The index column at row d is the hash index of d: an index below 2048 is not negative as a signed word, so the wrap
    of negative indices leaves it. -/
theorem idx_col (x3 : (⟨S4096, .i32⟩ : BufTy).Contents (Elt Ideal))
    (hrange : ∀ d : Fin 4096, (x3 (ix1 d)).toNat < 2048) (d : Fin 4096) :
    Read.val_main_v9 (F := Ideal) x3 (ix2 d 0) = x3 (ix1 d) := by
  have e : Read.idx_main_v9 (ix2 d (0 : Fin 1)) = ix1 d := funext fun a => by
    match a with
    | ⟨0, _⟩ => rfl
  rw [Read.val_main_v9_apply, Read.val_main_v8_apply, Read.val_main_v5_apply, Read.val_main_v4_apply, Read.val_main_c_apply, e]
  have hn : IntOp.cmpi .slt (x3 (ix1 d)) 0#32 = 0#1 := by
    refine eq_zero_of_ne_one fun h1 => ?_
    have := (slt_iff_toNat (a := x3 (ix1 d)) (b := 0#32) (by have := hrange d; omega) (by decide)).1 h1
    simp at this
  rw [hn, select_zero]

/-- The second scatter is the first one's term at the other matrix: the two are built from equal operations. -/
theorem v21_eq (x1 : (⟨S4096x4096, .f32⟩ : BufTy).Contents (Elt Ideal)) (x3 : (⟨S4096, .i32⟩ : BufTy).Contents (Elt Ideal))
    (x4 : (⟨S4096, .f32⟩ : BufTy).Contents (Elt Ideal)) :
    Read.val_main_v21 (F := Ideal) x1 x3 x4 = Read.val_main_v10 (F := Ideal) x1 x3 x4 := rfl

/-- The signed entry: the update at (n, d) is x(n, d) · s(d). -/
theorem upd_at (x : (⟨S4096x4096, .f32⟩ : BufTy).Contents (Elt Ideal)) (x4 : (⟨S4096, .f32⟩ : BufTy).Contents (Elt Ideal))
    (n d : Fin 4096) :
    Read.val_main_v3 (F := Ideal) x x4 (ix2 n d) = x (ix2 n d) * x4 (ix1 d) := by
  have e : Read.idx_main_v1 (Read.idx_main_v2 (ix2 n d)) = ix1 d := funext fun a => by
    match a with
    | ⟨0, _⟩ => rfl
  rw [Read.val_main_v3_apply, Read.val_main_v2_apply, Read.val_main_v1_apply, e]
  rfl

/-- A word whose value is below 2048 is the word of a bucket number exactly when its value is that number. -/
theorem word_eq_iff (w : BitVec 32) (b : Fin 2048) : w.toNat = b.val ↔ w = BitVec.ofNat 32 b.val := by
  have hb := b.isLt
  constructor
  · intro h
    apply BitVec.eq_of_toNat_eq
    rw [BitVec.toNat_ofNat, h, Nat.mod_eq_of_lt (by omega)]
  · intro h
    rw [h, BitVec.toNat_ofNat, Nat.mod_eq_of_lt (by omega)]

/-- The reference's scatter of a matrix is its count sketch. -/
theorem sketch_at (x : (⟨S4096x4096, .f32⟩ : BufTy).Contents (Elt Ideal)) (x3 : (⟨S4096, .i32⟩ : BufTy).Contents (Elt Ideal))
    (x4 : (⟨S4096, .f32⟩ : BufTy).Contents (Elt Ideal)) (hrange : ∀ d : Fin 4096, (x3 (ix1 d)).toNat < 2048)
    (n : Fin 4096) (b : Fin 2048) :
    Read.val_main_v10 (F := Ideal) x x3 x4 (ix2 n b) = Cert.Spec.sketchAt x x4 x3 n b := by
  unfold Read.val_main_v10
  rw [scatter_apply _ _ _ (fun d => by rw [idx_col x3 hrange d]; exact hrange d) n b,
    Read.val_main_v0_apply, Read.val_main_cst_apply]
  rw [show FloatOps.ofBits (F := Ideal) .f32 0x00000000#32 = (0 : EReal) from Ideal.ofBits_zero_f32, zero_add]
  unfold Cert.Spec.sketchAt
  refine Finset.sum_congr rfl fun d _ => ?_
  rw [idx_col x3 hrange d, upd_at]
  exact if_congr (word_eq_iff _ b) rfl rfl

/-- The reference's result term is `G` of the arguments, when every hash index read unsigned is below 2048: then no index
    is negative (the wrap of negative indices does nothing) and every update lands in its bucket. -/
theorem ref_is_G (x0 x1 : (⟨S4096x4096, .f32⟩ : BufTy).Contents (Elt Ideal)) (x2 : (⟨S4096, .f32⟩ : BufTy).Contents (Elt Ideal))
    (x3 : (⟨S4096, .i32⟩ : BufTy).Contents (Elt Ideal)) (x4 : (⟨S4096, .f32⟩ : BufTy).Contents (Elt Ideal))
    (hrange : ∀ d : Fin 4096, (x3 (ix1 d)).toNat < 2048) :
    Cert.ReferenceIdeal.Read.val_main_v26 (F := Ideal) x0 x1 x2 x3 x4 = Cert.Spec.G x0 x1 x2 x3 x4 := by
  funext i
  obtain ⟨n, o, rfl⟩ : ∃ (n : Fin 4096) (o : Fin 4096), i = ix2 n o := ⟨i 0, i 1, eq_ix2 i⟩
  have el : ∀ k : Fin 2048, Read.lidx_main_v23 (ix2 n o) k = ix2 n k := fun k => funext fun a => Fin.ext (by
    match a with
    | ⟨0, _⟩ => rfl
    | ⟨1, _⟩ => rfl)
  have er : ∀ k : Fin 2048, Read.idx_main_v22 (Read.ridx_main_v23 (ix2 n o) k) = ix2 o k := fun k => funext fun a => Fin.ext (by
    match a with
    | ⟨0, _⟩ => rfl
    | ⟨1, _⟩ => rfl)
  have eb : Read.idx_main_v24 (Read.idx_main_v25 (ix2 n o)) = ix1 o := funext fun a => by
    match a with
    | ⟨0, _⟩ => rfl
  rw [Read.val_main_v26_apply, Read.val_main_v23_apply, Read.val_main_v25_apply, Read.val_main_v24_apply, eb]
  show (∑ k : Fin 2048, _) + x2 (ix1 o)
    = Cert.Spec.finalAt (Cert.Spec.sketch x0 x4 x3) (Cert.Spec.sketch x1 x4 x3) (Cert.Spec.rowOf x2) n o
  unfold Cert.Spec.finalAt
  refine congrArg (· + x2 (ix1 o)) (Finset.sum_congr rfl fun k _ => ?_)
  rw [Read.val_main_v22_apply, el, er, v21_eq, sketch_at x0 x3 x4 hrange n k, sketch_at x1 x3 x4 hrange o k]
  rfl

end Cert.ReferenceIdeal.RefValue

end
-- ==== Proof.PreRange.lean ====
/-
  What the precondition says of the hash indices: every one is a bucket number, 0 ≤ h(d) < 2048 as a signed word, that is,
  its unsigned value is below 2048.
-/
import proofs.«418869_j12721693131116_3_alg».proof.Pre_finite_inputs
import Idealize.ShloMosaic.Lib.ReduceAll
import Idealize.ShloMosaic.Lib.StableHlo.Predicate
import Idealize.ShloMosaic.Lib.ValueIdx

noncomputable section

namespace Cert.PreRange

open Idealize.ShloMosaic Idealize.ShloMosaic.ValueIdx Cert.Pre_finite_inputs

variable {F : FTy → Type} [FloatOps F] [Cert.Pre_finite_inputs.Facts]

/-- The scalar shape has one index. -/
instance : Subsingleton S_.Idx := ⟨fun a b => funext fun d => d.elim0⟩

/-- A one-bit word made from a truth value is 1 exactly when the truth value is true. -/
theorem ofBool_one (b : Bool) : BitVec.ofBool b = 1#1 ↔ b = true := by cases b <;> decide

/-- A 32-bit word that is at least 0 and below 2048 as a signed number is below 2048 as an unsigned one. -/
theorem toNat_lt_of_signed (w : BitVec 32) (h0 : IntOp.cmpi .sge w 0#32 = 1#1) (h1 : IntOp.cmpi .slt w 2048#32 = 1#1) :
    w.toNat < 2048 := by
  have c0 : (0#32).toInt = 0 := by decide
  have c1 : (2048#32).toInt = 2048 := by decide
  have g0 : (0#32).sle w = true := (ofBool_one _).1 h0
  have g1 : w.slt 2048#32 = true := (ofBool_one _).1 h1
  rw [BitVec.sle, decide_eq_true_eq, c0] at g0
  rw [BitVec.slt, decide_eq_true_eq, c1] at g1
  have hw := w.isLt
  rw [BitVec.toInt_eq_toNat_cond] at g0 g1
  split at g0 <;> omega

/-- If the printed precondition is all ones, every hash index read unsigned is below 2048. -/
theorem range_of_pre (a0 a1 : FVec F S4096x4096 .f32) (a2 : FVec F S4096 .f32) (a3 : IVec S4096 32) (a4 : FVec F S4096 .f32)
    (h : Cert.Pre_finite_inputs.fn (F := F) a0 a1 a2 a3 a4 = fun _ => 1#1) :
    ∀ d : Fin 4096, (a3 (ix1 d)).toNat < 2048 := by
  intro d
  have e := congrFun h ix0
  dsimp only [fn, fn_part1] at e
  obtain ⟨e1, eLt⟩ := IntOp.andi_eq_one.1 e
  obtain ⟨-, eGe⟩ := IntOp.andi_eq_one.1 e1
  have pGe := Host.reduce_andi_all _ _ _ _ _ eGe (ix1 d)
  have pLt := Host.reduce_andi_all _ _ _ _ _ eLt (ix1 d)
  exact toNat_lt_of_signed _ pGe pLt

end Cert.PreRange

end
-- ==== Proof.lean ====
/-
  The five conjuncts of the claim.
  The idealized kernel and the reference both end with the result array at one function G of the five argument arrays over the
  extended reals: out(n, o) = Σ_b sketch(x)(n, b) · sketch(w)(o, b) + bias(o), where bucket b of row n of a sketch collects the signed
  entries x(n, d) · s(d) of the columns d whose hash index is b. The kernel forms each sketch as a matrix product with a zero-one
  table, the contracted axis in two halves accumulated in a scratch tile; the reference scatters the signed columns into the
  buckets. The two agree when every hash index is a bucket number (the precondition's last two conjuncts): then the
  reference's wrap of negative indices does nothing and every update lands in its bucket. No law that needs finiteness is used.
  The three frames: every run terminates without a fault and leaves the arguments as launched — for the two kernel programs read
  off the run over the program's six items (host operations, the two sketch calls, the final call), for the reference off its run.
  The idealization rewrote nothing, so the fourth conjunct is trivial.
-/
import proofs.«418869_j12721693131116_3_alg».proof.Defs
import proofs.«418869_j12721693131116_3_alg».proof.Proof.Gen.Kernel
import proofs.«418869_j12721693131116_3_alg».proof.Proof.Gen.KernelIdeal
import proofs.«418869_j12721693131116_3_alg».proof.Proof.Gen.ReferenceIdeal
import proofs.«418869_j12721693131116_3_alg».proof.Proof.Gen.Pre_finite_inputs
import proofs.«418869_j12721693131116_3_alg».proof.Proof.Gen.ReferenceIdeal.Run
import proofs.«418869_j12721693131116_3_alg».proof.Proof.Gen.ReferenceIdeal.Read
import proofs.«418869_j12721693131116_3_alg».proof.Proof.Run
import proofs.«418869_j12721693131116_3_alg».proof.Proof.BitsRun
import proofs.«418869_j12721693131116_3_alg».proof.Proof.KernelValue
import proofs.«418869_j12721693131116_3_alg».proof.Proof.RefValue
import proofs.«418869_j12721693131116_3_alg».proof.Proof.PreRange
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : @Cert.frame_Kernel Cert.Kernel.Gen.facts Cert.Pre_finite_inputs.Gen.facts := fun m ρ _ =>
  (θ_run (Cert.Kernel.defs (F := Bits)) _ _).mono (fun r h c =>
    ⟨(h c _ (Cert.Kernel.Hand.mem_uc Cert.Kernel.main_arg0 (by decide))).trans (Cert.Kernel.Hand.W6_main_arg0 m c),
     (h c _ (Cert.Kernel.Hand.mem_uc Cert.Kernel.main_arg1 (by decide))).trans (Cert.Kernel.Hand.W6_main_arg1 m c),
     (h c _ (Cert.Kernel.Hand.mem_uc Cert.Kernel.main_arg2 (by decide))).trans (Cert.Kernel.Hand.W6_main_arg2 m c),
     (h c _ (Cert.Kernel.Hand.mem_uc Cert.Kernel.main_arg3 (by decide))).trans (Cert.Kernel.Hand.W6_main_arg3 m c),
     (h c _ (Cert.Kernel.Hand.mem_uc Cert.Kernel.main_arg4 (by decide))).trans (Cert.Kernel.Hand.W6_main_arg4 m c)⟩)
    (Cert.Kernel.Hand.run_all (F := Bits) m ρ)

/-- The idealized kernel's run, with the result buffer named: G of the arguments. -/
theorem run_ki (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v5)
            = Cert.Spec.G (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3))
                (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run (Cert.KernelIdeal.defs (F := Ideal)) _ _).mono (fun r h c =>
    ⟨(h c _ (Cert.KernelIdeal.Hand.mem_uc Cert.KernelIdeal.main_v5 (by decide))).trans (Cert.KernelIdeal.Hand.kernel_value m c),
     (h c _ (Cert.KernelIdeal.Hand.mem_uc Cert.KernelIdeal.main_arg0 (by decide))).trans (Cert.KernelIdeal.Hand.W6_main_arg0 m c),
     (h c _ (Cert.KernelIdeal.Hand.mem_uc Cert.KernelIdeal.main_arg1 (by decide))).trans (Cert.KernelIdeal.Hand.W6_main_arg1 m c),
     (h c _ (Cert.KernelIdeal.Hand.mem_uc Cert.KernelIdeal.main_arg2 (by decide))).trans (Cert.KernelIdeal.Hand.W6_main_arg2 m c),
     (h c _ (Cert.KernelIdeal.Hand.mem_uc Cert.KernelIdeal.main_arg3 (by decide))).trans (Cert.KernelIdeal.Hand.W6_main_arg3 m c),
     (h c _ (Cert.KernelIdeal.Hand.mem_uc Cert.KernelIdeal.main_arg4 (by decide))).trans (Cert.KernelIdeal.Hand.W6_main_arg4 m c)⟩)
    (Cert.KernelIdeal.Hand.run_all (F := Ideal) m ρ)

/-- The idealized kernel runs and leaves its arguments as launched. -/
theorem frame_ki : @Cert.frame_KernelIdeal Cert.KernelIdeal.Gen.facts Cert.Pre_finite_inputs.Gen.facts := fun m ρ _ =>
  (θ_run (Cert.KernelIdeal.defs (F := Ideal)) _ _).mono (fun _ h c => (h c).2) (run_ki m ρ)

/-- The reference runs and leaves its arguments as launched: its run with the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result at G of the kernel's arguments: the kernel by its
    value, the reference by its run read at G under the range fact the precondition gives. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), run_ki m ρ, ?_⟩
  refine (θ_run Cert.ReferenceIdeal.defs _ _).mono (fun _ h c => ⟨(h c).1.trans ?_, (h c).2⟩)
    (Cert.ReferenceIdeal.Value.run (F := Ideal) m' ρ')
  have hrange := Cert.PreRange.range_of_pre (F := Ideal) _ _ _ _ _ (hpre c)
  rw [(hagree c).1, (hagree c).2.1, (hagree c).2.2.1, (hagree c).2.2.2.1, (hagree c).2.2.2.2]
  exact (Cert.ReferenceIdeal.Read.val_main_v26_eq (F := Ideal) _ _ _ _ _).trans
    (Cert.ReferenceIdeal.RefValue.ref_is_G _ _ _ _ _ hrange)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
